-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S100000 : Shape := ⟨1, ![100000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x18 : Shape := ⟨2, ![64, 18]⟩
abbrev S18 : Shape := ⟨1, ![18]⟩
abbrev S18x12 : Shape := ⟨2, ![18, 12]⟩
abbrev S12 : Shape := ⟨1, ![12]⟩
abbrev S12x6 : Shape := ⟨2, ![12, 6]⟩
abbrev S6 : Shape := ⟨1, ![6]⟩
abbrev S6x2 : Shape := ⟨2, ![6, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x18 : S_.BroadcastsInDim S64x18 (![] : Fin 0 → Fin S64x18.rank)
  reducesTo_S64x18_S_d0_1 : S64x18.ReducesTo [0, 1] S_
  bcast_S_S18 : S_.BroadcastsInDim S18 (![] : Fin 0 → Fin S18.rank)
  reducesTo_S18_S_d0 : S18.ReducesTo [0] S_
  bcast_S_S18x12 : S_.BroadcastsInDim S18x12 (![] : Fin 0 → Fin S18x12.rank)
  reducesTo_S18x12_S_d0_1 : S18x12.ReducesTo [0, 1] S_
  bcast_S_S12 : S_.BroadcastsInDim S12 (![] : Fin 0 → Fin S12.rank)
  reducesTo_S12_S_d0 : S12.ReducesTo [0] S_
  bcast_S_S12x6 : S_.BroadcastsInDim S12x6 (![] : Fin 0 → Fin S12x6.rank)
  reducesTo_S12x6_S_d0_1 : S12x6.ReducesTo [0, 1] S_
  bcast_S_S6 : S_.BroadcastsInDim S6 (![] : Fin 0 → Fin S6.rank)
  reducesTo_S6_S_d0 : S6.ReducesTo [0] S_
  bcast_S_S6x2 : S_.BroadcastsInDim S6x2 (![] : Fin 0 → Fin S6x2.rank)
  reducesTo_S6x2_S_d0_1 : S6x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg14 : FVec F S6x2 .f32) (main_arg15 : FVec F S2 .f32) (main_v48 : IVec S_ 1) (main_v49 : FVec F S6 .f32) (main_v50 : FVec F S6 .f32) : IVec S_ 1 :=
  let main_v51 : IVec S6 1 := cmpf .olt main_v49 main_v50
  let main_c_19 : IVec S_ 1 := constantI S_ 1 1#1
  let main_v52 : IVec S_ 1 := (fun x v => Host.reduce IntOp.andi x v reducesTo_S6_S_d0 h_S_) main_v51 main_c_19
  let main_v53 : IVec S_ 1 := andi main_v48 main_v52
  let main_v54 : FVec F S6x2 .f32 := Host.absf main_arg14
  let main_cst_20 : FVec F S_ .f32 := constant S_ .f32 0x7F800000#32
  let main_v55 : FVec F S6x2 .f32 := broadcastInDim S6x2 ![] bcast_S_S6x2 main_cst_20
  let main_v56 : IVec S6x2 1 := cmpf .olt main_v54 main_v55
  let main_c_21 : IVec S_ 1 := constantI S_ 1 1#1
  let main_v57 : IVec S_ 1 := (fun x v => Host.reduce IntOp.andi x v reducesTo_S6x2_S_d0_1 h_S_) main_v56 main_c_21
  let main_v58 : IVec S_ 1 := andi main_v53 main_v57
  let main_v59 : FVec F S2 .f32 := Host.absf main_arg15
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg10 : FVec F S18x12 .f32) (main_arg11 : FVec F S12 .f32) (main_arg12 : FVec F S12x6 .f32) (main_arg13 : FVec F S6 .f32) (main_arg14 : FVec F S6x2 .f32) (main_arg15 : FVec F S2 .f32) (main_v33 : IVec S_ 1) : IVec S_ 1 :=
  let main_v34 : FVec F S18x12 .f32 := Host.absf main_arg10
  let main_cst_12 : FVec F S_ .f32 := constant S_ .f32 0x7F800000#32
  let main_v35 : FVec F S18x12 .f32 := broadcastInDim S18x12 ![] bcast_S_S18x12 main_cst_12
  let main_v36 : IVec S18x12 1 := cmpf .olt main_v34 main_v35
  let main_c_13 : IVec S_ 1 := constantI S_ 1 1#1
  let main_v37 : IVec S_ 1 := (fun x v => Host.reduce IntOp.andi x v reducesTo_S18x12_S_d0_1 h_S_) main_v36 main_c_13
  let main_v38 : IVec S_ 1 := andi main_v33 main_v37
  let main_v39 : FVec F S12 .f32 := Host.absf main_arg11
  let main_cst_14 : FVec F S_ .f32 := constant S_ .f32 0x7F800000#32
  let main_v40 : FVec F S12 .f32 := broadcastInDim S12 ![] bcast_S_S12 main_cst_14
  let main_v41 : IVec S12 1 := cmpf .olt main_v39 main_v40
  let main_c_15 : IVec S_ 1 := constantI S_ 1 1#1
  let main_v42 : IVec S_ 1 := (fun x v => Host.reduce IntOp.andi x v reducesTo_S12_S_d0 h_S_) main_v41 main_c_15
  let main_v43 : IVec S_ 1 := andi main_v38 main_v42
  let main_v44 : FVec F S12x6 .f32 := Host.absf main_arg12
  let main_cst_16 : FVec F S_ .f32 := constant S_ .f32 0x7F800000#32
  let main_v45 : FVec F S12x6 .f32 := broadcastInDim S12x6 ![] bcast_S_S12x6 main_cst_16
  let main_v46 : IVec S12x6 1 := cmpf .olt main_v44 main_v45
  let main_c_17 : IVec S_ 1 := constantI S_ 1 1#1
  let main_v47 : IVec S_ 1 := (fun x v => Host.reduce IntOp.andi x v reducesTo_S12x6_S_d0_1 h_S_) main_v46 main_c_17
  let main_v48 : IVec S_ 1 := andi main_v43 main_v47
  let main_v49 : FVec F S6 .f32 := Host.absf main_arg13
  let main_cst_18 : FVec F S_ .f32 := constant S_ .f32 0x7F800000#32
  let main_v50 : FVec F S6 .f32 := broadcastInDim S6 ![] bcast_S_S6 main_cst_18
  fn_part3 (F := F) main_arg14 main_arg15 main_v48 main_v49 main_v50

def fn_part1 {F : FTy → Type} [FloatOps F] (main_arg7 : FVec F S64 .f32) (main_arg8 : FVec F S64x18 .f32) (main_arg9 : FVec F S18 .f32) (main_arg10 : FVec F S18x12 .f32) (main_arg11 : FVec F S12 .f32) (main_arg12 : FVec F S12x6 .f32) (main_arg13 : FVec F S6 .f32) (main_arg14 : FVec F S6x2 .f32) (main_arg15 : FVec F S2 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x18 .f32 := Host.absf main_arg8
  let main_cst_8 : FVec F S_ .f32 := constant S_ .f32 0x7F800000#32
  let main_v25 : FVec F S64x18 .f32 := broadcastInDim S64x18 ![] bcast_S_S64x18 main_cst_8
  let main_v26 : IVec S64x18 1 := cmpf .olt main_v24 main_v25
  let main_c_9 : IVec S_ 1 := constantI S_ 1 1#1
  let main_v27 : IVec S_ 1 := (fun x v => Host.reduce IntOp.andi x v reducesTo_S64x18_S_d0_1 h_S_) main_v26 main_c_9
  let main_v28 : IVec S_ 1 := andi main_v23 main_v27
  let main_v29 : FVec F S18 .f32 := Host.absf main_arg9
  let main_cst_10 : FVec F S_ .f32 := constant S_ .f32 0x7F800000#32
  let main_v30 : FVec F S18 .f32 := broadcastInDim S18 ![] bcast_S_S18 main_cst_10
  let main_v31 : IVec S18 1 := cmpf .olt main_v29 main_v30
  let main_c_11 : IVec S_ 1 := constantI S_ 1 1#1
  let main_v32 : IVec S_ 1 := (fun x v => Host.reduce IntOp.andi x v reducesTo_S18_S_d0 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : FVec F S100000x128 .f32) (main_arg1 : IVec S1600000 32) (main_arg2 : IVec S1600000 32) (main_arg3 : IVec S100000 32) (main_arg4 : FVec F S128x256 .f32) (main_arg5 : FVec F S256 .f32) (main_arg6 : FVec F S256x64 .f32) (main_arg7 : FVec F S64 .f32) (main_arg8 : FVec F S64x18 .f32) (main_arg9 : FVec F S18 .f32) (main_arg10 : FVec F S18x12 .f32) (main_arg11 : FVec F S12 .f32) (main_arg12 : FVec F S12x6 .f32) (main_arg13 : FVec F S6 .f32) (main_arg14 : FVec F S6x2 .f32) (main_arg15 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg4
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg6
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg7 main_arg8 main_arg9 main_arg10 main_arg11 main_arg12 main_arg13 main_arg14 main_arg15 main_v13 main_v16
-- ==== Kernel.lean ====
abbrev S100000x128 : Shape := ⟨2, ![100000, 128]⟩
abbrev S1600000 : Shape := ⟨1, ![1600000]⟩
abbrev S100000 : Shape := ⟨1, ![100000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x18 : Shape := ⟨2, ![64, 18]⟩
abbrev S18 : Shape := ⟨1, ![18]⟩
abbrev S18x12 : Shape := ⟨2, ![18, 12]⟩
abbrev S12 : Shape := ⟨1, ![12]⟩
abbrev S12x6 : Shape := ⟨2, ![12, 6]⟩
abbrev S6 : Shape := ⟨1, ![6]⟩
abbrev S6x2 : Shape := ⟨2, ![6, 2]⟩
abbrev S2 : Shape := ⟨1, ![2]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x256 : Shape := ⟨2, ![1, 256]⟩
abbrev S100000x64 : Shape := ⟨2, ![100000, 64]⟩
abbrev S2000x128 : Shape := ⟨2, ![2000, 128]⟩
abbrev S2000x1 : Shape := ⟨2, ![2000, 1]⟩
abbrev S2000x64 : Shape := ⟨2, ![2000, 64]⟩
abbrev S2000x256 : Shape := ⟨2, ![2000, 256]⟩
abbrev S1600000x64 : Shape := ⟨2, ![1600000, 64]⟩
abbrev S1x64 : Shape := ⟨2, ![1, 64]⟩
abbrev S512x64 : Shape := ⟨2, ![512, 64]⟩
abbrev S512x1 : Shape := ⟨2, ![512, 1]⟩
abbrev S2000x512 : Shape := ⟨2, ![2000, 512]⟩
abbrev S1x18 : Shape := ⟨2, ![1, 18]⟩
abbrev S1x12 : Shape := ⟨2, ![1, 12]⟩
abbrev S1x6 : Shape := ⟨2, ![1, 6]⟩
abbrev S1x2 : Shape := ⟨2, ![1, 2]⟩
abbrev S512x2 : Shape := ⟨2, ![512, 2]⟩
abbrev S512x18 : Shape := ⟨2, ![512, 18]⟩
abbrev S512x12 : Shape := ⟨2, ![512, 12]⟩
abbrev S512x6 : Shape := ⟨2, ![512, 6]⟩

abbrev nBuf : Space → Nat
  | .hbm => 82
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S128x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S64x18, .f32⟩
  | .hbm, ⟨9, _⟩ => ⟨S18, .f32⟩
  | .hbm, ⟨10, _⟩ => ⟨S18x12, .f32⟩
  | .hbm, ⟨11, _⟩ => ⟨S12, .f32⟩
  | .hbm, ⟨12, _⟩ => ⟨S12x6, .f32⟩
  | .hbm, ⟨13, _⟩ => ⟨S6, .f32⟩
  | .hbm, ⟨14, _⟩ => ⟨S6x2, .f32⟩
  | .hbm, ⟨15, _⟩ => ⟨S2, .f32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000x1, .f32⟩
  | .hbm, ⟨57, _⟩ => ⟨S100000x1, .f32⟩
  | .hbm, ⟨58, _⟩ => ⟨S1x256, .f32⟩
  | .hbm, ⟨59, _⟩ => ⟨S100000x64, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x64, .f32⟩
  | .hbm, ⟨69, _⟩ => ⟨S_, .f32⟩
  | .hbm, ⟨70, _⟩ => ⟨S100000x64, .f32⟩
  | .hbm, ⟨71, _⟩ => ⟨S1600000x1, .i32⟩
  | .hbm, ⟨72, _⟩ => ⟨S100000x64, .f32⟩
  | .hbm, ⟨73, _⟩ => ⟨S100000x1, .f32⟩
  | .hbm, ⟨74, _⟩ => ⟨S1x64, .f32⟩
  | .hbm, ⟨75, _⟩ => ⟨S100000x1, .i32⟩
  | .hbm, ⟨76, _⟩ => ⟨S512x64, .f32⟩
  | .hbm, ⟨77, _⟩ => ⟨S1x18, .f32⟩
  | .hbm, ⟨78, _⟩ => ⟨S1x12, .f32⟩
  | .hbm, ⟨79, _⟩ => ⟨S1x6, .f32⟩
  | .hbm, ⟨80, _⟩ => ⟨S1x2, .f32⟩
  | .hbm, ⟨81, _⟩ => ⟨S512x2, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x1, .f32⟩
  | .local _ .vmem, ⟨4, _⟩ => ⟨S2000x1, .f32⟩
  | .local _ .vmem, ⟨5, _⟩ => ⟨S1x256, .f32⟩
  | .local _ .vmem, ⟨6, _⟩ => ⟨S2000x1, .f32⟩
  | .local _ .vmem, ⟨7, _⟩ => ⟨S2000x1, .f32⟩
  | .local _ .vmem, ⟨8, _⟩ => ⟨S256x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x1, .f32⟩
  | .local _ .vmem, ⟨14, _⟩ => ⟨S2000x1, .f32⟩
  | .local _ .vmem, ⟨15, _⟩ => ⟨S1x64, .f32⟩
  | .local _ .vmem, ⟨16, _⟩ => ⟨S2000x1, .i32⟩
  | .local _ .vmem, ⟨17, _⟩ => ⟨S2000x1, .i32⟩
  | .local _ .vmem, ⟨18, _⟩ => ⟨S512x64, .f32⟩
  | .local _ .vmem, ⟨19, _⟩ => ⟨S512x1, .f32⟩
  | .local _ .vmem, ⟨20, _⟩ => ⟨S512x64, .f32⟩
  | .local _ .vmem, ⟨21, _⟩ => ⟨S64x18, .f32⟩
  | .local _ .vmem, ⟨22, _⟩ => ⟨S1x18, .f32⟩
  | .local _ .vmem, ⟨23, _⟩ => ⟨S18x12, .f32⟩
  | .local _ .vmem, ⟨24, _⟩ => ⟨S1x12, .f32⟩
  | .local _ .vmem, ⟨25, _⟩ => ⟨S12x6, .f32⟩
  | .local _ .vmem, ⟨26, _⟩ => ⟨S1x6, .f32⟩
  | .local _ .vmem, ⟨27, _⟩ => ⟨S6x2, .f32⟩
  | .local _ .vmem, ⟨28, _⟩ => ⟨S1x2, .f32⟩
  | .local _ .vmem, ⟨29, _⟩ => ⟨S512x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v4 : Ref sig .tc := ⟨.hbm, 25, rfl⟩
abbrev main_cst_2 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v8 : Ref sig .tc := ⟨.hbm, 33, rfl⟩
abbrev main_cst_4 : Ref sig .tc := ⟨.hbm, 34, rfl⟩
abbrev main_v9 : Ref sig .tc := ⟨.hbm, 35, rfl⟩
abbrev main_v10 : Ref sig .tc := ⟨.hbm, 36, rfl⟩
abbrev main_cst_5 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_c : Ref sig .tc := ⟨.hbm, 43, rfl⟩
abbrev main_v16 : Ref sig .tc := ⟨.hbm, 44, rfl⟩
abbrev main_v17 : Ref sig .tc := ⟨.hbm, 45, rfl⟩
abbrev main_c_6 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_7 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_8 : Ref sig .tc := ⟨.hbm, 60, rfl⟩
abbrev main_v30 : Ref sig .tc := ⟨.hbm, 61, rfl⟩
abbrev main_v31 : Ref sig .tc := ⟨.hbm, 62, rfl⟩
abbrev main_c_9 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_10 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg9_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17
abbrev cc1_sem4_0 : DmaSem sig := 18
abbrev cc2_sem0_0 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S512x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x18 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x18 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S18x12 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x12 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S12x6 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x6 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S6x2 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x2 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S512x2 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S100000_S100000x1 : S100000.ShapeCasts S100000x1
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  bcast_S_S100000x64 : S_.BroadcastsInDim S100000x64 (![] : Fin 0 → Fin S100000x64.rank)
  shapeCasts_S64_S1x64 : S64.ShapeCasts S1x64
  inb_S512x64_S512x64_0_0 : ∀ a, (![0, 0] : Fin 2 → Nat) a + S512x64.size a ≤ S512x64.size a
  h_S512x64 : 0 < S512x64.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  iota_S2000x512_d1_w32 : S2000x512.Iotas .tc 32 [1]
  broadcasts_S2000x1_S2000x512 : S2000x1.Broadcasts S2000x512
  natLt_1_32 : 1 < 32
  shapeCasts_S512x64_S512x64 : S512x64.ShapeCasts S512x64
  broadcasts_S512x1_S512x64 : S512x1.Broadcasts S512x64
  shapeCasts_S18_S1x18 : S18.ShapeCasts S1x18
  shapeCasts_S12_S1x12 : S12.ShapeCasts S1x12
  shapeCasts_S6_S1x6 : S6.ShapeCasts S1x6
  shapeCasts_S2_S1x2 : S2.ShapeCasts S1x2
  inb_S64x18_S64x18_0_0 : ∀ a, (![0, 0] : Fin 2 → Nat) a + S64x18.size a ≤ S64x18.size a
  h_S64x18 : 0 < S64x18.numel
  inb_S1x18_S1x18_0_0 : ∀ a, (![0, 0] : Fin 2 → Nat) a + S1x18.size a ≤ S1x18.size a
  h_S1x18 : 0 < S1x18.numel
  shapeCasts_S1x18_S1x18 : S1x18.ShapeCasts S1x18
  broadcasts_S1x18_S512x18 : S1x18.Broadcasts S512x18
  inb_S18x12_S18x12_0_0 : ∀ a, (![0, 0] : Fin 2 → Nat) a + S18x12.size a ≤ S18x12.size a
  h_S18x12 : 0 < S18x12.numel
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S512x12 : S1x12.Broadcasts S512x12
  inb_S12x6_S12x6_0_0 : ∀ a, (![0, 0] : Fin 2 → Nat) a + S12x6.size a ≤ S12x6.size a
  h_S12x6 : 0 < S12x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S512x6 : S1x6.Broadcasts S512x6
  inb_S6x2_S6x2_0_0 : ∀ a, (![0, 0] : Fin 2 → Nat) a + S6x2.size a ≤ S6x2.size a
  h_S6x2 : 0 < S6x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x256_S2000x256_1_0_0_1_n_n_wf : DotDims.WF S2000x128 S128x256 S2000x256 [1] [0] [0] [1] [] []
  dot_S2000x256_S256x64_S2000x64_1_0_0_1_n_n_wf : DotDims.WF S2000x256 S256x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x512_S2000x64_S512x64_0_0_1_1_n_n_wf : DotDims.WF S2000x512 S2000x64 S512x64 [0] [0] [1] [1] [] []
  dot_S2000x512_S2000x1_S512x1_0_0_1_1_n_n_wf : DotDims.WF S2000x512 S2000x1 S512x1 [0] [0] [1] [1] [] []
  dot_S512x64_S64x18_S512x18_1_0_0_1_n_n_wf : DotDims.WF S512x64 S64x18 S512x18 [1] [0] [0] [1] [] []
  dot_S512x18_S18x12_S512x12_1_0_0_1_n_n_wf : DotDims.WF S512x18 S18x12 S512x12 [1] [0] [0] [1] [] []
  dot_S512x12_S12x6_S512x6_1_0_0_1_n_n_wf : DotDims.WF S512x12 S12x6 S512x6 [1] [0] [0] [1] [] []
  dot_S512x6_S6x2_S512x2_1_0_0_1_n_n_wf : DotDims.WF S512x6 S6x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S100000x1.size a
  hwx0_4 : ∀ i : grid0.Coords, EltTy.bits .f32 = 32 ∨ (Rect.block (s := S100000x1) S2000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .f32 = 32 ∨ (Rect.block (s := S256x64) S256x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S100000x64.size a
  hwx0_6 : ∀ i : grid0.Coords, EltTy.bits .f32 = 32 ∨ (Rect.block (s := S100000x64) S2000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S100000x1.size a
  hwx1_3 : ∀ i : grid1.Coords, EltTy.bits .i32 = 32 ∨ (Rect.block (s := S100000x1) S2000x1.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x64.size a ≤ S512x64.size a
  hwx1_4 : ∀ i : grid1.Coords, EltTy.bits .f32 = 32 ∨ (Rect.block (s := S512x64) S512x64.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x64.size a ≤ S512x64.size a
  hwx2_0 : ∀ i : grid2.Coords, EltTy.bits .f32 = 32 ∨ (Rect.block (s := S512x64) S512x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x18.size a ≤ S64x18.size a
  hwx2_1 : ∀ i : grid2.Coords, EltTy.bits .f32 = 32 ∨ (Rect.block (s := S64x18) S64x18.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x18.size a ≤ S1x18.size a
  hwx2_2 : ∀ i : grid2.Coords, EltTy.bits .f32 = 32 ∨ (Rect.block (s := S1x18) S1x18.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S18x12.size a ≤ S18x12.size a
  hwx2_3 : ∀ i : grid2.Coords, EltTy.bits .f32 = 32 ∨ (Rect.block (s := S18x12) S18x12.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x12.size a ≤ S1x12.size a
  hwx2_4 : ∀ i : grid2.Coords, EltTy.bits .f32 = 32 ∨ (Rect.block (s := S1x12) S1x12.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S12x6.size a ≤ S12x6.size a
  hwx2_5 : ∀ i : grid2.Coords, EltTy.bits .f32 = 32 ∨ (Rect.block (s := S12x6) S12x6.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x6.size a ≤ S1x6.size a
  hwx2_6 : ∀ i : grid2.Coords, EltTy.bits .f32 = 32 ∨ (Rect.block (s := S1x6) S1x6.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S6x2.size a ≤ S6x2.size a
  hwx2_7 : ∀ i : grid2.Coords, EltTy.bits .f32 = 32 ∨ (Rect.block (s := S6x2) S6x2.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x2.size a ≤ S1x2.size a
  hwx2_8 : ∀ i : grid2.Coords, EltTy.bits .f32 = 32 ∨ (Rect.block (s := S1x2) S1x2.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S512x2.size a ≤ S512x2.size a
  hwx2_9 : ∀ i : grid2.Coords, EltTy.bits .f32 = 32 ∨ (Rect.block (s := S512x2) S512x2.size (cc2_transform_9 i) (hinb2_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x512_S2000x64_S512x64_0_0_1_1_n_n : DotDims S2000x512 S2000x64 S512x64 where
  lhsContracting := [0]
  rhsContracting := [0]
  lhsNonContracting := [1]
  rhsNonContracting := [1]
  lhsBatch := []
  rhsBatch := []
  wf := dot_S2000x512_S2000x64_S512x64_0_0_1_1_n_n_wf
def dot_S2000x512_S2000x1_S512x1_0_0_1_1_n_n : DotDims S2000x512 S2000x1 S512x1 where
  lhsContracting := [0]
  rhsContracting := [0]
  lhsNonContracting := [1]
  rhsNonContracting := [1]
  lhsBatch := []
  rhsBatch := []
  wf := dot_S2000x512_S2000x1_S512x1_0_0_1_1_n_n_wf
def dot_S512x64_S64x18_S512x18_1_0_0_1_n_n : DotDims S512x64 S64x18 S512x18 where
  lhsContracting := [1]
  rhsContracting := [0]
  lhsNonContracting := [0]
  rhsNonContracting := [1]
  lhsBatch := []
  rhsBatch := []
  wf := dot_S512x64_S64x18_S512x18_1_0_0_1_n_n_wf
def dot_S512x18_S18x12_S512x12_1_0_0_1_n_n : DotDims S512x18 S18x12 S512x12 where
  lhsContracting := [1]
  rhsContracting := [0]
  lhsNonContracting := [0]
  rhsNonContracting := [1]
  lhsBatch := []
  rhsBatch := []
  wf := dot_S512x18_S18x12_S512x12_1_0_0_1_n_n_wf
def dot_S512x12_S12x6_S512x6_1_0_0_1_n_n : DotDims S512x12 S12x6 S512x6 where
  lhsContracting := [1]
  rhsContracting := [0]
  lhsNonContracting := [0]
  rhsNonContracting := [1]
  lhsBatch := []
  rhsBatch := []
  wf := dot_S512x12_S12x6_S512x6_1_0_0_1_n_n_wf
def dot_S512x6_S6x2_S512x2_1_0_0_1_n_n : DotDims S512x6 S6x2 S512x2 where
  lhsContracting := [1]
  rhsContracting := [0]
  lhsNonContracting := [0]
  rhsNonContracting := [1]
  lhsBatch := []
  rhsBatch := []
  wf := dot_S512x6_S6x2_S512x2_1_0_0_1_n_n_wf

abbrev win0_0 : Pipeline.Window sig grid0 :=
  Pipeline.Window.ofSpec (Memref.whole main_v25) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v39) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v43) S512x64.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S512x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x18.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1x18.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S18x12.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1x12.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S12x6.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46) S1x6.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg14) S6x2.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v47) S1x2.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v48) S512x2.size cc2_transform_9 reads2_9 true true 1 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S100000 : Shape := ⟨1, ![100000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x18 : Shape := ⟨2, ![64, 18]⟩
abbrev S18 : Shape := ⟨1, ![18]⟩
abbrev S18x12 : Shape := ⟨2, ![18, 12]⟩
abbrev S12 : Shape := ⟨1, ![12]⟩
abbrev S12x6 : Shape := ⟨2, ![12, 6]⟩
abbrev S6 : Shape := ⟨1, ![6]⟩
abbrev S6x2 : Shape := ⟨2, ![6, 2]⟩
abbrev S2 : Shape := ⟨1, ![2]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S100000x256 : Shape := ⟨2, ![100000, 256]⟩
abbrev S1x256 : Shape := ⟨2, ![1, 256]⟩
abbrev S100000x64 : Shape := ⟨2, ![100000, 64]⟩
abbrev S1600000x64 : Shape := ⟨2, ![1600000, 64]⟩
abbrev S1x64 : Shape := ⟨2, ![1, 64]⟩
abbrev S512x64 : Shape := ⟨2, ![512, 64]⟩
abbrev S512 : Shape := ⟨1, ![512]⟩
abbrev S512x1 : Shape := ⟨2, ![512, 1]⟩
abbrev S512x18 : Shape := ⟨2, ![512, 18]⟩
abbrev S1x18 : Shape := ⟨2, ![1, 18]⟩
abbrev S512x12 : Shape := ⟨2, ![512, 12]⟩
abbrev S1x12 : Shape := ⟨2, ![1, 12]⟩
abbrev S512x6 : Shape := ⟨2, ![512, 6]⟩
abbrev S1x6 : Shape := ⟨2, ![1, 6]⟩
abbrev S512x2 : Shape := ⟨2, ![512, 2]⟩
abbrev S1x2 : Shape := ⟨2, ![1, 2]⟩

abbrev nBuf : Space → Nat
  | .hbm => 149
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S100000, .i32⟩
  | 4 => ⟨S128x256, .f32⟩
  | 5 => ⟨S256, .f32⟩
  | 6 => ⟨S256x64, .f32⟩
  | 7 => ⟨S64, .f32⟩
  | 8 => ⟨S64x18, .f32⟩
  | 9 => ⟨S18, .f32⟩
  | 10 => ⟨S18x12, .f32⟩
  | 11 => ⟨S12, .f32⟩
  | 12 => ⟨S12x6, .f32⟩
  | 13 => ⟨S6, .f32⟩
  | 14 => ⟨S6x2, .f32⟩
  | 15 => ⟨S2, .f32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S_, .f32⟩
  | 24 => ⟨S100000, .f32⟩
  | 25 => ⟨S100000, .f32⟩
  | 26 => ⟨S_, .f32⟩
  | 27 => ⟨S100000, .f32⟩
  | 28 => ⟨S1600000x1, .i32⟩
  | 29 => ⟨S100000, .f32⟩
  | 30 => ⟨S_, .f32⟩
  | 31 => ⟨S_, .f32⟩
  | 32 => ⟨S100000, .f32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x128, .f32⟩
  | 39 => ⟨S100000x128, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x128, .f32⟩
  | 49 => ⟨S_, .f32⟩
  | 50 => ⟨S100000x128, .f32⟩
  | 51 => ⟨S1600000x1, .i32⟩
  | 52 => ⟨S100000x128, .f32⟩
  | 53 => ⟨S100000x256, .f32⟩
  | 54 => ⟨S_, .f32⟩
  | 55 => ⟨S100000, .f32⟩
  | 56 => ⟨S100000, .f32⟩
  | 57 => ⟨S100000x1, .f32⟩
  | 58 => ⟨S100000x256, .f32⟩
  | 59 => ⟨S100000x256, .f32⟩
  | 60 => ⟨S1x256, .f32⟩
  | 61 => ⟨S100000x256, .f32⟩
  | 62 => ⟨S100000x256, .f32⟩
  | 63 => ⟨S_, .f32⟩
  | 64 => ⟨S100000x256, .f32⟩
  | 65 => ⟨S100000x256, .f32⟩
  | 66 => ⟨S_, .f32⟩
  | 67 => ⟨S1600000, .f32⟩
  | 68 => ⟨S_, .f32⟩
  | 69 => ⟨S100000, .f32⟩
  | 70 => ⟨S1600000x1, .i32⟩
  | 71 => ⟨S100000, .f32⟩
  | 72 => ⟨S_, .f32⟩
  | 73 => ⟨S_, .f32⟩
  | 74 => ⟨S100000, .f32⟩
  | 75 => ⟨S100000, .f32⟩
  | 76 => ⟨S_, .f32⟩
  | 77 => ⟨S100000, .f32⟩
  | 78 => ⟨S1600000x1, .i32⟩
  | 79 => ⟨S100000, .f32⟩
  | 80 => ⟨S_, .f32⟩
  | 81 => ⟨S_, .f32⟩
  | 82 => ⟨S100000, .f32⟩
  | 83 => ⟨S100000, .f32⟩
  | 84 => ⟨S_, .f32⟩
  | 85 => ⟨S100000, .f32⟩
  | 86 => ⟨S100000, .f32⟩
  | 87 => ⟨S100000x1, .f32⟩
  | 88 => ⟨S100000x256, .f32⟩
  | 89 => ⟨S100000x256, .f32⟩
  | 90 => ⟨S100000x64, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x64, .f32⟩
  | 100 => ⟨S_, .f32⟩
  | 101 => ⟨S100000x64, .f32⟩
  | 102 => ⟨S1600000x1, .i32⟩
  | 103 => ⟨S100000x64, .f32⟩
  | 104 => ⟨S_, .f32⟩
  | 105 => ⟨S100000, .f32⟩
  | 106 => ⟨S100000, .f32⟩
  | 107 => ⟨S100000x1, .f32⟩
  | 108 => ⟨S100000x64, .f32⟩
  | 109 => ⟨S100000x64, .f32⟩
  | 110 => ⟨S1x64, .f32⟩
  | 111 => ⟨S100000x64, .f32⟩
  | 112 => ⟨S100000x64, .f32⟩
  | 113 => ⟨S_, .f32⟩
  | 114 => ⟨S100000x64, .f32⟩
  | 115 => ⟨S100000x64, .f32⟩
  | 116 => ⟨S_, .f32⟩
  | 117 => ⟨S512x64, .f32⟩
  | 118 => ⟨S100000x1, .i32⟩
  | 119 => ⟨S512x64, .f32⟩
  | 120 => ⟨S_, .f32⟩
  | 121 => ⟨S100000, .f32⟩
  | 122 => ⟨S_, .f32⟩
  | 123 => ⟨S512, .f32⟩
  | 124 => ⟨S100000x1, .i32⟩
  | 125 => ⟨S512, .f32⟩
  | 126 => ⟨S_, .f32⟩
  | 127 => ⟨S_, .f32⟩
  | _ => ⟨S100000x128, .f32⟩

abbrev hbmTy0_1 (i : Nat) : BufTy := match i % 128 with
  | 0 => ⟨S512, .f32⟩
  | 1 => ⟨S512, .f32⟩
  | 2 => ⟨S512x1, .f32⟩
  | 3 => ⟨S512x64, .f32⟩
  | 4 => ⟨S512x64, .f32⟩
  | 5 => ⟨S512x18, .f32⟩
  | 6 => ⟨S1x18, .f32⟩
  | 7 => ⟨S512x18, .f32⟩
  | 8 => ⟨S512x18, .f32⟩
  | 9 => ⟨S512x12, .f32⟩
  | 10 => ⟨S1x12, .f32⟩
  | 11 => ⟨S512x12, .f32⟩
  | 12 => ⟨S512x12, .f32⟩
  | 13 => ⟨S512x6, .f32⟩
  | 14 => ⟨S1x6, .f32⟩
  | 15 => ⟨S512x6, .f32⟩
  | 16 => ⟨S512x6, .f32⟩
  | 17 => ⟨S512x2, .f32⟩
  | 18 => ⟨S1x2, .f32⟩
  | 19 => ⟨S512x2, .f32⟩
  | 20 => ⟨S512x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v4 : Ref sig .tc := ⟨.hbm, 25, rfl⟩
abbrev main_cst_2 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v8 : Ref sig .tc := ⟨.hbm, 33, rfl⟩
abbrev main_cst_4 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_c : Ref sig .tc := ⟨.hbm, 40, rfl⟩
abbrev main_v14 : Ref sig .tc := ⟨.hbm, 41, rfl⟩
abbrev main_v15 : Ref sig .tc := ⟨.hbm, 42, rfl⟩
abbrev main_c_5 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_6 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_7 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_call2_cst : Ref sig .tc := ⟨.hbm, 63, rfl⟩
abbrev main_call2_v0 : Ref sig .tc := ⟨.hbm, 64, rfl⟩
abbrev main_v33 : Ref sig .tc := ⟨.hbm, 65, rfl⟩
abbrev main_cst_8 : Ref sig .tc := ⟨.hbm, 66, rfl⟩
abbrev main_v34 : Ref sig .tc := ⟨.hbm, 67, rfl⟩
abbrev main_cst_9 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_10 : Ref sig .tc := ⟨.hbm, 72, rfl⟩
abbrev main_call3_v0 : Ref sig .tc := ⟨.hbm, 73, rfl⟩
abbrev main_call3_v1 : Ref sig .tc := ⟨.hbm, 74, rfl⟩
abbrev main_v38 : Ref sig .tc := ⟨.hbm, 75, rfl⟩
abbrev main_cst_11 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_cst_12 : Ref sig .tc := ⟨.hbm, 80, rfl⟩
abbrev main_call4_v0 : Ref sig .tc := ⟨.hbm, 81, rfl⟩
abbrev main_call4_v1 : Ref sig .tc := ⟨.hbm, 82, rfl⟩
abbrev main_v42 : Ref sig .tc := ⟨.hbm, 83, rfl⟩
abbrev main_cst_13 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_c_14 : Ref sig .tc := ⟨.hbm, 91, rfl⟩
abbrev main_v49 : Ref sig .tc := ⟨.hbm, 92, rfl⟩
abbrev main_v50 : Ref sig .tc := ⟨.hbm, 93, rfl⟩
abbrev main_c_15 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_cst_16 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_cst_17 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_call5_cst : Ref sig .tc := ⟨.hbm, 113, rfl⟩
abbrev main_call5_v0 : Ref sig .tc := ⟨.hbm, 114, rfl⟩
abbrev main_v67 : Ref sig .tc := ⟨.hbm, 115, rfl⟩
abbrev main_cst_18 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_cst_19 : Ref sig .tc := ⟨.hbm, 120, rfl⟩
abbrev main_v71 : Ref sig .tc := ⟨.hbm, 121, rfl⟩
abbrev main_cst_20 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_cst_21 : Ref sig .tc := ⟨.hbm, 126, rfl⟩
abbrev main_call6_v0 : Ref sig .tc := ⟨.hbm, 127, rfl⟩
abbrev main_call6_v1 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S100000x1_S100000x256_0_1 : S100000x1.BroadcastsInDim S100000x256 (![0, 1] : Fin 2 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S18_S1x18_1 : S18.BroadcastsInDim S1x18 (![1] : Fin 1 → Fin S1x18.rank)
  bcast_S1x18_S512x18_0_1 : S1x18.BroadcastsInDim S512x18 (![0, 1] : Fin 2 → Fin S512x18.rank)
  bcast_S12_S1x12_1 : S12.BroadcastsInDim S1x12 (![1] : Fin 1 → Fin S1x12.rank)
  bcast_S1x12_S512x12_0_1 : S1x12.BroadcastsInDim S512x12 (![0, 1] : Fin 2 → Fin S512x12.rank)
  bcast_S6_S1x6_1 : S6.BroadcastsInDim S1x6 (![1] : Fin 1 → Fin S1x6.rank)
  bcast_S1x6_S512x6_0_1 : S1x6.BroadcastsInDim S512x6 (![0, 1] : Fin 2 → Fin S512x6.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x256_S100000x256_1_0_0_1_n_n_wf : DotDims.WF S100000x128 S128x256 S100000x256 [1] [0] [0] [1] [] []
  dot_S100000x256_S256x64_S100000x64_1_0_0_1_n_n_wf : DotDims.WF S100000x256 S256x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x18_S512x18_1_0_0_1_n_n_wf : DotDims.WF S512x64 S64x18 S512x18 [1] [0] [0] [1] [] []
  dot_S512x18_S18x12_S512x12_1_0_0_1_n_n_wf : DotDims.WF S512x18 S18x12 S512x12 [1] [0] [0] [1] [] []
  dot_S512x12_S12x6_S512x6_1_0_0_1_n_n_wf : DotDims.WF S512x12 S12x6 S512x6 [1] [0] [0] [1] [] []
  dot_S512x6_S6x2_S512x2_1_0_0_1_n_n_wf : DotDims.WF S512x6 S6x2 S512x2 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x18_S512x18_1_0_0_1_n_n : DotDims S512x64 S64x18 S512x18 where
  lhsContracting := [1]
  rhsContracting := [0]
  lhsNonContracting := [0]
  rhsNonContracting := [1]
  lhsBatch := []
  rhsBatch := []
  wf := dot_S512x64_S64x18_S512x18_1_0_0_1_n_n_wf
def dot_S512x18_S18x12_S512x12_1_0_0_1_n_n : DotDims S512x18 S18x12 S512x12 where
  lhsContracting := [1]
  rhsContracting := [0]
  lhsNonContracting := [0]
  rhsNonContracting := [1]
  lhsBatch := []
  rhsBatch := []
  wf := dot_S512x18_S18x12_S512x12_1_0_0_1_n_n_wf
def dot_S512x12_S12x6_S512x6_1_0_0_1_n_n : DotDims S512x12 S12x6 S512x6 where
  lhsContracting := [1]
  rhsContracting := [0]
  lhsNonContracting := [0]
  rhsNonContracting := [1]
  lhsBatch := []
  rhsBatch := []
  wf := dot_S512x12_S12x6_S512x6_1_0_0_1_n_n_wf
def dot_S512x6_S6x2_S512x2_1_0_0_1_n_n : DotDims S512x6 S6x2 S512x2 where
  lhsContracting := [1]
  rhsContracting := [0]
  lhsNonContracting := [0]
  rhsNonContracting := [1]
  lhsBatch := []
  rhsBatch := []
  wf := dot_S512x6_S6x2_S512x2_1_0_0_1_n_n_wf

class Facts : Prop extends Facts₀ where

variable [Facts]
-- ==== Proof.RegionData.lean ====
/-
  The three kernel regions of the graph-convolution network, as data the rest of the proof is stated over.

  Region 0 (grid of 50 row tiles of 2000 nodes): from a tile of the aggregated features g1 (2000 x 128), the weights W1
  (128 x 256), the tile's in-degree scales (2000 x 1), the bias row b1 (1 x 256), the tile's out-degree scales (2000 x 1)
  and W2 (256 x 64) the body stores ONE block, relu((g1 W1) * s_in + b1) * s_out W2 (2000 x 64): a function of the six
  input blocks of the same point only.

  Region 1 (50 tiles again): a running sum. The output block (512 x 64, the same block at every point, written back
  only after the last point) and a count column kept in a scratch buffer (512 x 1) are zeroed at the first point; every
  point adds, for each graph g, the rows of relu(g2 * s_in + b2) of the tile whose graph id is g, and the number of such
  rows; the last point then divides the sums by max(count, 1). What both buffers hold after point n is therefore a
  recursion on n: `poolAcc`.

  Region 2 (one point): four affine layers on the 512 pooled rows: a function of the ten input blocks of that point.
-/
import proofs.«417467_j50448685859136_2_alg».proof.Proof.Gen.KernelIdeal.Launch
import proofs.«417467_j50448685859136_2_alg».proof.Proof.Gen.KernelIdeal.Skeleton
import proofs.«417467_j50448685859136_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of every load and store of the three bodies: each reads or writes a whole staging buffer. -/
theorem hz2 : (![0, 0] : Fin 2 → Nat) = fun _ => 0 := funext fun a => by fin_cases a <;> rfl

/-! ## The rectangles the bodies load and store through: each the whole buffer -/

abbrev rc2000x128 : Rect S2000x128 := Rect.unit (s := S2000x128) ![0, 0] S2000x128.size inb_S2000x128_S2000x128_0_0
abbrev rc128x256 : Rect S128x256 := Rect.unit (s := S128x256) ![0, 0] S128x256.size inb_S128x256_S128x256_0_0
abbrev rc2000x1 : Rect S2000x1 := Rect.unit (s := S2000x1) ![0, 0] S2000x1.size inb_S2000x1_S2000x1_0_0
abbrev rc1x256 : Rect S1x256 := Rect.unit (s := S1x256) ![0, 0] S1x256.size inb_S1x256_S1x256_0_0
abbrev rc256x64 : Rect S256x64 := Rect.unit (s := S256x64) ![0, 0] S256x64.size inb_S256x64_S256x64_0_0
abbrev rc2000x64 : Rect S2000x64 := Rect.unit (s := S2000x64) ![0, 0] S2000x64.size inb_S2000x64_S2000x64_0_0
abbrev rc1x64 : Rect S1x64 := Rect.unit (s := S1x64) ![0, 0] S1x64.size inb_S1x64_S1x64_0_0
abbrev rc512x64 : Rect S512x64 := Rect.unit (s := S512x64) ![0, 0] S512x64.size inb_S512x64_S512x64_0_0
abbrev rc512x1 : Rect S512x1 := Rect.unit (s := S512x1) ![0, 0] S512x1.size inb_S512x1_S512x1_0_0
abbrev rc64x18 : Rect S64x18 := Rect.unit (s := S64x18) ![0, 0] S64x18.size inb_S64x18_S64x18_0_0
abbrev rc1x18 : Rect S1x18 := Rect.unit (s := S1x18) ![0, 0] S1x18.size inb_S1x18_S1x18_0_0
abbrev rc18x12 : Rect S18x12 := Rect.unit (s := S18x12) ![0, 0] S18x12.size inb_S18x12_S18x12_0_0
abbrev rc1x12 : Rect S1x12 := Rect.unit (s := S1x12) ![0, 0] S1x12.size inb_S1x12_S1x12_0_0
abbrev rc12x6 : Rect S12x6 := Rect.unit (s := S12x6) ![0, 0] S12x6.size inb_S12x6_S12x6_0_0
abbrev rc1x6 : Rect S1x6 := Rect.unit (s := S1x6) ![0, 0] S1x6.size inb_S1x6_S1x6_0_0
abbrev rc6x2 : Rect S6x2 := Rect.unit (s := S6x2) ![0, 0] S6x2.size inb_S6x2_S6x2_0_0
abbrev rc1x2 : Rect S1x2 := Rect.unit (s := S1x2) ![0, 0] S1x2.size inb_S1x2_S1x2_0_0
abbrev rc512x2 : Rect S512x2 := Rect.unit (s := S512x2) ![0, 0] S512x2.size inb_S512x2_S512x2_0_0

section AtEntry
-- the TensorCore's buffer contents when a region is entered: the parameter each region's data is stated at
variable (V : (c : Dev nD) → (b : Ref sig .tc) → Buf (Elt F) ((c : Thread nD τ).loc b))

/-! # Region 0: the fused first-layer epilogue and second-layer projection -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the output window's staging buffer: its one store, of the projected tile, over the six
    loaded blocks. -/
def convOut (x0 : Vec F S2000x128 .f32) (x1 : Vec F S128x256 .f32) (x2 : Vec F S2000x1 .f32) (x3 : Vec F S1x256 .f32)
    (x4 : Vec F S2000x1 .f32) (x5 : Vec F S256x64 .f32) : Vec F S2000x64 .f32 :=
  View.canon [⟨rc2000x64, k0_pay1 (View.ld x0 rc2000x128) (View.ld x1 rc128x256) (View.ld x2 rc2000x1) (View.ld x3 rc1x256) (View.ld x4 rc2000x1) (View.ld x5 rc256x64)⟩]

/-- The stored tile IS the payload of the six blocks: every rectangle is a whole buffer. -/
theorem convOut_eq (x0 : Vec F S2000x128 .f32) (x1 : Vec F S128x256 .f32) (x2 : Vec F S2000x1 .f32) (x3 : Vec F S1x256 .f32)
    (x4 : Vec F S2000x1 .f32) (x5 : Vec F S256x64 .f32) : convOut x0 x1 x2 x3 x4 x5 = k0_pay1 x0 x1 x2 x3 x4 x5 := by
  unfold convOut
  rw [View.canon_unit_zero hz2]
  simp only [View.ld_unit_zero (S := S2000x128) hz2, View.ld_unit_zero (S := S128x256) hz2, View.ld_unit_zero (S := S2000x1) hz2,
    View.ld_unit_zero (S := S1x256) hz2, View.ld_unit_zero (S := S256x64) hz2]

/-- Region 0's proof data on core `c`: the arrays as the region finds them; after the body each input's buffer still at
    its block and the output's at `convOut` of the six blocks; the scoped buffers and the generator register untouched;
    nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => convOut (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = convOut (iblk0 V c 0 t) (iblk0 V c 1 t) (iblk0 V c 2 t) (iblk0 V c 3 t) (iblk0 V c 4 t) (iblk0 V c 5 t) := by dsimp only [dat0]

/-! # Region 1: the second-layer epilogue summed per graph, then the mean -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The sums and counts after the FIRST point: both buffers zeroed, then the tile's rows and the tile's row counts
    added. (The output block first, the count column second.) -/
def poolFirst (x0 : Vec F S2000x64 .f32) (x1 : Vec F S2000x1 .f32) (x2 : Vec F S1x64 .f32) (x3 : Vec F S2000x1 .i32) :
    Vec F S512x64 .f32 × Vec F S512x1 .f32 :=
  (k1_pay5 x0 x1 x2 x3 (k1_pay2 (F := F)), k1_pay6 x3 (k1_pay3 (F := F)))

/-- After a MIDDLE point: the tile's rows and counts added to what the point before left. -/
def poolMid (x0 : Vec F S2000x64 .f32) (x1 : Vec F S2000x1 .f32) (x2 : Vec F S1x64 .f32) (x3 : Vec F S2000x1 .i32)
    (p : Vec F S512x64 .f32 × Vec F S512x1 .f32) : Vec F S512x64 .f32 × Vec F S512x1 .f32 :=
  (k1_pay5 x0 x1 x2 x3 p.1, k1_pay6 x3 p.2)

/-- After the LAST point: added as at a middle point, then the sums divided by the counts clamped below at one. -/
def poolLast (x0 : Vec F S2000x64 .f32) (x1 : Vec F S2000x1 .f32) (x2 : Vec F S1x64 .f32) (x3 : Vec F S2000x1 .i32)
    (p : Vec F S512x64 .f32 × Vec F S512x1 .f32) : Vec F S512x64 .f32 × Vec F S512x1 .f32 :=
  (k1_pay1 (k1_pay5 x0 x1 x2 x3 p.1) (k1_pay6 x3 p.2), k1_pay6 x3 p.2)

/-- THE RUNNING SUM: what the output block and the count column hold after the body at position `n` of the grid. -/
def poolAcc (c : Dev nD) : (n : ℕ) → n < cfg1.N → Vec F S512x64 .f32 × Vec F S512x1 .f32
  | 0, hn => poolFirst (iblk1 V c 0 ⟨0, hn⟩) (iblk1 V c 1 ⟨0, hn⟩) (iblk1 V c 2 ⟨0, hn⟩) (iblk1 V c 3 ⟨0, hn⟩)
  | n + 1, hn =>
    if n + 1 = 49 then
      poolLast (iblk1 V c 0 ⟨n + 1, hn⟩) (iblk1 V c 1 ⟨n + 1, hn⟩) (iblk1 V c 2 ⟨n + 1, hn⟩) (iblk1 V c 3 ⟨n + 1, hn⟩)
        (poolAcc c n (Nat.lt_of_succ_lt hn))
    else
      poolMid (iblk1 V c 0 ⟨n + 1, hn⟩) (iblk1 V c 1 ⟨n + 1, hn⟩) (iblk1 V c 2 ⟨n + 1, hn⟩) (iblk1 V c 3 ⟨n + 1, hn⟩)
        (poolAcc c n (Nat.lt_of_succ_lt hn))

theorem poolAcc_zero (c : Dev nD) (t : Fin cfg1.N) (h0 : t.val = 0) :
    poolAcc V c t.val t.isLt = poolFirst (iblk1 V c 0 t) (iblk1 V c 1 t) (iblk1 V c 2 t) (iblk1 V c 3 t) := by
  obtain ⟨n, hn⟩ := t
  cases n with
  | zero => rfl
  | succ n => exact absurd h0 (Nat.succ_ne_zero n)

theorem poolAcc_mid (c : Dev nD) (t : Fin cfg1.N) (h0 : t.val ≠ 0) (h1 : t.val ≠ 49) :
    poolAcc V c t.val t.isLt = poolMid (iblk1 V c 0 t) (iblk1 V c 1 t) (iblk1 V c 2 t) (iblk1 V c 3 t)
      (poolAcc V c (t.val - 1) (Nat.lt_of_le_of_lt (Nat.sub_le _ _) t.isLt)) := by
  obtain ⟨n, hn⟩ := t
  cases n with
  | zero => exact absurd rfl h0
  | succ n => exact (if_neg h1).trans rfl

theorem poolAcc_last (c : Dev nD) (t : Fin cfg1.N) (h1 : t.val = 49) :
    poolAcc V c t.val t.isLt = poolLast (iblk1 V c 0 t) (iblk1 V c 1 t) (iblk1 V c 2 t) (iblk1 V c 3 t)
      (poolAcc V c (t.val - 1) (Nat.lt_of_le_of_lt (Nat.sub_le _ _) t.isLt)) := by
  obtain ⟨n, hn⟩ := t
  cases n with
  | zero => exact absurd h1 (show (0 : ℕ) ≠ 49 by decide)
  | succ n => exact (if_pos h1).trans rfl

/-- The count column's scratch buffer, whole. -/
abbrev cntM : Memref sig .tc .vmem S512x1 .f32 := Memref.whole cc1_scratch0

/-- Region 1's invariant before position `n`: before the first point every scoped buffer that is no staging buffer of
    this region at anything; afterwards the count column at what the point before left in it, the other such buffers
    at anything; the generator register at some state throughout. -/
def PhiPool (c : Dev nD) : (n : ℕ) → n ≤ cfg1.N → sProp 𝕄
  | 0, _ => Pipeline.ΦA spec1 c
  | n + 1, hn => iprop((owns (c : Thread nD τ) cntM fullShare (poolAcc V c n hn).2
      ∗ Pipeline.scopedRestBut (Ix := Unit) (Name := ℕ) (U := UR sig nD τ) (Lvl := ℕ) (Val := Elt F) spec1 c [cc1_scratch0])
      ∗ (∃ r, prngReg c r))

/-- Region 1's proof data on core `c`: after the body each input's buffer at its block, the output's at the running
    sums; the invariant carries the running counts. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (poolAcc V c t.val t.isLt).1
  Φ t := PhiPool V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (poolAcc V c t.val t.isLt).1 := by dsimp only [dat1]

/-! # Region 2: the four affine layers of the classifier -/

/-- Window `w`'s block at point `t`, read off its array as region 2 finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the body leaves in the output window's staging buffer: its one store, over the nine loaded blocks. -/
def mlpOut (x0 : Vec F S512x64 .f32) (x1 : Vec F S64x18 .f32) (x2 : Vec F S1x18 .f32) (x3 : Vec F S18x12 .f32) (x4 : Vec F S1x12 .f32)
    (x5 : Vec F S12x6 .f32) (x6 : Vec F S1x6 .f32) (x7 : Vec F S6x2 .f32) (x8 : Vec F S1x2 .f32) : Vec F S512x2 .f32 :=
  View.canon [⟨rc512x2, k2_pay1 (View.ld x0 rc512x64) (View.ld x1 rc64x18) (View.ld x2 rc1x18) (View.ld x3 rc18x12) (View.ld x4 rc1x12) (View.ld x5 rc12x6) (View.ld x6 rc1x6) (View.ld x7 rc6x2) (View.ld x8 rc1x2)⟩]

theorem mlpOut_eq (x0 : Vec F S512x64 .f32) (x1 : Vec F S64x18 .f32) (x2 : Vec F S1x18 .f32) (x3 : Vec F S18x12 .f32) (x4 : Vec F S1x12 .f32)
    (x5 : Vec F S12x6 .f32) (x6 : Vec F S1x6 .f32) (x7 : Vec F S6x2 .f32) (x8 : Vec F S1x2 .f32) :
    mlpOut x0 x1 x2 x3 x4 x5 x6 x7 x8 = k2_pay1 x0 x1 x2 x3 x4 x5 x6 x7 x8 := by
  unfold mlpOut
  rw [View.canon_unit_zero hz2]
  simp only [View.ld_unit_zero (S := S512x64) hz2, View.ld_unit_zero (S := S64x18) hz2, View.ld_unit_zero (S := S1x18) hz2,
    View.ld_unit_zero (S := S18x12) hz2, View.ld_unit_zero (S := S1x12) hz2, View.ld_unit_zero (S := S12x6) hz2,
    View.ld_unit_zero (S := S1x6) hz2, View.ld_unit_zero (S := S6x2) hz2, View.ld_unit_zero (S := S1x2) hz2]

/-- Region 2's proof data on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => mlpOut (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t
    = mlpOut (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

end AtEntry

end Cert.KernelIdeal.Hand

end
-- ==== Proof.ConvBody.lean ====
/-
  Region 0's body at any grid point: from the six input blocks in their staging buffers the kernel function stores the
  projected tile into the output window's buffer and leaves the inputs as they were.
-/
import proofs.«417467_j50448685859136_2_alg».proof.Proof.RegionData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each input window's staging buffer holds when the body is called

An input window's buffer holds the window's block of the point, whether the pipeline copied it in at that point or
not: where it did not, the window's block index is the one of the point before, whose block the body left in place.
Windows 1, 3 and 5 (the two weight matrices and the bias row) have one block for the whole grid and are copied in at
the first point only; windows 0, 2 and 4 (the feature tile and the two scale columns) move with the point. -/

/-- Input window 0: for any proof data over the region's arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: for any proof data over the region's arrays whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: for any proof data over the region's arrays whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: for any proof data over the region's arrays whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4: for any proof data over the region's arrays whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5: for any proof data over the region's arrays whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body's one store covers the output buffer -/

/-- The store's rectangle is the whole 2000 x 64 buffer: one tile of the buffer's own size. -/
theorem cover0_6 (p0 : Vec F S2000x64 .f32) (y : S2000x64.Idx) :
    ∃ pc ∈ ([⟨rc2000x64, p0⟩] : List (View.Piece (Elt F) S2000x64 .f32)), y ∈ pc.1.set :=
  View.cover_of_tiled [⟨rc2000x64, p0⟩] S2000x64.size (by rfl) y

/-! ## The kernel function on whole staging buffers -/

set_option maxHeartbeats 1000000 in
/-- With the six input buffers at read contents `x0 … x5` and the output buffer at anything, the kernel function
    runs to a state with the inputs as they were and the output at `convOut x0 … x5`: six whole-buffer loads, a
    load of the output buffer whose value is not used, and one whole-buffer store of the payload of the six
    loaded values. The grid coordinate is not read. -/
theorem sound_kernel0 (c : Dev nD) (E : Set ℕ) (i : grid0.Coords)
    (arg1 : Memref sig .tc .vmem S2000x128 .f32) (harg1 : arg1.IsWhole) (arg2 : Memref sig .tc .vmem S128x256 .f32) (harg2 : arg2.IsWhole)
    (arg3 : Memref sig .tc .vmem S2000x1 .f32) (harg3 : arg3.IsWhole) (arg4 : Memref sig .tc .vmem S1x256 .f32) (harg4 : arg4.IsWhole)
    (arg5 : Memref sig .tc .vmem S2000x1 .f32) (harg5 : arg5.IsWhole) (arg6 : Memref sig .tc .vmem S256x64 .f32) (harg6 : arg6.IsWhole)
    (arg7 : Memref sig .tc .vmem S2000x64 .f32) (harg7 : arg7.IsWhole)
    (x0 : Vec F S2000x128 .f32) (x1 : Vec F S128x256 .f32) (x2 : Vec F S2000x1 .f32) (x3 : Vec F S1x256 .f32)
    (x4 : Vec F S2000x1 .f32) (x5 : Vec F S256x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (convOut x0 x1 x2 x3 x4 x5)) -∗ K ⟨⟩))
      ⊢ wp frame (wpE (defs₀ (F := F)) Variants.none c none) E
          (cc0__conv_ab_kernel i arg1 harg1 arg2 harg2 arg3 harg3 arg4 harg4 arg5 harg5 arg6 harg6 arg7 harg7) K := by
  simp only [cc0__conv_ab_kernel_eq_skeleton]; unfold cc0__conv_ab_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The body at a grid point -/

/-- What the pipeline hands the body at point `t`: the invariant, what is owed, and each window's current staging
    buffer at what it holds before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What the body hands back: the same invariant and debts, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: every input buffer holds its block of the point, so the kernel function's triple applies
    at the six blocks; the invariant and what is owed are not touched, and do not depend on the point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.PoolBody.lean ====
/-
  Region 1's body, point by point: the first point zeroes the sums and the counts before adding the tile's share, every
  later point adds to what the point before left (the sums stay in the output window's staging buffer, which is written
  back only after the last point; the counts stay in the scratch column, which the region's invariant carries), and the
  last point divides.
-/
import proofs.«417467_j50448685859136_2_alg».proof.Proof.RegionData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The class invariant with the count column split off the other scoped buffers. -/
theorem PhiA1_eq (c : Dev nD) :
    (Pipeline.ΦA spec1 c : sProp 𝕄)
      = iprop(((∃ d, owns (c : Thread nD τ) cntM fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA
  rw [Pipeline.scopedRest_split_of_list spec1 c [cc1_scratch0] (by decide) (by decide)]
  simp only [bigSepL_singleton, cntM, owns_whole]
  rfl

/-! ## The two conditions of the body, decided over the grid -/

/-- The first `scf.if`'s condition, from the grid coordinate: "this is point 0". -/
abbrev cond1_0 (i : grid1.Coords) : Prop :=
  (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The second `scf.if`'s condition: "this is point 49". -/
abbrev cond1_1 (i : grid1.Coords) : Prop :=
  (Scalar.cmpi .ne (Scalar.extui (Scalar.cmpi .eq (BitVec.ofNat 32 (i 0).val) 49#32)) 0#32) = 1#1
/-- It holds at the last point only. -/
theorem hcond1_1 : ∀ t : Fin cfg1.N, cond1_1 (grid1.coords t) ↔ t.val = 49 :=
  (by decide +kernel : ∀ t : Fin grid1.N, cond1_1 (grid1.coords t) ↔ t.val = 49)

/-! ## One body run per case -/

/-- A buffer whose LAST store went through the whole-buffer rectangle reads back that store's payload, whatever was
    stored before and whatever the buffer held. -/
theorem read_writes_cons_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

set_option maxHeartbeats 1000000 in
/-- THE FIRST POINT: whatever the sums' and the counts' buffers hold, the body zeroes both, then adds the tile's rows
    and row counts to the zeros; the inputs come back as they were. -/
theorem run1_first (c : Dev nD) (i : grid1.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S512x64 .f32) (harg5 : arg5.IsWhole) (arg6 : Memref sig .tc .vmem S512x1 .f32) (harg6 : arg6.IsWhole)
    (hc0 : cond1_0 i) (hc1 : ¬cond1_1 i) (x0 : Vec F S2000x64 .f32) (x1 : Vec F S2000x1 .f32) (x2 : Vec F S1x64 .f32) (x3 : Vec F S2000x1 .i32)
     (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3
            ∗ owns (c : Thread nD τ) arg5 fullShare (k1_pay5 x0 x1 x2 x3 (k1_pay2 (F := F)))
            ∗ owns (c : Thread nD τ) arg6 fullShare (k1_pay6 x3 (k1_pay3 (F := F)))) -∗ K ⟨⟩))
      ⊢ wp frame (wpE (defs₀ (F := F)) Variants.none c none) E (cc1__conv_cd_pool_kernel i arg1 harg1 arg2 harg2 arg3 harg3 arg4 harg4 arg5 harg5 arg6 harg6) K := by
  simp only [cc1__conv_cd_pool_kernel_eq_skeleton]; unfold cc1__conv_cd_pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg1.eq_unread hf0; obtain rfl := harg2.eq_unread hf1; obtain rfl := harg3.eq_unread hf2
  obtain rfl := harg4.eq_unread hf3
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_run_names
    rw [read_writes_cons_whole _ _ hz2]
    simp only [View.readAt_eq_ld, harg1.read_unread, harg2.read_unread, harg3.read_unread, harg4.read_unread, harg5.read_unread,
      harg6.read_unread, View.ld_unit_zero (S := S2000x64) hz2, View.ld_unit_zero (S := S2000x1) hz2, View.ld_unit_zero (S := S1x64) hz2,
      View.ld_unit_zero (S := S512x64) hz2, View.ld_unit_zero (S := S512x1) hz2, View.readCov_unit_zero (S := S512x64) _ hz2,
      View.readCov_unit_zero (S := S512x1) _ hz2]
  iexists _; isplitr
  swap; · iexact H5
  ipureintro
  sl_unfold_run_names
  rw [read_writes_cons_whole _ _ hz2]
  simp only [View.readAt_eq_ld, harg4.read_unread, harg6.read_unread, View.ld_unit_zero (S := S2000x1) hz2,
    View.ld_unit_zero (S := S512x1) hz2, View.readCov_unit_zero (S := S512x1) _ hz2]

set_option maxHeartbeats 1000000 in
/-- A MIDDLE POINT: the body adds the tile's rows to the sums it finds and the tile's row counts to the counts it
    finds; the inputs come back as they were. -/
theorem run1_mid (c : Dev nD) (i : grid1.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S512x64 .f32) (harg5 : arg5.IsWhole) (arg6 : Memref sig .tc .vmem S512x1 .f32) (harg6 : arg6.IsWhole)
    (hc0 : ¬cond1_0 i) (hc1 : ¬cond1_1 i) (x0 : Vec F S2000x64 .f32) (x1 : Vec F S2000x1 .f32) (x2 : Vec F S1x64 .f32) (x3 : Vec F S2000x1 .i32)
    (xo : Vec F S512x64 .f32) (xc : Vec F S512x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xo ∗ owns (c : Thread nD τ) arg6 fullShare xc
        ∗ (iprop(owns (c : Thread nD τ) arg1 fullShare x0 ∗ owns (c : Thread nD τ) arg2 fullShare x1 ∗ owns (c : Thread nD τ) arg3 fullShare x2
        ∗ owns (c : Thread nD τ) arg4 fullShare x3
            ∗ owns (c : Thread nD τ) arg5 fullShare (k1_pay5 x0 x1 x2 x3 xo)
            ∗ owns (c : Thread nD τ) arg6 fullShare (k1_pay6 x3 xc)) -∗ K ⟨⟩))
      ⊢ wp frame (wpE (defs₀ (F := F)) Variants.none c none) E (cc1__conv_cd_pool_kernel i arg1 harg1 arg2 harg2 arg3 harg3 arg4 harg4 arg5 harg5 arg6 harg6) K := by
  simp only [cc1__conv_cd_pool_kernel_eq_skeleton]; unfold cc1__conv_cd_pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_run_names
    rw [read_writes_cons_whole _ _ hz2]
    simp only [View.readAt_eq_ld, harg1.read_unread, harg2.read_unread, harg3.read_unread, harg4.read_unread, harg5.read_unread,
      harg6.read_unread, View.ld_unit_zero (S := S2000x64) hz2, View.ld_unit_zero (S := S2000x1) hz2, View.ld_unit_zero (S := S1x64) hz2,
      View.ld_unit_zero (S := S512x64) hz2, View.ld_unit_zero (S := S512x1) hz2, View.readCov_unit_zero (S := S512x64) _ hz2,
      View.readCov_unit_zero (S := S512x1) _ hz2]
  iexists _; isplitr
  swap; · iexact H5
  ipureintro
  sl_unfold_run_names
  rw [read_writes_cons_whole _ _ hz2]
  simp only [View.readAt_eq_ld, harg4.read_unread, harg6.read_unread, View.ld_unit_zero (S := S2000x1) hz2,
    View.ld_unit_zero (S := S512x1) hz2, View.readCov_unit_zero (S := S512x1) _ hz2]

set_option maxHeartbeats 1000000 in
/-- THE LAST POINT: the body adds as at a middle point, then divides the updated sums by the updated counts clamped
    below at one; the count column stays at the updated counts. -/
theorem run1_last (c : Dev nD) (i : grid1.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S512x64 .f32) (harg5 : arg5.IsWhole) (arg6 : Memref sig .tc .vmem S512x1 .f32) (harg6 : arg6.IsWhole)
    (hc0 : ¬cond1_0 i) (hc1 : cond1_1 i) (x0 : Vec F S2000x64 .f32) (x1 : Vec F S2000x1 .f32) (x2 : Vec F S1x64 .f32) (x3 : Vec F S2000x1 .i32)
    (xo : Vec F S512x64 .f32) (xc : Vec F S512x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xo ∗ owns (c : Thread nD τ) arg6 fullShare xc
        ∗ (iprop(owns (c : Thread nD τ) arg1 fullShare x0 ∗ owns (c : Thread nD τ) arg2 fullShare x1 ∗ owns (c : Thread nD τ) arg3 fullShare x2
        ∗ owns (c : Thread nD τ) arg4 fullShare x3
            ∗ owns (c : Thread nD τ) arg5 fullShare (k1_pay1 (k1_pay5 x0 x1 x2 x3 xo) (k1_pay6 x3 xc))
            ∗ owns (c : Thread nD τ) arg6 fullShare (k1_pay6 x3 xc)) -∗ K ⟨⟩))
      ⊢ wp frame (wpE (defs₀ (F := F)) Variants.none c none) E (cc1__conv_cd_pool_kernel i arg1 harg1 arg2 harg2 arg3 harg3 arg4 harg4 arg5 harg5 arg6 harg6) K := by
  simp only [cc1__conv_cd_pool_kernel_eq_skeleton]; unfold cc1__conv_cd_pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_run_names
    rw [read_writes_cons_whole _ _ hz2]
    simp only [View.readAt_eq_ld, harg1.read_unread, harg2.read_unread, harg3.read_unread, harg4.read_unread, harg5.read_unread,
      harg6.read_unread, View.ld_unit_zero (S := S2000x64) hz2, View.ld_unit_zero (S := S2000x1) hz2, View.ld_unit_zero (S := S1x64) hz2,
      View.ld_unit_zero (S := S512x64) hz2, View.ld_unit_zero (S := S512x1) hz2, View.readCov_unit_zero (S := S512x64) _ hz2,
      View.readCov_unit_zero (S := S512x1) _ hz2]
  iexists _; isplitr
  swap; · iexact H5
  ipureintro
  sl_unfold_run_names
  rw [read_writes_cons_whole _ _ hz2]
  simp only [View.readAt_eq_ld, harg4.read_unread, harg6.read_unread, View.ld_unit_zero (S := S2000x1) hz2,
    View.ld_unit_zero (S := S512x1) hz2, View.readCov_unit_zero (S := S512x1) _ hz2]

/-! ## What the body finds in each staging buffer -/

/-- Each input's current staging buffer holds its block at every point, fetched there or not: an input the body only
    reads keeps its block, and where the pipeline does not fetch, the block index has not moved. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- After the first point the sums' staging buffer holds what the point before left: the block is written back only
    after the last point, the window is never idle and its block is never cut. -/
theorem before1_4 (c : Dev nD) (t : Fin cfg1.N) (ht : t.val ≠ 0) (d) :
    (dat1 V c).before 4 t d = (poolAcc V c (t.val - 1) (Nat.lt_of_le_of_lt (Nat.sub_le _ _) t.isLt)).1 := by
  have hN : t.val < 50 := lt_of_lt_of_eq t.isLt (show cfg1.N = 50 from N_1)
  rw [Dat.before_out_kept _ 4 rfl t ht
    (Bool.eq_false_iff.mpr fun h => by have := (flush1_4 _).mp h; dsimp only at this; omega) (fun _ => rfl) (fun _ _ => rfl)]
  dsimp only [dat1]

/-! ## The invariant, position by position -/

/-- Before the first point: the class's invariant, the count column at anything. -/
theorem PhiPool_zero (c : Dev nD) (n : ℕ) (h : n ≤ cfg1.N) (hz : n = 0) : PhiPool V c n h = Pipeline.ΦA spec1 c := by
  subst hz; rfl

/-- After point `n`: the count column at that point's counts. -/
theorem PhiPool_succ (c : Dev nD) (n : ℕ) (hn : n < cfg1.N) :
    PhiPool V c (n + 1) hn = iprop((owns (c : Thread nD τ) cntM fullShare (poolAcc V c n hn).2
      ∗ Pipeline.scopedRestBut (Ix := Unit) (Name := ℕ) (U := UR sig nD τ) (Lvl := ℕ) (Val := Elt F) spec1 c [cc1_scratch0])
      ∗ (∃ r, prngReg c r)) := rfl

/-- Before a point that is not the first: the count column at what the point before left. -/
theorem PhiPool_pos (c : Dev nD) (n : ℕ) (h : n ≤ cfg1.N) (hz : n ≠ 0) :
    PhiPool V c n h = iprop((owns (c : Thread nD τ) cntM fullShare (poolAcc V c (n - 1) (by omega)).2
      ∗ Pipeline.scopedRestBut (Ix := Unit) (Name := ℕ) (U := UR sig nD τ) (Lvl := ℕ) (Val := Elt F) spec1 c [cc1_scratch0])
      ∗ (∃ r, prngReg c r)) := by
  cases n with
  | zero => exact absurd rfl hz
  | succ n => rfl

/-- The invariant at a point's start, restated at the point's position. -/
theorem Phi1_castSucc (c : Dev nD) (t : Fin cfg1.N) :
    (dat1 V c).Φ t.castSucc = PhiPool V c t.val (Nat.le_of_lt t.isLt) := by
  dsimp only [dat1]; simp only [Fin.coe_castSucc]

/-! ## The body obligation, at a generic point -/

/-- Each window's current staging memref at point `t`, as the pipeline passes it to the body. -/
abbrev ms1_0 (t : Fin cfg1.N) : Memref sig .tc .vmem S2000x64 .f32 := win1_0.stage (cfg1.slots t 0)
abbrev ms1_1 (t : Fin cfg1.N) : Memref sig .tc .vmem S2000x1 .f32 := win1_1.stage (cfg1.slots t 1)
abbrev ms1_2 (t : Fin cfg1.N) : Memref sig .tc .vmem S1x64 .f32 := win1_2.stage (cfg1.slots t 2)
abbrev ms1_3 (t : Fin cfg1.N) : Memref sig .tc .vmem S2000x1 .i32 := win1_3.stage (cfg1.slots t 3)
abbrev ms1_4 (t : Fin cfg1.N) : Memref sig .tc .vmem S512x64 .f32 := win1_4.stage (cfg1.slots t 4)

/-- What the body is called with at point `t`: the invariant, what the core owes, each window's current buffer at what
    it then holds; -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns: the invariant at the next position, and each buffer at what the body leaves (no window of this
    region is ever idle). -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 4800000 in
/-- The body at any point. The inputs' buffers hold their blocks; the closed forms of the two conditions say which of
    the three cases the point is in. At the first point the invariant hands the body the count column at anything and
    the sums' buffer holds anything: the body zeroes both. At a later point the invariant hands it the counts the point
    before left, and the sums' buffer still holds the sums the point before left. Either way the run of the case applies,
    and the invariant takes the count column back at this point's counts. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiPool V c (t.val + 1) t.isLt from rfl, PhiPool_succ]
  rw [after1_0, after1_1, after1_2, after1_3, after1_4, Phi1_castSucc]
  have hN : t.val < 50 := lt_of_lt_of_eq t.isLt (show cfg1.N = 50 from N_1)
  by_cases h0 : t.val = 0
  · rw [poolAcc_zero V c t h0, PhiPool_zero V c _ _ h0, PhiA1_eq]
    unfold poolFirst; dsimp only
    iintro ⟨⟨⟨HS, HR⟩, Hg⟩, Ho, ⟨%d0, H0⟩, ⟨%d1, H1⟩, ⟨%d2, H2⟩, ⟨%d3, H3⟩, ⟨%d4, H4⟩⟩
    iapply (run1_first c (grid1.coords t) (ms1_0 t) (hstage1_0 ((cfg1.slots t 0).cast nbuf1_0)) (ms1_1 t) (hstage1_1 ((cfg1.slots t 1).cast nbuf1_1)) (ms1_2 t) (hstage1_2 ((cfg1.slots t 2).cast nbuf1_2)) (ms1_3 t) (hstage1_3 ((cfg1.slots t 3).cast nbuf1_3)) (ms1_4 t) (hstage1_4 ((cfg1.slots t 4).cast nbuf1_4)) cntM (Memref.isWhole_whole _)
      ((hcond1_0 t).mpr h0) (fun h => by have := (hcond1_1 t).mp h; omega) (iblk1 V c 0 t) (iblk1 V c 1 t) (iblk1 V c 2 t) (iblk1 V c 3 t) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexact H4
  · simp only [before1_4 V c t h0]
    rw [PhiPool_pos V c _ _ h0]
    by_cases h1 : t.val = 49
    · rw [poolAcc_last V c t h1]
      unfold poolLast; dsimp only
      iintro ⟨⟨⟨HS, HR⟩, Hg⟩, Ho, ⟨%d0, H0⟩, ⟨%d1, H1⟩, ⟨%d2, H2⟩, ⟨%d3, H3⟩, ⟨%d4, H4⟩⟩
      iapply (run1_last c (grid1.coords t) (ms1_0 t) (hstage1_0 ((cfg1.slots t 0).cast nbuf1_0)) (ms1_1 t) (hstage1_1 ((cfg1.slots t 1).cast nbuf1_1)) (ms1_2 t) (hstage1_2 ((cfg1.slots t 2).cast nbuf1_2)) (ms1_3 t) (hstage1_3 ((cfg1.slots t 3).cast nbuf1_3)) (ms1_4 t) (hstage1_4 ((cfg1.slots t 4).cast nbuf1_4)) cntM (Memref.isWhole_whole _)
        (fun h => h0 ((hcond1_0 t).mp h)) ((hcond1_1 t).mpr h1) (iblk1 V c 0 t) (iblk1 V c 1 t) (iblk1 V c 2 t) (iblk1 V c 3 t)
        (poolAcc V c (t.val - 1) (Nat.lt_of_le_of_lt (Nat.sub_le _ _) t.isLt)).1 (poolAcc V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · rw [poolAcc_mid V c t h0 h1]
      unfold poolMid; dsimp only
      iintro ⟨⟨⟨HS, HR⟩, Hg⟩, Ho, ⟨%d0, H0⟩, ⟨%d1, H1⟩, ⟨%d2, H2⟩, ⟨%d3, H3⟩, ⟨%d4, H4⟩⟩
      iapply (run1_mid c (grid1.coords t) (ms1_0 t) (hstage1_0 ((cfg1.slots t 0).cast nbuf1_0)) (ms1_1 t) (hstage1_1 ((cfg1.slots t 1).cast nbuf1_1)) (ms1_2 t) (hstage1_2 ((cfg1.slots t 2).cast nbuf1_2)) (ms1_3 t) (hstage1_3 ((cfg1.slots t 3).cast nbuf1_3)) (ms1_4 t) (hstage1_4 ((cfg1.slots t 4).cast nbuf1_4)) cntM (Memref.isWhole_whole _)
        (fun h => h0 ((hcond1_0 t).mp h)) (fun h => h1 ((hcond1_1 t).mp h)) (iblk1 V c 0 t) (iblk1 V c 1 t) (iblk1 V c 2 t) (iblk1 V c 3 t)
        (poolAcc V c (t.val - 1) (Nat.lt_of_le_of_lt (Nat.sub_le _ _) t.isLt)).1 (poolAcc V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4

/-- The pipeline's body obligation for region 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiPool V c 0 (Nat.zero_le _) from rfl, PhiPool_zero V c 0 _ rfl]

/-- After the last point the invariant gives the class's back: the counts' contents are forgotten. -/
theorem hout1 (c : Dev nD) : (dat1 V c).Φ (Fin.last cfg1.N) ⊢ (Pipeline.ΦA spec1 c : sProp 𝕄) := by
  rw [show (dat1 V c).Φ (Fin.last cfg1.N) = PhiPool V c (Fin.last cfg1.N).val (Nat.le_of_lt_succ (Fin.last cfg1.N).isLt) from rfl,
    PhiPool_pos V c _ _ (by rw [Fin.val_last]; have : cfg1.N = 50 := N_1; omega), PhiA1_eq]
  iintro ⟨⟨HS, HR⟩, Hg⟩
  isplitl [HS HR]
  · isplitl [HS]
    · iexists _; iexact HS
    iexact HR
  iexact Hg

end Cert.KernelIdeal.Hand

end
-- ==== Proof.MlpBody.lean ====
/-
  Region 2's body at its one grid point: from the pooled rows, the four weight matrices and the four bias rows in their
  staging buffers the kernel function stores the class scores into the output window's buffer.
-/
import proofs.«417467_j50448685859136_2_alg».proof.Proof.RegionData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each input window's staging buffer holds when the body is called

The grid has one point, at which every input window is copied in; the buffer then holds the window's block of that
point. Stated through the lemma that covers "copied in there or not", which needs nothing about the schedule. -/

/-- Input window 0: for any proof data over the region's arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: for any proof data over the region's arrays whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2: for any proof data over the region's arrays whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3: for any proof data over the region's arrays whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4: for any proof data over the region's arrays whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5: for any proof data over the region's arrays whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6: for any proof data over the region's arrays whose body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7: for any proof data over the region's arrays whose body leaves the block in place. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8: for any proof data over the region's arrays whose body leaves the block in place. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body's one store covers the output buffer -/

/-- The store's rectangle is the whole 512 x 2 buffer: one tile of the buffer's own size. -/
theorem cover2_9 (p0 : Vec F S512x2 .f32) (y : S512x2.Idx) :
    ∃ pc ∈ ([⟨rc512x2, p0⟩] : List (View.Piece (Elt F) S512x2 .f32)), y ∈ pc.1.set :=
  View.cover_of_tiled [⟨rc512x2, p0⟩] S512x2.size (by rfl) y

/-! ## The kernel function on whole staging buffers -/

set_option maxHeartbeats 1000000 in
/-- With the nine input buffers at read contents `x0 … x8` and the output buffer at anything, the kernel function
    runs to a state with the inputs as they were and the output at `mlpOut x0 … x8`: nine whole-buffer loads, a
    load of the output buffer whose value is not used, and one whole-buffer store of the payload of the nine
    loaded values. The grid coordinate is not read. -/
theorem sound_kernel2 (c : Dev nD) (E : Set ℕ) (i : grid2.Coords)
    (arg1 : Memref sig .tc .vmem S512x64 .f32) (harg1 : arg1.IsWhole) (arg2 : Memref sig .tc .vmem S64x18 .f32) (harg2 : arg2.IsWhole) (arg3 : Memref sig .tc .vmem S1x18 .f32) (harg3 : arg3.IsWhole)
    (arg4 : Memref sig .tc .vmem S18x12 .f32) (harg4 : arg4.IsWhole) (arg5 : Memref sig .tc .vmem S1x12 .f32) (harg5 : arg5.IsWhole) (arg6 : Memref sig .tc .vmem S12x6 .f32) (harg6 : arg6.IsWhole)
    (arg7 : Memref sig .tc .vmem S1x6 .f32) (harg7 : arg7.IsWhole) (arg8 : Memref sig .tc .vmem S6x2 .f32) (harg8 : arg8.IsWhole) (arg9 : Memref sig .tc .vmem S1x2 .f32) (harg9 : arg9.IsWhole)
    (arg10 : Memref sig .tc .vmem S512x2 .f32) (harg10 : arg10.IsWhole)
    (x0 : Vec F S512x64 .f32) (x1 : Vec F S64x18 .f32) (x2 : Vec F S1x18 .f32) (x3 : Vec F S18x12 .f32) (x4 : Vec F S1x12 .f32) (x5 : Vec F S12x6 .f32) (x6 : Vec F S1x6 .f32) (x7 : Vec F S6x2 .f32) (x8 : Vec F S1x2 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ (∃ d, owns (c : Thread nD τ) arg10 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare (mlpOut x0 x1 x2 x3 x4 x5 x6 x7 x8)) -∗ K ⟨⟩))
      ⊢ wp frame (wpE (defs₀ (F := F)) Variants.none c none) E
          (cc2__mlp_kernel i arg1 harg1 arg2 harg2 arg3 harg3 arg4 harg4 arg5 harg5 arg6 harg6 arg7 harg7 arg8 harg8 arg9 harg9 arg10 harg10) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-! ## The body at the grid's point -/

/-- What the pipeline hands the body at point `t`: the invariant, what is owed, and each window's current staging
    buffer at what it holds before the body. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- What the body hands back: the same invariant and debts, each buffer at what the body leaves in it. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at the point: every input buffer holds its block, so the kernel function's triple applies at the nine
    blocks; the invariant and what is owed are not touched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation for region 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Whole.lean ====
/-
  The whole program as ten items — five stretches of host operations, region 0, a stretch, region 1, a stretch, region 2 —
  run from the launch to the return. Between two items every unscoped buffer is held at named contents: a host stretch's
  are the fold of its operations over what it found; a region leaves its output array at what its grid points wrote back
  (region 0: fifty row tiles; region 1: the pooled block of its last point; region 2: its one block) and every other buffer
  as it found it. Read at the end: the sixteen argument arrays hold what they held at launch, and the result array holds
  what region 2 left.
-/
import proofs.«417467_j50448685859136_2_alg».proof.Proof.Gen.KernelIdeal.Regions
import proofs.«417467_j50448685859136_2_alg».proof.Proof.ConvBody
import proofs.«417467_j50448685859136_2_alg».proof.Proof.PoolBody
import proofs.«417467_j50448685859136_2_alg».proof.Proof.MlpBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- What region 0 is entered from, read at the TensorCore's references. -/
abbrev E0 : (c : Dev nD) → (b : Ref sig .tc) → Buf (Elt F) ((c : Thread nD τ).loc b) := fun c b => V5 m c b
/-- The projected features region 0 leaves in its output array. -/
def arr0 (c : Dev nD) : Buf (Elt F) ((c : Thread nD τ).loc main_v29) := (dat0 (E0 m) c).arrAt 6 cfg0.N
/-- After region 0. -/
def W6 (c : Dev nD) : Valuation τ sig (Elt F) := Function.update (V5 m c) main_v29 (arr0 m c)
/-- After the stretch that carries the projected features to their neighbours. -/
abbrev W7 (c : Dev nD) : Valuation τ sig (Elt F) := StableHlo.after hostOps1 (W6 m c)
abbrev E1 : (c : Dev nD) → (b : Ref sig .tc) → Buf (Elt F) ((c : Thread nD τ).loc b) := fun c b => W7 m c b
/-- The per-graph means region 1 leaves in its output array. -/
def arr1 (c : Dev nD) : Buf (Elt F) ((c : Thread nD τ).loc main_v43) := (dat1 (E1 m) c).arrAt 4 cfg1.N
/-- After region 1. -/
def W8 (c : Dev nD) : Valuation τ sig (Elt F) := Function.update (W7 m c) main_v43 (arr1 m c)
abbrev W9 (c : Dev nD) : Valuation τ sig (Elt F) := StableHlo.after hostOps2 (W8 m c)
abbrev E2 : (c : Dev nD) → (b : Ref sig .tc) → Buf (Elt F) ((c : Thread nD τ).loc b) := fun c b => W9 m c b
/-- The class scores region 2 leaves in its output array. -/
def arr2 (c : Dev nD) : Buf (Elt F) ((c : Thread nD τ).loc main_v48) := (dat2 (E2 m) c).arrAt 9 cfg2.N
/-- After region 2: the contents the launch reads at the end. -/
def W10 (c : Dev nD) : Valuation τ sig (Elt F) := Function.update (W9 m c) main_v48 (arr2 m c)

/-- What the three regions leave, as the generated valuations take it: read off the boundaries above. -/
def outs : Outs (F := F) := fun J r c =>
  match J with
  | 6 => W6 m c r
  | 8 => W8 m c r
  | _ => W10 m c r

theorem outs6 (c : Dev nD) : outs m 6 main_v29 c = arr0 m c := by
  show W6 m c main_v29 = _; unfold W6; exact Function.update_self _ _ _
theorem outs8 (c : Dev nD) : outs m 8 main_v43 c = arr1 m c := by
  show W8 m c main_v43 = _; unfold W8; exact Function.update_self _ _ _
theorem outs10 (c : Dev nD) : outs m 10 main_v48 c = arr2 m c := by
  show W10 m c main_v48 = _; unfold W10; exact Function.update_self _ _ _

/-- The generated valuations at these contents are the boundaries above. -/
theorem V6_eq (c : Dev nD) : V6 m (outs m) c = W6 m c := by
  show Function.update (V5 m c) main_v29 (outs m 6 main_v29 c) = _; rw [outs6]; rfl
theorem V7_eq (c : Dev nD) : V7 m (outs m) c = W7 m c := by
  show StableHlo.after hostOps1 (V6 m (outs m) c) = _; rw [V6_eq]
theorem V8_eq (c : Dev nD) : V8 m (outs m) c = W8 m c := by
  show Function.update (V7 m (outs m) c) main_v43 (outs m 8 main_v43 c) = _; rw [outs8, V7_eq]; rfl
theorem V9_eq (c : Dev nD) : V9 m (outs m) c = W9 m c := by
  show StableHlo.after hostOps2 (V8 m (outs m) c) = _; rw [V8_eq]
theorem V10_eq (c : Dev nD) : V10 m (outs m) c = W10 m c := by
  show Function.update (V9 m (outs m) c) main_v48 (outs m 10 main_v48 c) = _; rw [outs10, V9_eq]; rfl

/-! ## The proof data family and the thread state -/

/-- Every pipeline's proof data, each at its region's entry contents (a literal match, so that the data of pipeline `p` at a
    numeral reduces to the printed configuration's). -/
def pdats : (p : Fin 3) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c

/-- No core owes another anything: no level is assigned. -/
abbrev L0 : GSem nD τ sig → Finset Unit := fun _ => ∅
abbrev lv0 : GSem nD τ sig → Unit → ℕ := fun _ _ => 0
/-- What rides beside the buffers through every item: the core's generator register at some state and its `owes`, at nothing. -/
abbrev Rr (c : Dev nD) : sProp 𝕄 := iprop((∃ r, prngReg c r) ∗ ∃ W, owes (c : Thread nD τ) (0 : CellTallies nD τ sig Unit) W)

/-! ## Each region's exit contents: its arrays at what the pipeline leaves, every other buffer as entered -/

/-- A reference other than `main_v29` holds after the region what it held before. -/
theorem W6_of (c : Dev nD) (r : Ref sig .tc) (h : r ∉ ([main_v29] : List (Ref sig .tc))) : W6 m c r = V5 m c r := by
  unfold W6
  rw [Function.update_of_ne (StableHlo.devRef_ne_of_ne (List.ne_of_not_mem_cons h) : (Proc.devRef .tc r : DevRef τ sig) ≠ Proc.devRef .tc main_v29)]

/-- Every window of region 0 but the last is an input, and its array is not the output's. -/
theorem win0_in : ∀ w : Fin 7, w ≠ 6 → (cfg0.win w).isOut = false ∧ Pipeline.arrRef spec0 w ∉ ([main_v29] : List (Ref sig .tc)) := by decide
theorem hF0_in (c : Dev nD) (w : Fin cfg0.W) (hw : (cfg0.win w).isOut = false) (hne : Pipeline.arrRef spec0 w ∉ ([main_v29] : List (Ref sig .tc))) :
    (dat0 (E0 m) c).arrAt w cfg0.N = W6 m c (Pipeline.arrRef spec0 w) :=
  ((dat0 (E0 m) c).arrAt_in w hw _).trans ((A_eq0 (E0 m) c w).trans (W6_of m c _ hne).symm)
theorem hF0 (c : Dev nD) (w : Fin cfg0.W) : (pdats m 0 c).arrAt w cfg0.N = W6 m c (Pipeline.arrRef spec0 w) := by
  show (dat0 (E0 m) c).arrAt w cfg0.N = _
  by_cases h : w = (6 : Fin 7)
  · subst h
    show arr0 m c = W6 m c main_v29
    exact (outs6 m c).symm
  · exact hF0_in m c w (win0_in w h).1 (win0_in w h).2
theorem hrest0 (c : Dev nD) : ∀ b : Ref sig .tc, b ∉ Finset.univ.image (Pipeline.arrRef spec0) → W6 m c b = E0 m c b :=
  fun b hb => W6_of m c b (fun hm => by
    have e : Pipeline.arrRef spec0 (6 : Fin 7) = b := (show Pipeline.arrRef spec0 (6 : Fin 7) = main_v29 from rfl).trans (List.mem_singleton.mp hm).symm
    exact hb (Finset.mem_image.mpr ⟨_, Finset.mem_univ _, e⟩))

/-- A reference other than `main_v43` holds after the region what it held before. -/
theorem W8_of (c : Dev nD) (r : Ref sig .tc) (h : r ∉ ([main_v43] : List (Ref sig .tc))) : W8 m c r = W7 m c r := by
  unfold W8
  rw [Function.update_of_ne (StableHlo.devRef_ne_of_ne (List.ne_of_not_mem_cons h) : (Proc.devRef .tc r : DevRef τ sig) ≠ Proc.devRef .tc main_v43)]

/-- Every window of region 1 but the last is an input, and its array is not the output's. -/
theorem win1_in : ∀ w : Fin 5, w ≠ 4 → (cfg1.win w).isOut = false ∧ Pipeline.arrRef spec1 w ∉ ([main_v43] : List (Ref sig .tc)) := by decide
theorem hF1_in (c : Dev nD) (w : Fin cfg1.W) (hw : (cfg1.win w).isOut = false) (hne : Pipeline.arrRef spec1 w ∉ ([main_v43] : List (Ref sig .tc))) :
    (dat1 (E1 m) c).arrAt w cfg1.N = W8 m c (Pipeline.arrRef spec1 w) :=
  ((dat1 (E1 m) c).arrAt_in w hw _).trans ((A_eq1 (E1 m) c w).trans (W8_of m c _ hne).symm)
theorem hF1 (c : Dev nD) (w : Fin cfg1.W) : (pdats m 1 c).arrAt w cfg1.N = W8 m c (Pipeline.arrRef spec1 w) := by
  show (dat1 (E1 m) c).arrAt w cfg1.N = _
  by_cases h : w = (4 : Fin 5)
  · subst h
    show arr1 m c = W8 m c main_v43
    exact (outs8 m c).symm
  · exact hF1_in m c w (win1_in w h).1 (win1_in w h).2
theorem hrest1 (c : Dev nD) : ∀ b : Ref sig .tc, b ∉ Finset.univ.image (Pipeline.arrRef spec1) → W8 m c b = E1 m c b :=
  fun b hb => W8_of m c b (fun hm => by
    have e : Pipeline.arrRef spec1 (4 : Fin 5) = b := (show Pipeline.arrRef spec1 (4 : Fin 5) = main_v43 from rfl).trans (List.mem_singleton.mp hm).symm
    exact hb (Finset.mem_image.mpr ⟨_, Finset.mem_univ _, e⟩))

/-- A reference other than `main_v48` holds after the region what it held before. -/
theorem W10_of (c : Dev nD) (r : Ref sig .tc) (h : r ∉ ([main_v48] : List (Ref sig .tc))) : W10 m c r = W9 m c r := by
  unfold W10
  rw [Function.update_of_ne (StableHlo.devRef_ne_of_ne (List.ne_of_not_mem_cons h) : (Proc.devRef .tc r : DevRef τ sig) ≠ Proc.devRef .tc main_v48)]

/-- Every window of region 2 but the last is an input, and its array is not the output's. -/
theorem win2_in : ∀ w : Fin 10, w ≠ 9 → (cfg2.win w).isOut = false ∧ Pipeline.arrRef spec2 w ∉ ([main_v48] : List (Ref sig .tc)) := by decide
theorem hF2_in (c : Dev nD) (w : Fin cfg2.W) (hw : (cfg2.win w).isOut = false) (hne : Pipeline.arrRef spec2 w ∉ ([main_v48] : List (Ref sig .tc))) :
    (dat2 (E2 m) c).arrAt w cfg2.N = W10 m c (Pipeline.arrRef spec2 w) :=
  ((dat2 (E2 m) c).arrAt_in w hw _).trans ((A_eq2 (E2 m) c w).trans (W10_of m c _ hne).symm)
theorem hF2 (c : Dev nD) (w : Fin cfg2.W) : (pdats m 2 c).arrAt w cfg2.N = W10 m c (Pipeline.arrRef spec2 w) := by
  show (dat2 (E2 m) c).arrAt w cfg2.N = _
  by_cases h : w = (9 : Fin 10)
  · subst h
    show arr2 m c = W10 m c main_v48
    exact (outs10 m c).symm
  · exact hF2_in m c w (win2_in w h).1 (win2_in w h).2
theorem hrest2 (c : Dev nD) : ∀ b : Ref sig .tc, b ∉ Finset.univ.image (Pipeline.arrRef spec2) → W10 m c b = E2 m c b :=
  fun b hb => W10_of m c b (fun hm => by
    have e : Pipeline.arrRef spec2 (9 : Fin 10) = b := (show Pipeline.arrRef spec2 (9 : Fin 10) = main_v48 from rfl).trans (List.mem_singleton.mp hm).symm
    exact hb (Finset.mem_image.mpr ⟨_, Finset.mem_univ _, e⟩))

/-! ## The regions as segments -/

set_option backward.isDefEq.respectTransparency.types false in
/-- REGION 0 over the thread state: entered with every unscoped buffer at the contents before it, left with the region's
    output array at what its write-backs leave and every other buffer as entered. Its arrays are split out of the unscoped
    buffers and put back; the generator register goes into the region's invariant and comes out; nothing is owed. -/
def reg0 : RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L0 lv0 0 fun _ _ => rfl
  pre c := iprop(StableHlo.held (c : Thread nD τ) (Pipeline.ucRefs τ sig) (V5 m c) ∗ Rr c)
  post c := iprop(StableHlo.held (c : Thread nD τ) (Pipeline.ucRefs τ sig) (W6 m c) ∗ Rr c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => W6 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered with every unscoped buffer at the contents before it, left with the region's
    output array at what its write-backs leave and every other buffer as entered. Its arrays are split out of the unscoped
    buffers and put back; the generator register goes into the region's invariant and comes out; nothing is owed. -/
def reg1 : RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L0 lv0 1 fun _ _ => rfl
  pre c := iprop(StableHlo.held (c : Thread nD τ) (Pipeline.ucRefs τ sig) (W7 m c) ∗ Rr c)
  post c := iprop(StableHlo.held (c : Thread nD τ) (Pipeline.ucRefs τ sig) (W8 m c) ∗ Rr c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (E1 m) c
    unfold Pipeline.ΦA at h
    rw [show (pdats m 1 c).Φ 0 = (dat1 (E1 m) c).Φ 0 from rfl]
    iintro ⟨Hp, -, Hr⟩
    iapply h
    isplitl [Hr]; · iexact Hr
    iexact Hp
  hout c := by
    rw [Pipeline.ownSems0_none]
    have h := hout1 (E1 m) c
    unfold Pipeline.ΦA at h
    rw [show (pdats m 1 c).Φ (Fin.last _) = (dat1 (E1 m) c).Φ (Fin.last cfg1.N) from rfl]
    iintro Hf
    ihave H := h $$ Hf
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => W8 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered with every unscoped buffer at the contents before it, left with the region's
    output array at what its write-backs leave and every other buffer as entered. Its arrays are split out of the unscoped
    buffers and put back; the generator register goes into the region's invariant and comes out; nothing is owed. -/
def reg2 : RegionSeg (pcfgs (F := F)) adm (pdats m) () defs₀ Variants.none L0 lv0 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L0 lv0 2 fun _ _ => rfl
  pre c := iprop(StableHlo.held (c : Thread nD τ) (Pipeline.ucRefs τ sig) (W9 m c) ∗ Rr c)
  post c := iprop(StableHlo.held (c : Thread nD τ) (Pipeline.ucRefs τ sig) (W10 m c) ∗ Rr c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (fun b => W10 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

section Launch
variable {F : FTy → Type} [FloatOps F]
variable (m : (ℓ : Loc nD τ sig) → Buf (Elt F) ℓ)

set_option backward.isDefEq.respectTransparency.types false in
/-- THE RUN, GIVEN THE REGIONS' RECORDS: as the frame of the ten items, with the result array read too — at the end it holds
    what the last region left in it (`outs 10 main_v48`), and every argument array what it held at launch. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V9 m outs c) ∗ E 2 c) ⊢ R2.pre c)
    (hpost2 : ∀ c : Dev nD, R2.post c ⊢ iprop(StableHlo.held (c : Thread nD τ) (Pipeline.ucRefs τ sig) (V10 m outs c) ∗ E 3 c)) :
    θ_run defs (onTc (τ := τ) (main (F := F))) ⟨m, fun _ => 0, ρ⟩ (fun r => ∀ c : Dev nD,
      r.2.mem ((c.tc : Thread nD τ).loc main_v48) = outs 10 main_v48 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m outs c))
    (hch := fun c => ⟨.rfl, .rfl, .rfl, .rfl, .rfl, hpre0 c, hpost0 c, hpre1 c, hpost1 c, hpre2 c, (hpost2 c).trans (sep_mono .rfl (hE3 c))⟩)
    (hinit := ?_) (QY := fun c s => s.mem ((c.tc : Thread nD τ).loc main_v48) = outs 10 main_v48 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V10 m outs c) s') $$ [Hh HSI]
    · isplitl [Hh] <;> iassumption
    icases Hr with ⟨%h, HSI⟩
    imodintro
    isplitr
    · ipureintro
      exact ⟨(h (Proc.devRef .tc main_v48) (Finset.mem_filter.mpr ⟨StableHlo.devRef_mem_tcRefs main_v48, by decide⟩)).trans (by unfold V10; exact Function.update_self _ _ _),
        (h (Proc.devRef .tc main_arg0) (Finset.mem_filter.mpr ⟨StableHlo.devRef_mem_tcRefs main_arg0, by decide⟩)).trans (V10_main_arg0 m outs c),
        (h (Proc.devRef .tc main_arg1) (Finset.mem_filter.mpr ⟨StableHlo.devRef_mem_tcRefs main_arg1, by decide⟩)).trans (V10_main_arg1 m outs c),
        (h (Proc.devRef .tc main_arg2) (Finset.mem_filter.mpr ⟨StableHlo.devRef_mem_tcRefs main_arg2, by decide⟩)).trans (V10_main_arg2 m outs c),
        (h (Proc.devRef .tc main_arg3) (Finset.mem_filter.mpr ⟨StableHlo.devRef_mem_tcRefs main_arg3, by decide⟩)).trans (V10_main_arg3 m outs c),
        (h (Proc.devRef .tc main_arg4) (Finset.mem_filter.mpr ⟨StableHlo.devRef_mem_tcRefs main_arg4, by decide⟩)).trans (V10_main_arg4 m outs c),
        (h (Proc.devRef .tc main_arg5) (Finset.mem_filter.mpr ⟨StableHlo.devRef_mem_tcRefs main_arg5, by decide⟩)).trans (V10_main_arg5 m outs c),
        (h (Proc.devRef .tc main_arg6) (Finset.mem_filter.mpr ⟨StableHlo.devRef_mem_tcRefs main_arg6, by decide⟩)).trans (V10_main_arg6 m outs c),
        (h (Proc.devRef .tc main_arg7) (Finset.mem_filter.mpr ⟨StableHlo.devRef_mem_tcRefs main_arg7, by decide⟩)).trans (V10_main_arg7 m outs c),
        (h (Proc.devRef .tc main_arg8) (Finset.mem_filter.mpr ⟨StableHlo.devRef_mem_tcRefs main_arg8, by decide⟩)).trans (V10_main_arg8 m outs c),
        (h (Proc.devRef .tc main_arg9) (Finset.mem_filter.mpr ⟨StableHlo.devRef_mem_tcRefs main_arg9, by decide⟩)).trans (V10_main_arg9 m outs c),
        (h (Proc.devRef .tc main_arg10) (Finset.mem_filter.mpr ⟨StableHlo.devRef_mem_tcRefs main_arg10, by decide⟩)).trans (V10_main_arg10 m outs c),
        (h (Proc.devRef .tc main_arg11) (Finset.mem_filter.mpr ⟨StableHlo.devRef_mem_tcRefs main_arg11, by decide⟩)).trans (V10_main_arg11 m outs c),
        (h (Proc.devRef .tc main_arg12) (Finset.mem_filter.mpr ⟨StableHlo.devRef_mem_tcRefs main_arg12, by decide⟩)).trans (V10_main_arg12 m outs c),
        (h (Proc.devRef .tc main_arg13) (Finset.mem_filter.mpr ⟨StableHlo.devRef_mem_tcRefs main_arg13, by decide⟩)).trans (V10_main_arg13 m outs c),
        (h (Proc.devRef .tc main_arg14) (Finset.mem_filter.mpr ⟨StableHlo.devRef_mem_tcRefs main_arg14, by decide⟩)).trans (V10_main_arg14 m outs c),
        (h (Proc.devRef .tc main_arg15) (Finset.mem_filter.mpr ⟨StableHlo.devRef_mem_tcRefs main_arg15, by decide⟩)).trans (V10_main_arg15 m outs c)⟩
    · iexact HSI

end Launch

/-- What the launch deals a core beside its buffers makes the rest state that rides through every item. -/
theorem launch_rest_core (c : Dev nD) : (iprop(unscopedSems0 c ∗ owes (c : Thread nD τ) ((0 : Dev nD → CellTallies nD τ sig Unit) c) ∅
      ∗ Pipeline.launchCred (0 : Dev nD → CellTallies nD τ sig Unit) c ∗ prngReg c (ρ c) ∗ iprop(emp)) : sProp 𝕄) ⊢ Rr c := by
  iintro ⟨-, HO, -, Hp, -⟩
  isplitl [Hp]; · iexists _; iexact Hp
  iexists ∅; iexact HO

theorem launch_rest : (bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ iprop(emp)))
    ⊢ (bigSep Finset.univ (fun c : Dev nD => Rr c) : sProp 𝕄) :=
  bigSep_mono fun c _ => launch_rest_core (F := F) ρ c

set_option backward.isDefEq.respectTransparency.types false in
/-- THE RUN of the whole program, at any float instance: from any memory with zero counters every weakly fair execution of
    @main terminates, nothing faulting; the result array ends at what region 2 leaves and every argument array as launched. -/
theorem run_all : θ_run defs (onTc (τ := τ) (main (F := F))) ⟨m, fun _ => 0, ρ⟩ (fun r => ∀ c : Dev nD,
      r.2.mem ((c.tc : Thread nD τ).loc main_v48) = arr2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨((h c).1).trans (outs10 m c), (h c).2⟩)
    (run_cond m emb₁ () Variants.none L0 lv0 (fun _ _ => rfl) ρ (outs m) (pdats m) (O₀ := 0) (G := fun _ => iprop(emp))
      (u₀ := initOf (Pipeline.cells cfgs cellOf_inj) (Pipeline.launchToks cfgs cellOf_inj))
      (hu₀ := by
        iintro Hu; imodintro
        isplitl [Hu]
        · iapply (show (ownU (initOf (Pipeline.cells cfgs cellOf_inj) (Pipeline.launchToks cfgs cellOf_inj)) : sProp 𝕄)
              ⊢ BI.own (emb₁ (initOf (Pipeline.cells cfgs cellOf_inj) (Pipeline.launchToks cfgs cellOf_inj))) from .rfl)
          iexact Hu
        iapply (show (BI.emp : sProp 𝕄) ⊢ bigSep Finset.univ (fun _ : Dev nD => (BI.emp : sProp 𝕄)) from by rw [BI.bigSep_emp_const])
        iempintro)
      (E := fun _ c => Rr c)
      (hE0 := by
        iintro ⟨H, -⟩
        imodintro
        iapply (launch_rest (F := F) ρ)
        iexact H)
      (hE3 := fun c => by iintro ⟨-, H⟩; iexact H)
      (R0 := reg0 m) (hpre0 := fun c => .rfl) (hpost0 := fun c => by rw [V6_eq]; exact .rfl)
      (R1 := reg1 m) (hpre1 := fun c => by rw [V7_eq]; exact .rfl) (hpost1 := fun c => by rw [V8_eq]; exact .rfl)
      (R2 := reg2 m) (hpre2 := fun c => by rw [V9_eq]; exact .rfl) (hpost2 := fun c => by rw [V10_eq]; exact .rfl))

/-- THE FRAME: the same run with the result forgotten. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => (h c).2) (run_all m ρ)

end Cert.KernelIdeal.Hand

end
-- ==== Proof.KRegionData.lean ====
/-
  The three kernel regions of the graph-convolution network, as data the rest of the proof is stated over.

  Region 0 (grid of 50 row tiles of 2000 nodes): from a tile of the aggregated features g1 (2000 x 128), the weights W1
  (128 x 256), the tile's in-degree scales (2000 x 1), the bias row b1 (1 x 256), the tile's out-degree scales (2000 x 1)
  and W2 (256 x 64) the body stores ONE block, relu((g1 W1) * s_in + b1) * s_out W2 (2000 x 64): a function of the six
  input blocks of the same point only.

  Region 1 (50 tiles again): a running sum. The output block (512 x 64, the same block at every point, written back
  only after the last point) and a count column kept in a scratch buffer (512 x 1) are zeroed at the first point; every
  point adds, for each graph g, the rows of relu(g2 * s_in + b2) of the tile whose graph id is g, and the number of such
  rows; the last point then divides the sums by max(count, 1). What both buffers hold after point n is therefore a
  recursion on n: `poolAcc`.

  Region 2 (one point): four affine layers on the 512 pooled rows: a function of the ten input blocks of that point.
-/
import proofs.«417467_j50448685859136_2_alg».proof.Proof.Gen.Kernel.Launch
import proofs.«417467_j50448685859136_2_alg».proof.Proof.Gen.Kernel.Skeleton
import proofs.«417467_j50448685859136_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of every load and store of the three bodies: each reads or writes a whole staging buffer. -/
theorem hz2 : (![0, 0] : Fin 2 → Nat) = fun _ => 0 := funext fun a => by fin_cases a <;> rfl

/-! ## The rectangles the bodies load and store through: each the whole buffer -/

abbrev rc2000x128 : Rect S2000x128 := Rect.unit (s := S2000x128) ![0, 0] S2000x128.size inb_S2000x128_S2000x128_0_0
abbrev rc128x256 : Rect S128x256 := Rect.unit (s := S128x256) ![0, 0] S128x256.size inb_S128x256_S128x256_0_0
abbrev rc2000x1 : Rect S2000x1 := Rect.unit (s := S2000x1) ![0, 0] S2000x1.size inb_S2000x1_S2000x1_0_0
abbrev rc1x256 : Rect S1x256 := Rect.unit (s := S1x256) ![0, 0] S1x256.size inb_S1x256_S1x256_0_0
abbrev rc256x64 : Rect S256x64 := Rect.unit (s := S256x64) ![0, 0] S256x64.size inb_S256x64_S256x64_0_0
abbrev rc2000x64 : Rect S2000x64 := Rect.unit (s := S2000x64) ![0, 0] S2000x64.size inb_S2000x64_S2000x64_0_0
abbrev rc1x64 : Rect S1x64 := Rect.unit (s := S1x64) ![0, 0] S1x64.size inb_S1x64_S1x64_0_0
abbrev rc512x64 : Rect S512x64 := Rect.unit (s := S512x64) ![0, 0] S512x64.size inb_S512x64_S512x64_0_0
abbrev rc512x1 : Rect S512x1 := Rect.unit (s := S512x1) ![0, 0] S512x1.size inb_S512x1_S512x1_0_0
abbrev rc64x18 : Rect S64x18 := Rect.unit (s := S64x18) ![0, 0] S64x18.size inb_S64x18_S64x18_0_0
abbrev rc1x18 : Rect S1x18 := Rect.unit (s := S1x18) ![0, 0] S1x18.size inb_S1x18_S1x18_0_0
abbrev rc18x12 : Rect S18x12 := Rect.unit (s := S18x12) ![0, 0] S18x12.size inb_S18x12_S18x12_0_0
abbrev rc1x12 : Rect S1x12 := Rect.unit (s := S1x12) ![0, 0] S1x12.size inb_S1x12_S1x12_0_0
abbrev rc12x6 : Rect S12x6 := Rect.unit (s := S12x6) ![0, 0] S12x6.size inb_S12x6_S12x6_0_0
abbrev rc1x6 : Rect S1x6 := Rect.unit (s := S1x6) ![0, 0] S1x6.size inb_S1x6_S1x6_0_0
abbrev rc6x2 : Rect S6x2 := Rect.unit (s := S6x2) ![0, 0] S6x2.size inb_S6x2_S6x2_0_0
abbrev rc1x2 : Rect S1x2 := Rect.unit (s := S1x2) ![0, 0] S1x2.size inb_S1x2_S1x2_0_0
abbrev rc512x2 : Rect S512x2 := Rect.unit (s := S512x2) ![0, 0] S512x2.size inb_S512x2_S512x2_0_0

section AtEntry
-- the TensorCore's buffer contents when a region is entered: the parameter each region's data is stated at
variable (V : (c : Dev nD) → (b : Ref sig .tc) → Buf (Elt F) ((c : Thread nD τ).loc b))

/-! # Region 0: the fused first-layer epilogue and second-layer projection -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the output window's staging buffer: its one store, of the projected tile, over the six
    loaded blocks. -/
def convOut (x0 : Vec F S2000x128 .f32) (x1 : Vec F S128x256 .f32) (x2 : Vec F S2000x1 .f32) (x3 : Vec F S1x256 .f32)
    (x4 : Vec F S2000x1 .f32) (x5 : Vec F S256x64 .f32) : Vec F S2000x64 .f32 :=
  View.canon [⟨rc2000x64, k0_pay1 (View.ld x0 rc2000x128) (View.ld x1 rc128x256) (View.ld x2 rc2000x1) (View.ld x3 rc1x256) (View.ld x4 rc2000x1) (View.ld x5 rc256x64)⟩]

/-- The stored tile IS the payload of the six blocks: every rectangle is a whole buffer. -/
theorem convOut_eq (x0 : Vec F S2000x128 .f32) (x1 : Vec F S128x256 .f32) (x2 : Vec F S2000x1 .f32) (x3 : Vec F S1x256 .f32)
    (x4 : Vec F S2000x1 .f32) (x5 : Vec F S256x64 .f32) : convOut x0 x1 x2 x3 x4 x5 = k0_pay1 x0 x1 x2 x3 x4 x5 := by
  unfold convOut
  rw [View.canon_unit_zero hz2]
  simp only [View.ld_unit_zero (S := S2000x128) hz2, View.ld_unit_zero (S := S128x256) hz2, View.ld_unit_zero (S := S2000x1) hz2,
    View.ld_unit_zero (S := S1x256) hz2, View.ld_unit_zero (S := S256x64) hz2]

/-- Region 0's proof data on core `c`: the arrays as the region finds them; after the body each input's buffer still at
    its block and the output's at `convOut` of the six blocks; the scoped buffers and the generator register untouched;
    nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => convOut (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = convOut (iblk0 V c 0 t) (iblk0 V c 1 t) (iblk0 V c 2 t) (iblk0 V c 3 t) (iblk0 V c 4 t) (iblk0 V c 5 t) := by dsimp only [dat0]

/-! # Region 1: the second-layer epilogue summed per graph, then the mean -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The sums and counts after the FIRST point: both buffers zeroed, then the tile's rows and the tile's row counts
    added. (The output block first, the count column second.) -/
def poolFirst (x0 : Vec F S2000x64 .f32) (x1 : Vec F S2000x1 .f32) (x2 : Vec F S1x64 .f32) (x3 : Vec F S2000x1 .i32) :
    Vec F S512x64 .f32 × Vec F S512x1 .f32 :=
  (k1_pay5 x0 x1 x2 x3 (k1_pay2 (F := F)), k1_pay6 x3 (k1_pay3 (F := F)))

/-- After a MIDDLE point: the tile's rows and counts added to what the point before left. -/
def poolMid (x0 : Vec F S2000x64 .f32) (x1 : Vec F S2000x1 .f32) (x2 : Vec F S1x64 .f32) (x3 : Vec F S2000x1 .i32)
    (p : Vec F S512x64 .f32 × Vec F S512x1 .f32) : Vec F S512x64 .f32 × Vec F S512x1 .f32 :=
  (k1_pay5 x0 x1 x2 x3 p.1, k1_pay6 x3 p.2)

/-- After the LAST point: added as at a middle point, then the sums divided by the counts clamped below at one. -/
def poolLast (x0 : Vec F S2000x64 .f32) (x1 : Vec F S2000x1 .f32) (x2 : Vec F S1x64 .f32) (x3 : Vec F S2000x1 .i32)
    (p : Vec F S512x64 .f32 × Vec F S512x1 .f32) : Vec F S512x64 .f32 × Vec F S512x1 .f32 :=
  (k1_pay1 (k1_pay5 x0 x1 x2 x3 p.1) (k1_pay6 x3 p.2), k1_pay6 x3 p.2)

/-- THE RUNNING SUM: what the output block and the count column hold after the body at position `n` of the grid. -/
def poolAcc (c : Dev nD) : (n : ℕ) → n < cfg1.N → Vec F S512x64 .f32 × Vec F S512x1 .f32
  | 0, hn => poolFirst (iblk1 V c 0 ⟨0, hn⟩) (iblk1 V c 1 ⟨0, hn⟩) (iblk1 V c 2 ⟨0, hn⟩) (iblk1 V c 3 ⟨0, hn⟩)
  | n + 1, hn =>
    if n + 1 = 49 then
      poolLast (iblk1 V c 0 ⟨n + 1, hn⟩) (iblk1 V c 1 ⟨n + 1, hn⟩) (iblk1 V c 2 ⟨n + 1, hn⟩) (iblk1 V c 3 ⟨n + 1, hn⟩)
        (poolAcc c n (Nat.lt_of_succ_lt hn))
    else
      poolMid (iblk1 V c 0 ⟨n + 1, hn⟩) (iblk1 V c 1 ⟨n + 1, hn⟩) (iblk1 V c 2 ⟨n + 1, hn⟩) (iblk1 V c 3 ⟨n + 1, hn⟩)
        (poolAcc c n (Nat.lt_of_succ_lt hn))

theorem poolAcc_zero (c : Dev nD) (t : Fin cfg1.N) (h0 : t.val = 0) :
    poolAcc V c t.val t.isLt = poolFirst (iblk1 V c 0 t) (iblk1 V c 1 t) (iblk1 V c 2 t) (iblk1 V c 3 t) := by
  obtain ⟨n, hn⟩ := t
  cases n with
  | zero => rfl
  | succ n => exact absurd h0 (Nat.succ_ne_zero n)

theorem poolAcc_mid (c : Dev nD) (t : Fin cfg1.N) (h0 : t.val ≠ 0) (h1 : t.val ≠ 49) :
    poolAcc V c t.val t.isLt = poolMid (iblk1 V c 0 t) (iblk1 V c 1 t) (iblk1 V c 2 t) (iblk1 V c 3 t)
      (poolAcc V c (t.val - 1) (Nat.lt_of_le_of_lt (Nat.sub_le _ _) t.isLt)) := by
  obtain ⟨n, hn⟩ := t
  cases n with
  | zero => exact absurd rfl h0
  | succ n => exact (if_neg h1).trans rfl

theorem poolAcc_last (c : Dev nD) (t : Fin cfg1.N) (h1 : t.val = 49) :
    poolAcc V c t.val t.isLt = poolLast (iblk1 V c 0 t) (iblk1 V c 1 t) (iblk1 V c 2 t) (iblk1 V c 3 t)
      (poolAcc V c (t.val - 1) (Nat.lt_of_le_of_lt (Nat.sub_le _ _) t.isLt)) := by
  obtain ⟨n, hn⟩ := t
  cases n with
  | zero => exact absurd h1 (show (0 : ℕ) ≠ 49 by decide)
  | succ n => exact (if_pos h1).trans rfl

/-- The count column's scratch buffer, whole. -/
abbrev cntM : Memref sig .tc .vmem S512x1 .f32 := Memref.whole cc1_scratch0

/-- Region 1's invariant before position `n`: before the first point every scoped buffer that is no staging buffer of
    this region at anything; afterwards the count column at what the point before left in it, the other such buffers
    at anything; the generator register at some state throughout. -/
def PhiPool (c : Dev nD) : (n : ℕ) → n ≤ cfg1.N → sProp 𝕄
  | 0, _ => Pipeline.ΦA spec1 c
  | n + 1, hn => iprop((owns (c : Thread nD τ) cntM fullShare (poolAcc V c n hn).2
      ∗ Pipeline.scopedRestBut (Ix := Unit) (Name := ℕ) (U := UR sig nD τ) (Lvl := ℕ) (Val := Elt F) spec1 c [cc1_scratch0])
      ∗ (∃ r, prngReg c r))

/-- Region 1's proof data on core `c`: after the body each input's buffer at its block, the output's at the running
    sums; the invariant carries the running counts. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (poolAcc V c t.val t.isLt).1
  Φ t := PhiPool V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (poolAcc V c t.val t.isLt).1 := by dsimp only [dat1]

/-! # Region 2: the four affine layers of the classifier -/

/-- Window `w`'s block at point `t`, read off its array as region 2 finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the body leaves in the output window's staging buffer: its one store, over the nine loaded blocks. -/
def mlpOut (x0 : Vec F S512x64 .f32) (x1 : Vec F S64x18 .f32) (x2 : Vec F S1x18 .f32) (x3 : Vec F S18x12 .f32) (x4 : Vec F S1x12 .f32)
    (x5 : Vec F S12x6 .f32) (x6 : Vec F S1x6 .f32) (x7 : Vec F S6x2 .f32) (x8 : Vec F S1x2 .f32) : Vec F S512x2 .f32 :=
  View.canon [⟨rc512x2, k2_pay1 (View.ld x0 rc512x64) (View.ld x1 rc64x18) (View.ld x2 rc1x18) (View.ld x3 rc18x12) (View.ld x4 rc1x12) (View.ld x5 rc12x6) (View.ld x6 rc1x6) (View.ld x7 rc6x2) (View.ld x8 rc1x2)⟩]

theorem mlpOut_eq (x0 : Vec F S512x64 .f32) (x1 : Vec F S64x18 .f32) (x2 : Vec F S1x18 .f32) (x3 : Vec F S18x12 .f32) (x4 : Vec F S1x12 .f32)
    (x5 : Vec F S12x6 .f32) (x6 : Vec F S1x6 .f32) (x7 : Vec F S6x2 .f32) (x8 : Vec F S1x2 .f32) :
    mlpOut x0 x1 x2 x3 x4 x5 x6 x7 x8 = k2_pay1 x0 x1 x2 x3 x4 x5 x6 x7 x8 := by
  unfold mlpOut
  rw [View.canon_unit_zero hz2]
  simp only [View.ld_unit_zero (S := S512x64) hz2, View.ld_unit_zero (S := S64x18) hz2, View.ld_unit_zero (S := S1x18) hz2,
    View.ld_unit_zero (S := S18x12) hz2, View.ld_unit_zero (S := S1x12) hz2, View.ld_unit_zero (S := S12x6) hz2,
    View.ld_unit_zero (S := S1x6) hz2, View.ld_unit_zero (S := S6x2) hz2, View.ld_unit_zero (S := S1x2) hz2]

/-- Region 2's proof data on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => mlpOut (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t
    = mlpOut (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

end AtEntry

end Cert.Kernel.Hand

end
-- ==== Proof.KConvBody.lean ====
/-
  Region 0's body at any grid point: from the six input blocks in their staging buffers the kernel function stores the
  projected tile into the output window's buffer and leaves the inputs as they were.
-/
import proofs.«417467_j50448685859136_2_alg».proof.Proof.KRegionData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each input window's staging buffer holds when the body is called

An input window's buffer holds the window's block of the point, whether the pipeline copied it in at that point or
not: where it did not, the window's block index is the one of the point before, whose block the body left in place.
Windows 1, 3 and 5 (the two weight matrices and the bias row) have one block for the whole grid and are copied in at
the first point only; windows 0, 2 and 4 (the feature tile and the two scale columns) move with the point. -/

/-- Input window 0: for any proof data over the region's arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: for any proof data over the region's arrays whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: for any proof data over the region's arrays whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: for any proof data over the region's arrays whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4: for any proof data over the region's arrays whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5: for any proof data over the region's arrays whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body's one store covers the output buffer -/

/-- The store's rectangle is the whole 2000 x 64 buffer: one tile of the buffer's own size. -/
theorem cover0_6 (p0 : Vec F S2000x64 .f32) (y : S2000x64.Idx) :
    ∃ pc ∈ ([⟨rc2000x64, p0⟩] : List (View.Piece (Elt F) S2000x64 .f32)), y ∈ pc.1.set :=
  View.cover_of_tiled [⟨rc2000x64, p0⟩] S2000x64.size (by rfl) y

/-! ## The kernel function on whole staging buffers -/

set_option maxHeartbeats 1000000 in
/-- With the six input buffers at read contents `x0 … x5` and the output buffer at anything, the kernel function
    runs to a state with the inputs as they were and the output at `convOut x0 … x5`: six whole-buffer loads, a
    load of the output buffer whose value is not used, and one whole-buffer store of the payload of the six
    loaded values. The grid coordinate is not read. -/
theorem sound_kernel0 (c : Dev nD) (E : Set ℕ) (i : grid0.Coords)
    (arg1 : Memref sig .tc .vmem S2000x128 .f32) (harg1 : arg1.IsWhole) (arg2 : Memref sig .tc .vmem S128x256 .f32) (harg2 : arg2.IsWhole)
    (arg3 : Memref sig .tc .vmem S2000x1 .f32) (harg3 : arg3.IsWhole) (arg4 : Memref sig .tc .vmem S1x256 .f32) (harg4 : arg4.IsWhole)
    (arg5 : Memref sig .tc .vmem S2000x1 .f32) (harg5 : arg5.IsWhole) (arg6 : Memref sig .tc .vmem S256x64 .f32) (harg6 : arg6.IsWhole)
    (arg7 : Memref sig .tc .vmem S2000x64 .f32) (harg7 : arg7.IsWhole)
    (x0 : Vec F S2000x128 .f32) (x1 : Vec F S128x256 .f32) (x2 : Vec F S2000x1 .f32) (x3 : Vec F S1x256 .f32)
    (x4 : Vec F S2000x1 .f32) (x5 : Vec F S256x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (convOut x0 x1 x2 x3 x4 x5)) -∗ K ⟨⟩))
      ⊢ wp frame (wpE (defs₀ (F := F)) Variants.none c none) E
          (cc0__conv_ab_kernel i arg1 harg1 arg2 harg2 arg3 harg3 arg4 harg4 arg5 harg5 arg6 harg6 arg7 harg7) K := by
  simp only [cc0__conv_ab_kernel_eq_skeleton]; unfold cc0__conv_ab_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The body at a grid point -/

/-- What the pipeline hands the body at point `t`: the invariant, what is owed, and each window's current staging
    buffer at what it holds before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What the body hands back: the same invariant and debts, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: every input buffer holds its block of the point, so the kernel function's triple applies
    at the six blocks; the invariant and what is owed are not touched, and do not depend on the point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KPoolBody.lean ====
/-
  Region 1's body, point by point: the first point zeroes the sums and the counts before adding the tile's share, every
  later point adds to what the point before left (the sums stay in the output window's staging buffer, which is written
  back only after the last point; the counts stay in the scratch column, which the region's invariant carries), and the
  last point divides.
-/
import proofs.«417467_j50448685859136_2_alg».proof.Proof.KRegionData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The class invariant with the count column split off the other scoped buffers. -/
theorem PhiA1_eq (c : Dev nD) :
    (Pipeline.ΦA spec1 c : sProp 𝕄)
      = iprop(((∃ d, owns (c : Thread nD τ) cntM fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA
  rw [Pipeline.scopedRest_split_of_list spec1 c [cc1_scratch0] (by decide) (by decide)]
  simp only [bigSepL_singleton, cntM, owns_whole]
  rfl

/-! ## The two conditions of the body, decided over the grid -/

/-- The first `scf.if`'s condition, from the grid coordinate: "this is point 0". -/
abbrev cond1_0 (i : grid1.Coords) : Prop :=
  (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The second `scf.if`'s condition: "this is point 49". -/
abbrev cond1_1 (i : grid1.Coords) : Prop :=
  (Scalar.cmpi .ne (Scalar.extui (Scalar.cmpi .eq (BitVec.ofNat 32 (i 0).val) 49#32)) 0#32) = 1#1
/-- It holds at the last point only. -/
theorem hcond1_1 : ∀ t : Fin cfg1.N, cond1_1 (grid1.coords t) ↔ t.val = 49 :=
  (by decide +kernel : ∀ t : Fin grid1.N, cond1_1 (grid1.coords t) ↔ t.val = 49)

/-! ## One body run per case -/

/-- A buffer whose LAST store went through the whole-buffer rectangle reads back that store's payload, whatever was
    stored before and whatever the buffer held. -/
theorem read_writes_cons_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

set_option maxHeartbeats 1000000 in
/-- THE FIRST POINT: whatever the sums' and the counts' buffers hold, the body zeroes both, then adds the tile's rows
    and row counts to the zeros; the inputs come back as they were. -/
theorem run1_first (c : Dev nD) (i : grid1.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S512x64 .f32) (harg5 : arg5.IsWhole) (arg6 : Memref sig .tc .vmem S512x1 .f32) (harg6 : arg6.IsWhole)
    (hc0 : cond1_0 i) (hc1 : ¬cond1_1 i) (x0 : Vec F S2000x64 .f32) (x1 : Vec F S2000x1 .f32) (x2 : Vec F S1x64 .f32) (x3 : Vec F S2000x1 .i32)
     (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3
            ∗ owns (c : Thread nD τ) arg5 fullShare (k1_pay5 x0 x1 x2 x3 (k1_pay2 (F := F)))
            ∗ owns (c : Thread nD τ) arg6 fullShare (k1_pay6 x3 (k1_pay3 (F := F)))) -∗ K ⟨⟩))
      ⊢ wp frame (wpE (defs₀ (F := F)) Variants.none c none) E (cc1__conv_cd_pool_kernel i arg1 harg1 arg2 harg2 arg3 harg3 arg4 harg4 arg5 harg5 arg6 harg6) K := by
  simp only [cc1__conv_cd_pool_kernel_eq_skeleton]; unfold cc1__conv_cd_pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg1.eq_unread hf0; obtain rfl := harg2.eq_unread hf1; obtain rfl := harg3.eq_unread hf2
  obtain rfl := harg4.eq_unread hf3
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_run_names
    rw [read_writes_cons_whole _ _ hz2]
    simp only [View.readAt_eq_ld, harg1.read_unread, harg2.read_unread, harg3.read_unread, harg4.read_unread, harg5.read_unread,
      harg6.read_unread, View.ld_unit_zero (S := S2000x64) hz2, View.ld_unit_zero (S := S2000x1) hz2, View.ld_unit_zero (S := S1x64) hz2,
      View.ld_unit_zero (S := S512x64) hz2, View.ld_unit_zero (S := S512x1) hz2, View.readCov_unit_zero (S := S512x64) _ hz2,
      View.readCov_unit_zero (S := S512x1) _ hz2]
  iexists _; isplitr
  swap; · iexact H5
  ipureintro
  sl_unfold_run_names
  rw [read_writes_cons_whole _ _ hz2]
  simp only [View.readAt_eq_ld, harg4.read_unread, harg6.read_unread, View.ld_unit_zero (S := S2000x1) hz2,
    View.ld_unit_zero (S := S512x1) hz2, View.readCov_unit_zero (S := S512x1) _ hz2]

set_option maxHeartbeats 1000000 in
/-- A MIDDLE POINT: the body adds the tile's rows to the sums it finds and the tile's row counts to the counts it
    finds; the inputs come back as they were. -/
theorem run1_mid (c : Dev nD) (i : grid1.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S512x64 .f32) (harg5 : arg5.IsWhole) (arg6 : Memref sig .tc .vmem S512x1 .f32) (harg6 : arg6.IsWhole)
    (hc0 : ¬cond1_0 i) (hc1 : ¬cond1_1 i) (x0 : Vec F S2000x64 .f32) (x1 : Vec F S2000x1 .f32) (x2 : Vec F S1x64 .f32) (x3 : Vec F S2000x1 .i32)
    (xo : Vec F S512x64 .f32) (xc : Vec F S512x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xo ∗ owns (c : Thread nD τ) arg6 fullShare xc
        ∗ (iprop(owns (c : Thread nD τ) arg1 fullShare x0 ∗ owns (c : Thread nD τ) arg2 fullShare x1 ∗ owns (c : Thread nD τ) arg3 fullShare x2
        ∗ owns (c : Thread nD τ) arg4 fullShare x3
            ∗ owns (c : Thread nD τ) arg5 fullShare (k1_pay5 x0 x1 x2 x3 xo)
            ∗ owns (c : Thread nD τ) arg6 fullShare (k1_pay6 x3 xc)) -∗ K ⟨⟩))
      ⊢ wp frame (wpE (defs₀ (F := F)) Variants.none c none) E (cc1__conv_cd_pool_kernel i arg1 harg1 arg2 harg2 arg3 harg3 arg4 harg4 arg5 harg5 arg6 harg6) K := by
  simp only [cc1__conv_cd_pool_kernel_eq_skeleton]; unfold cc1__conv_cd_pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_run_names
    rw [read_writes_cons_whole _ _ hz2]
    simp only [View.readAt_eq_ld, harg1.read_unread, harg2.read_unread, harg3.read_unread, harg4.read_unread, harg5.read_unread,
      harg6.read_unread, View.ld_unit_zero (S := S2000x64) hz2, View.ld_unit_zero (S := S2000x1) hz2, View.ld_unit_zero (S := S1x64) hz2,
      View.ld_unit_zero (S := S512x64) hz2, View.ld_unit_zero (S := S512x1) hz2, View.readCov_unit_zero (S := S512x64) _ hz2,
      View.readCov_unit_zero (S := S512x1) _ hz2]
  iexists _; isplitr
  swap; · iexact H5
  ipureintro
  sl_unfold_run_names
  rw [read_writes_cons_whole _ _ hz2]
  simp only [View.readAt_eq_ld, harg4.read_unread, harg6.read_unread, View.ld_unit_zero (S := S2000x1) hz2,
    View.ld_unit_zero (S := S512x1) hz2, View.readCov_unit_zero (S := S512x1) _ hz2]

set_option maxHeartbeats 1000000 in
/-- THE LAST POINT: the body adds as at a middle point, then divides the updated sums by the updated counts clamped
    below at one; the count column stays at the updated counts. -/
theorem run1_last (c : Dev nD) (i : grid1.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S512x64 .f32) (harg5 : arg5.IsWhole) (arg6 : Memref sig .tc .vmem S512x1 .f32) (harg6 : arg6.IsWhole)
    (hc0 : ¬cond1_0 i) (hc1 : cond1_1 i) (x0 : Vec F S2000x64 .f32) (x1 : Vec F S2000x1 .f32) (x2 : Vec F S1x64 .f32) (x3 : Vec F S2000x1 .i32)
    (xo : Vec F S512x64 .f32) (xc : Vec F S512x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xo ∗ owns (c : Thread nD τ) arg6 fullShare xc
        ∗ (iprop(owns (c : Thread nD τ) arg1 fullShare x0 ∗ owns (c : Thread nD τ) arg2 fullShare x1 ∗ owns (c : Thread nD τ) arg3 fullShare x2
        ∗ owns (c : Thread nD τ) arg4 fullShare x3
            ∗ owns (c : Thread nD τ) arg5 fullShare (k1_pay1 (k1_pay5 x0 x1 x2 x3 xo) (k1_pay6 x3 xc))
            ∗ owns (c : Thread nD τ) arg6 fullShare (k1_pay6 x3 xc)) -∗ K ⟨⟩))
      ⊢ wp frame (wpE (defs₀ (F := F)) Variants.none c none) E (cc1__conv_cd_pool_kernel i arg1 harg1 arg2 harg2 arg3 harg3 arg4 harg4 arg5 harg5 arg6 harg6) K := by
  simp only [cc1__conv_cd_pool_kernel_eq_skeleton]; unfold cc1__conv_cd_pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_run_names
    rw [read_writes_cons_whole _ _ hz2]
    simp only [View.readAt_eq_ld, harg1.read_unread, harg2.read_unread, harg3.read_unread, harg4.read_unread, harg5.read_unread,
      harg6.read_unread, View.ld_unit_zero (S := S2000x64) hz2, View.ld_unit_zero (S := S2000x1) hz2, View.ld_unit_zero (S := S1x64) hz2,
      View.ld_unit_zero (S := S512x64) hz2, View.ld_unit_zero (S := S512x1) hz2, View.readCov_unit_zero (S := S512x64) _ hz2,
      View.readCov_unit_zero (S := S512x1) _ hz2]
  iexists _; isplitr
  swap; · iexact H5
  ipureintro
  sl_unfold_run_names
  rw [read_writes_cons_whole _ _ hz2]
  simp only [View.readAt_eq_ld, harg4.read_unread, harg6.read_unread, View.ld_unit_zero (S := S2000x1) hz2,
    View.ld_unit_zero (S := S512x1) hz2, View.readCov_unit_zero (S := S512x1) _ hz2]

/-! ## What the body finds in each staging buffer -/

/-- Each input's current staging buffer holds its block at every point, fetched there or not: an input the body only
    reads keeps its block, and where the pipeline does not fetch, the block index has not moved. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- After the first point the sums' staging buffer holds what the point before left: the block is written back only
    after the last point, the window is never idle and its block is never cut. -/
theorem before1_4 (c : Dev nD) (t : Fin cfg1.N) (ht : t.val ≠ 0) (d) :
    (dat1 V c).before 4 t d = (poolAcc V c (t.val - 1) (Nat.lt_of_le_of_lt (Nat.sub_le _ _) t.isLt)).1 := by
  have hN : t.val < 50 := lt_of_lt_of_eq t.isLt (show cfg1.N = 50 from N_1)
  rw [Dat.before_out_kept _ 4 rfl t ht
    (Bool.eq_false_iff.mpr fun h => by have := (flush1_4 _).mp h; dsimp only at this; omega) (fun _ => rfl) (fun _ _ => rfl)]
  dsimp only [dat1]

/-! ## The invariant, position by position -/

/-- Before the first point: the class's invariant, the count column at anything. -/
theorem PhiPool_zero (c : Dev nD) (n : ℕ) (h : n ≤ cfg1.N) (hz : n = 0) : PhiPool V c n h = Pipeline.ΦA spec1 c := by
  subst hz; rfl

/-- After point `n`: the count column at that point's counts. -/
theorem PhiPool_succ (c : Dev nD) (n : ℕ) (hn : n < cfg1.N) :
    PhiPool V c (n + 1) hn = iprop((owns (c : Thread nD τ) cntM fullShare (poolAcc V c n hn).2
      ∗ Pipeline.scopedRestBut (Ix := Unit) (Name := ℕ) (U := UR sig nD τ) (Lvl := ℕ) (Val := Elt F) spec1 c [cc1_scratch0])
      ∗ (∃ r, prngReg c r)) := rfl

/-- Before a point that is not the first: the count column at what the point before left. -/
theorem PhiPool_pos (c : Dev nD) (n : ℕ) (h : n ≤ cfg1.N) (hz : n ≠ 0) :
    PhiPool V c n h = iprop((owns (c : Thread nD τ) cntM fullShare (poolAcc V c (n - 1) (by omega)).2
      ∗ Pipeline.scopedRestBut (Ix := Unit) (Name := ℕ) (U := UR sig nD τ) (Lvl := ℕ) (Val := Elt F) spec1 c [cc1_scratch0])
      ∗ (∃ r, prngReg c r)) := by
  cases n with
  | zero => exact absurd rfl hz
  | succ n => rfl

/-- The invariant at a point's start, restated at the point's position. -/
theorem Phi1_castSucc (c : Dev nD) (t : Fin cfg1.N) :
    (dat1 V c).Φ t.castSucc = PhiPool V c t.val (Nat.le_of_lt t.isLt) := by
  dsimp only [dat1]; simp only [Fin.coe_castSucc]

/-! ## The body obligation, at a generic point -/

/-- Each window's current staging memref at point `t`, as the pipeline passes it to the body. -/
abbrev ms1_0 (t : Fin cfg1.N) : Memref sig .tc .vmem S2000x64 .f32 := win1_0.stage (cfg1.slots t 0)
abbrev ms1_1 (t : Fin cfg1.N) : Memref sig .tc .vmem S2000x1 .f32 := win1_1.stage (cfg1.slots t 1)
abbrev ms1_2 (t : Fin cfg1.N) : Memref sig .tc .vmem S1x64 .f32 := win1_2.stage (cfg1.slots t 2)
abbrev ms1_3 (t : Fin cfg1.N) : Memref sig .tc .vmem S2000x1 .i32 := win1_3.stage (cfg1.slots t 3)
abbrev ms1_4 (t : Fin cfg1.N) : Memref sig .tc .vmem S512x64 .f32 := win1_4.stage (cfg1.slots t 4)

/-- What the body is called with at point `t`: the invariant, what the core owes, each window's current buffer at what
    it then holds; -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns: the invariant at the next position, and each buffer at what the body leaves (no window of this
    region is ever idle). -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 4800000 in
/-- The body at any point. The inputs' buffers hold their blocks; the closed forms of the two conditions say which of
    the three cases the point is in. At the first point the invariant hands the body the count column at anything and
    the sums' buffer holds anything: the body zeroes both. At a later point the invariant hands it the counts the point
    before left, and the sums' buffer still holds the sums the point before left. Either way the run of the case applies,
    and the invariant takes the count column back at this point's counts. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiPool V c (t.val + 1) t.isLt from rfl, PhiPool_succ]
  rw [after1_0, after1_1, after1_2, after1_3, after1_4, Phi1_castSucc]
  have hN : t.val < 50 := lt_of_lt_of_eq t.isLt (show cfg1.N = 50 from N_1)
  by_cases h0 : t.val = 0
  · rw [poolAcc_zero V c t h0, PhiPool_zero V c _ _ h0, PhiA1_eq]
    unfold poolFirst; dsimp only
    iintro ⟨⟨⟨HS, HR⟩, Hg⟩, Ho, ⟨%d0, H0⟩, ⟨%d1, H1⟩, ⟨%d2, H2⟩, ⟨%d3, H3⟩, ⟨%d4, H4⟩⟩
    iapply (run1_first c (grid1.coords t) (ms1_0 t) (hstage1_0 ((cfg1.slots t 0).cast nbuf1_0)) (ms1_1 t) (hstage1_1 ((cfg1.slots t 1).cast nbuf1_1)) (ms1_2 t) (hstage1_2 ((cfg1.slots t 2).cast nbuf1_2)) (ms1_3 t) (hstage1_3 ((cfg1.slots t 3).cast nbuf1_3)) (ms1_4 t) (hstage1_4 ((cfg1.slots t 4).cast nbuf1_4)) cntM (Memref.isWhole_whole _)
      ((hcond1_0 t).mpr h0) (fun h => by have := (hcond1_1 t).mp h; omega) (iblk1 V c 0 t) (iblk1 V c 1 t) (iblk1 V c 2 t) (iblk1 V c 3 t) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexact H4
  · simp only [before1_4 V c t h0]
    rw [PhiPool_pos V c _ _ h0]
    by_cases h1 : t.val = 49
    · rw [poolAcc_last V c t h1]
      unfold poolLast; dsimp only
      iintro ⟨⟨⟨HS, HR⟩, Hg⟩, Ho, ⟨%d0, H0⟩, ⟨%d1, H1⟩, ⟨%d2, H2⟩, ⟨%d3, H3⟩, ⟨%d4, H4⟩⟩
      iapply (run1_last c (grid1.coords t) (ms1_0 t) (hstage1_0 ((cfg1.slots t 0).cast nbuf1_0)) (ms1_1 t) (hstage1_1 ((cfg1.slots t 1).cast nbuf1_1)) (ms1_2 t) (hstage1_2 ((cfg1.slots t 2).cast nbuf1_2)) (ms1_3 t) (hstage1_3 ((cfg1.slots t 3).cast nbuf1_3)) (ms1_4 t) (hstage1_4 ((cfg1.slots t 4).cast nbuf1_4)) cntM (Memref.isWhole_whole _)
        (fun h => h0 ((hcond1_0 t).mp h)) ((hcond1_1 t).mpr h1) (iblk1 V c 0 t) (iblk1 V c 1 t) (iblk1 V c 2 t) (iblk1 V c 3 t)
        (poolAcc V c (t.val - 1) (Nat.lt_of_le_of_lt (Nat.sub_le _ _) t.isLt)).1 (poolAcc V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · rw [poolAcc_mid V c t h0 h1]
      unfold poolMid; dsimp only
      iintro ⟨⟨⟨HS, HR⟩, Hg⟩, Ho, ⟨%d0, H0⟩, ⟨%d1, H1⟩, ⟨%d2, H2⟩, ⟨%d3, H3⟩, ⟨%d4, H4⟩⟩
      iapply (run1_mid c (grid1.coords t) (ms1_0 t) (hstage1_0 ((cfg1.slots t 0).cast nbuf1_0)) (ms1_1 t) (hstage1_1 ((cfg1.slots t 1).cast nbuf1_1)) (ms1_2 t) (hstage1_2 ((cfg1.slots t 2).cast nbuf1_2)) (ms1_3 t) (hstage1_3 ((cfg1.slots t 3).cast nbuf1_3)) (ms1_4 t) (hstage1_4 ((cfg1.slots t 4).cast nbuf1_4)) cntM (Memref.isWhole_whole _)
        (fun h => h0 ((hcond1_0 t).mp h)) (fun h => h1 ((hcond1_1 t).mp h)) (iblk1 V c 0 t) (iblk1 V c 1 t) (iblk1 V c 2 t) (iblk1 V c 3 t)
        (poolAcc V c (t.val - 1) (Nat.lt_of_le_of_lt (Nat.sub_le _ _) t.isLt)).1 (poolAcc V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4

/-- The pipeline's body obligation for region 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiPool V c 0 (Nat.zero_le _) from rfl, PhiPool_zero V c 0 _ rfl]

/-- After the last point the invariant gives the class's back: the counts' contents are forgotten. -/
theorem hout1 (c : Dev nD) : (dat1 V c).Φ (Fin.last cfg1.N) ⊢ (Pipeline.ΦA spec1 c : sProp 𝕄) := by
  rw [show (dat1 V c).Φ (Fin.last cfg1.N) = PhiPool V c (Fin.last cfg1.N).val (Nat.le_of_lt_succ (Fin.last cfg1.N).isLt) from rfl,
    PhiPool_pos V c _ _ (by rw [Fin.val_last]; have : cfg1.N = 50 := N_1; omega), PhiA1_eq]
  iintro ⟨⟨HS, HR⟩, Hg⟩
  isplitl [HS HR]
  · isplitl [HS]
    · iexists _; iexact HS
    iexact HR
  iexact Hg

end Cert.Kernel.Hand

end
-- ==== Proof.KMlpBody.lean ====
/-
  Region 2's body at its one grid point: from the pooled rows, the four weight matrices and the four bias rows in their
  staging buffers the kernel function stores the class scores into the output window's buffer.
-/
import proofs.«417467_j50448685859136_2_alg».proof.Proof.KRegionData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each input window's staging buffer holds when the body is called

The grid has one point, at which every input window is copied in; the buffer then holds the window's block of that
point. Stated through the lemma that covers "copied in there or not", which needs nothing about the schedule. -/

/-- Input window 0: for any proof data over the region's arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: for any proof data over the region's arrays whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2: for any proof data over the region's arrays whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3: for any proof data over the region's arrays whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4: for any proof data over the region's arrays whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5: for any proof data over the region's arrays whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6: for any proof data over the region's arrays whose body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7: for any proof data over the region's arrays whose body leaves the block in place. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8: for any proof data over the region's arrays whose body leaves the block in place. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body's one store covers the output buffer -/

/-- The store's rectangle is the whole 512 x 2 buffer: one tile of the buffer's own size. -/
theorem cover2_9 (p0 : Vec F S512x2 .f32) (y : S512x2.Idx) :
    ∃ pc ∈ ([⟨rc512x2, p0⟩] : List (View.Piece (Elt F) S512x2 .f32)), y ∈ pc.1.set :=
  View.cover_of_tiled [⟨rc512x2, p0⟩] S512x2.size (by rfl) y

/-! ## The kernel function on whole staging buffers -/

set_option maxHeartbeats 1000000 in
/-- With the nine input buffers at read contents `x0 … x8` and the output buffer at anything, the kernel function
    runs to a state with the inputs as they were and the output at `mlpOut x0 … x8`: nine whole-buffer loads, a
    load of the output buffer whose value is not used, and one whole-buffer store of the payload of the nine
    loaded values. The grid coordinate is not read. -/
theorem sound_kernel2 (c : Dev nD) (E : Set ℕ) (i : grid2.Coords)
    (arg1 : Memref sig .tc .vmem S512x64 .f32) (harg1 : arg1.IsWhole) (arg2 : Memref sig .tc .vmem S64x18 .f32) (harg2 : arg2.IsWhole) (arg3 : Memref sig .tc .vmem S1x18 .f32) (harg3 : arg3.IsWhole)
    (arg4 : Memref sig .tc .vmem S18x12 .f32) (harg4 : arg4.IsWhole) (arg5 : Memref sig .tc .vmem S1x12 .f32) (harg5 : arg5.IsWhole) (arg6 : Memref sig .tc .vmem S12x6 .f32) (harg6 : arg6.IsWhole)
    (arg7 : Memref sig .tc .vmem S1x6 .f32) (harg7 : arg7.IsWhole) (arg8 : Memref sig .tc .vmem S6x2 .f32) (harg8 : arg8.IsWhole) (arg9 : Memref sig .tc .vmem S1x2 .f32) (harg9 : arg9.IsWhole)
    (arg10 : Memref sig .tc .vmem S512x2 .f32) (harg10 : arg10.IsWhole)
    (x0 : Vec F S512x64 .f32) (x1 : Vec F S64x18 .f32) (x2 : Vec F S1x18 .f32) (x3 : Vec F S18x12 .f32) (x4 : Vec F S1x12 .f32) (x5 : Vec F S12x6 .f32) (x6 : Vec F S1x6 .f32) (x7 : Vec F S6x2 .f32) (x8 : Vec F S1x2 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ (∃ d, owns (c : Thread nD τ) arg10 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare (mlpOut x0 x1 x2 x3 x4 x5 x6 x7 x8)) -∗ K ⟨⟩))
      ⊢ wp frame (wpE (defs₀ (F := F)) Variants.none c none) E
          (cc2__mlp_kernel i arg1 harg1 arg2 harg2 arg3 harg3 arg4 harg4 arg5 harg5 arg6 harg6 arg7 harg7 arg8 harg8 arg9 harg9 arg10 harg10) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-! ## The body at the grid's point -/

/-- What the pipeline hands the body at point `t`: the invariant, what is owed, and each window's current staging
    buffer at what it holds before the body. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- What the body hands back: the same invariant and debts, each buffer at what the body leaves in it. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at the point: every input buffer holds its block, so the kernel function's triple applies at the nine
    blocks; the invariant and what is owed are not touched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation for region 2, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KWhole.lean ====
/-
  The whole program as ten items — five stretches of host operations, region 0, a stretch, region 1, a stretch, region 2 —
  run from the launch to the return. Between two items every unscoped buffer is held at named contents: a host stretch's
  are the fold of its operations over what it found; a region leaves its output array at what its grid points wrote back
  (region 0: fifty row tiles; region 1: the pooled block of its last point; region 2: its one block) and every other buffer
  as it found it. Read at the end: the sixteen argument arrays hold what they held at launch, and the result array holds
  what region 2 left.
-/
import proofs.«417467_j50448685859136_2_alg».proof.Proof.Gen.Kernel.Regions
import proofs.«417467_j50448685859136_2_alg».proof.Proof.KConvBody
import proofs.«417467_j50448685859136_2_alg».proof.Proof.KPoolBody
import proofs.«417467_j50448685859136_2_alg».proof.Proof.KMlpBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- What region 0 is entered from, read at the TensorCore's references. -/
abbrev E0 : (c : Dev nD) → (b : Ref sig .tc) → Buf (Elt F) ((c : Thread nD τ).loc b) := fun c b => V5 m c b
/-- The projected features region 0 leaves in its output array. -/
def arr0 (c : Dev nD) : Buf (Elt F) ((c : Thread nD τ).loc main_v29) := (dat0 (E0 m) c).arrAt 6 cfg0.N
/-- After region 0. -/
def W6 (c : Dev nD) : Valuation τ sig (Elt F) := Function.update (V5 m c) main_v29 (arr0 m c)
/-- After the stretch that carries the projected features to their neighbours. -/
abbrev W7 (c : Dev nD) : Valuation τ sig (Elt F) := StableHlo.after hostOps1 (W6 m c)
abbrev E1 : (c : Dev nD) → (b : Ref sig .tc) → Buf (Elt F) ((c : Thread nD τ).loc b) := fun c b => W7 m c b
/-- The per-graph means region 1 leaves in its output array. -/
def arr1 (c : Dev nD) : Buf (Elt F) ((c : Thread nD τ).loc main_v43) := (dat1 (E1 m) c).arrAt 4 cfg1.N
/-- After region 1. -/
def W8 (c : Dev nD) : Valuation τ sig (Elt F) := Function.update (W7 m c) main_v43 (arr1 m c)
abbrev W9 (c : Dev nD) : Valuation τ sig (Elt F) := StableHlo.after hostOps2 (W8 m c)
abbrev E2 : (c : Dev nD) → (b : Ref sig .tc) → Buf (Elt F) ((c : Thread nD τ).loc b) := fun c b => W9 m c b
/-- The class scores region 2 leaves in its output array. -/
def arr2 (c : Dev nD) : Buf (Elt F) ((c : Thread nD τ).loc main_v48) := (dat2 (E2 m) c).arrAt 9 cfg2.N
/-- After region 2: the contents the launch reads at the end. -/
def W10 (c : Dev nD) : Valuation τ sig (Elt F) := Function.update (W9 m c) main_v48 (arr2 m c)

/-- What the three regions leave, as the generated valuations take it: read off the boundaries above. -/
def outs : Outs (F := F) := fun J r c =>
  match J with
  | 6 => W6 m c r
  | 8 => W8 m c r
  | _ => W10 m c r

theorem outs6 (c : Dev nD) : outs m 6 main_v29 c = arr0 m c := by
  show W6 m c main_v29 = _; unfold W6; exact Function.update_self _ _ _
theorem outs8 (c : Dev nD) : outs m 8 main_v43 c = arr1 m c := by
  show W8 m c main_v43 = _; unfold W8; exact Function.update_self _ _ _
theorem outs10 (c : Dev nD) : outs m 10 main_v48 c = arr2 m c := by
  show W10 m c main_v48 = _; unfold W10; exact Function.update_self _ _ _

/-- The generated valuations at these contents are the boundaries above. -/
theorem V6_eq (c : Dev nD) : V6 m (outs m) c = W6 m c := by
  show Function.update (V5 m c) main_v29 (outs m 6 main_v29 c) = _; rw [outs6]; rfl
theorem V7_eq (c : Dev nD) : V7 m (outs m) c = W7 m c := by
  show StableHlo.after hostOps1 (V6 m (outs m) c) = _; rw [V6_eq]
theorem V8_eq (c : Dev nD) : V8 m (outs m) c = W8 m c := by
  show Function.update (V7 m (outs m) c) main_v43 (outs m 8 main_v43 c) = _; rw [outs8, V7_eq]; rfl
theorem V9_eq (c : Dev nD) : V9 m (outs m) c = W9 m c := by
  show StableHlo.after hostOps2 (V8 m (outs m) c) = _; rw [V8_eq]
theorem V10_eq (c : Dev nD) : V10 m (outs m) c = W10 m c := by
  show Function.update (V9 m (outs m) c) main_v48 (outs m 10 main_v48 c) = _; rw [outs10, V9_eq]; rfl

/-! ## The proof data family and the thread state -/

/-- Every pipeline's proof data, each at its region's entry contents (a literal match, so that the data of pipeline `p` at a
    numeral reduces to the printed configuration's). -/
def pdats : (p : Fin 3) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c

/-- No core owes another anything: no level is assigned. -/
abbrev L0 : GSem nD τ sig → Finset Unit := fun _ => ∅
abbrev lv0 : GSem nD τ sig → Unit → ℕ := fun _ _ => 0
/-- What rides beside the buffers through every item: the core's generator register at some state and its `owes`, at nothing. -/
abbrev Rr (c : Dev nD) : sProp 𝕄 := iprop((∃ r, prngReg c r) ∗ ∃ W, owes (c : Thread nD τ) (0 : CellTallies nD τ sig Unit) W)

/-! ## Each region's exit contents: its arrays at what the pipeline leaves, every other buffer as entered -/

/-- A reference other than `main_v29` holds after the region what it held before. -/
theorem W6_of (c : Dev nD) (r : Ref sig .tc) (h : r ∉ ([main_v29] : List (Ref sig .tc))) : W6 m c r = V5 m c r := by
  unfold W6
  rw [Function.update_of_ne (StableHlo.devRef_ne_of_ne (List.ne_of_not_mem_cons h) : (Proc.devRef .tc r : DevRef τ sig) ≠ Proc.devRef .tc main_v29)]

/-- Every window of region 0 but the last is an input, and its array is not the output's. -/
theorem win0_in : ∀ w : Fin 7, w ≠ 6 → (cfg0.win w).isOut = false ∧ Pipeline.arrRef spec0 w ∉ ([main_v29] : List (Ref sig .tc)) := by decide
theorem hF0_in (c : Dev nD) (w : Fin cfg0.W) (hw : (cfg0.win w).isOut = false) (hne : Pipeline.arrRef spec0 w ∉ ([main_v29] : List (Ref sig .tc))) :
    (dat0 (E0 m) c).arrAt w cfg0.N = W6 m c (Pipeline.arrRef spec0 w) :=
  ((dat0 (E0 m) c).arrAt_in w hw _).trans ((A_eq0 (E0 m) c w).trans (W6_of m c _ hne).symm)
theorem hF0 (c : Dev nD) (w : Fin cfg0.W) : (pdats m 0 c).arrAt w cfg0.N = W6 m c (Pipeline.arrRef spec0 w) := by
  show (dat0 (E0 m) c).arrAt w cfg0.N = _
  by_cases h : w = (6 : Fin 7)
  · subst h
    show arr0 m c = W6 m c main_v29
    exact (outs6 m c).symm
  · exact hF0_in m c w (win0_in w h).1 (win0_in w h).2
theorem hrest0 (c : Dev nD) : ∀ b : Ref sig .tc, b ∉ Finset.univ.image (Pipeline.arrRef spec0) → W6 m c b = E0 m c b :=
  fun b hb => W6_of m c b (fun hm => by
    have e : Pipeline.arrRef spec0 (6 : Fin 7) = b := (show Pipeline.arrRef spec0 (6 : Fin 7) = main_v29 from rfl).trans (List.mem_singleton.mp hm).symm
    exact hb (Finset.mem_image.mpr ⟨_, Finset.mem_univ _, e⟩))

/-- A reference other than `main_v43` holds after the region what it held before. -/
theorem W8_of (c : Dev nD) (r : Ref sig .tc) (h : r ∉ ([main_v43] : List (Ref sig .tc))) : W8 m c r = W7 m c r := by
  unfold W8
  rw [Function.update_of_ne (StableHlo.devRef_ne_of_ne (List.ne_of_not_mem_cons h) : (Proc.devRef .tc r : DevRef τ sig) ≠ Proc.devRef .tc main_v43)]

/-- Every window of region 1 but the last is an input, and its array is not the output's. -/
theorem win1_in : ∀ w : Fin 5, w ≠ 4 → (cfg1.win w).isOut = false ∧ Pipeline.arrRef spec1 w ∉ ([main_v43] : List (Ref sig .tc)) := by decide
theorem hF1_in (c : Dev nD) (w : Fin cfg1.W) (hw : (cfg1.win w).isOut = false) (hne : Pipeline.arrRef spec1 w ∉ ([main_v43] : List (Ref sig .tc))) :
    (dat1 (E1 m) c).arrAt w cfg1.N = W8 m c (Pipeline.arrRef spec1 w) :=
  ((dat1 (E1 m) c).arrAt_in w hw _).trans ((A_eq1 (E1 m) c w).trans (W8_of m c _ hne).symm)
theorem hF1 (c : Dev nD) (w : Fin cfg1.W) : (pdats m 1 c).arrAt w cfg1.N = W8 m c (Pipeline.arrRef spec1 w) := by
  show (dat1 (E1 m) c).arrAt w cfg1.N = _
  by_cases h : w = (4 : Fin 5)
  · subst h
    show arr1 m c = W8 m c main_v43
    exact (outs8 m c).symm
  · exact hF1_in m c w (win1_in w h).1 (win1_in w h).2
theorem hrest1 (c : Dev nD) : ∀ b : Ref sig .tc, b ∉ Finset.univ.image (Pipeline.arrRef spec1) → W8 m c b = E1 m c b :=
  fun b hb => W8_of m c b (fun hm => by
    have e : Pipeline.arrRef spec1 (4 : Fin 5) = b := (show Pipeline.arrRef spec1 (4 : Fin 5) = main_v43 from rfl).trans (List.mem_singleton.mp hm).symm
    exact hb (Finset.mem_image.mpr ⟨_, Finset.mem_univ _, e⟩))

/-- A reference other than `main_v48` holds after the region what it held before. -/
theorem W10_of (c : Dev nD) (r : Ref sig .tc) (h : r ∉ ([main_v48] : List (Ref sig .tc))) : W10 m c r = W9 m c r := by
  unfold W10
  rw [Function.update_of_ne (StableHlo.devRef_ne_of_ne (List.ne_of_not_mem_cons h) : (Proc.devRef .tc r : DevRef τ sig) ≠ Proc.devRef .tc main_v48)]

/-- Every window of region 2 but the last is an input, and its array is not the output's. -/
theorem win2_in : ∀ w : Fin 10, w ≠ 9 → (cfg2.win w).isOut = false ∧ Pipeline.arrRef spec2 w ∉ ([main_v48] : List (Ref sig .tc)) := by decide
theorem hF2_in (c : Dev nD) (w : Fin cfg2.W) (hw : (cfg2.win w).isOut = false) (hne : Pipeline.arrRef spec2 w ∉ ([main_v48] : List (Ref sig .tc))) :
    (dat2 (E2 m) c).arrAt w cfg2.N = W10 m c (Pipeline.arrRef spec2 w) :=
  ((dat2 (E2 m) c).arrAt_in w hw _).trans ((A_eq2 (E2 m) c w).trans (W10_of m c _ hne).symm)
theorem hF2 (c : Dev nD) (w : Fin cfg2.W) : (pdats m 2 c).arrAt w cfg2.N = W10 m c (Pipeline.arrRef spec2 w) := by
  show (dat2 (E2 m) c).arrAt w cfg2.N = _
  by_cases h : w = (9 : Fin 10)
  · subst h
    show arr2 m c = W10 m c main_v48
    exact (outs10 m c).symm
  · exact hF2_in m c w (win2_in w h).1 (win2_in w h).2
theorem hrest2 (c : Dev nD) : ∀ b : Ref sig .tc, b ∉ Finset.univ.image (Pipeline.arrRef spec2) → W10 m c b = E2 m c b :=
  fun b hb => W10_of m c b (fun hm => by
    have e : Pipeline.arrRef spec2 (9 : Fin 10) = b := (show Pipeline.arrRef spec2 (9 : Fin 10) = main_v48 from rfl).trans (List.mem_singleton.mp hm).symm
    exact hb (Finset.mem_image.mpr ⟨_, Finset.mem_univ _, e⟩))

/-! ## The regions as segments -/

set_option backward.isDefEq.respectTransparency.types false in
/-- REGION 0 over the thread state: entered with every unscoped buffer at the contents before it, left with the region's
    output array at what its write-backs leave and every other buffer as entered. Its arrays are split out of the unscoped
    buffers and put back; the generator register goes into the region's invariant and comes out; nothing is owed. -/
def reg0 : RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L0 lv0 0 fun _ _ => rfl
  pre c := iprop(StableHlo.held (c : Thread nD τ) (Pipeline.ucRefs τ sig) (V5 m c) ∗ Rr c)
  post c := iprop(StableHlo.held (c : Thread nD τ) (Pipeline.ucRefs τ sig) (W6 m c) ∗ Rr c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => W6 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered with every unscoped buffer at the contents before it, left with the region's
    output array at what its write-backs leave and every other buffer as entered. Its arrays are split out of the unscoped
    buffers and put back; the generator register goes into the region's invariant and comes out; nothing is owed. -/
def reg1 : RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L0 lv0 1 fun _ _ => rfl
  pre c := iprop(StableHlo.held (c : Thread nD τ) (Pipeline.ucRefs τ sig) (W7 m c) ∗ Rr c)
  post c := iprop(StableHlo.held (c : Thread nD τ) (Pipeline.ucRefs τ sig) (W8 m c) ∗ Rr c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (E1 m) c
    unfold Pipeline.ΦA at h
    rw [show (pdats m 1 c).Φ 0 = (dat1 (E1 m) c).Φ 0 from rfl]
    iintro ⟨Hp, -, Hr⟩
    iapply h
    isplitl [Hr]; · iexact Hr
    iexact Hp
  hout c := by
    rw [Pipeline.ownSems0_none]
    have h := hout1 (E1 m) c
    unfold Pipeline.ΦA at h
    rw [show (pdats m 1 c).Φ (Fin.last _) = (dat1 (E1 m) c).Φ (Fin.last cfg1.N) from rfl]
    iintro Hf
    ihave H := h $$ Hf
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => W8 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered with every unscoped buffer at the contents before it, left with the region's
    output array at what its write-backs leave and every other buffer as entered. Its arrays are split out of the unscoped
    buffers and put back; the generator register goes into the region's invariant and comes out; nothing is owed. -/
def reg2 : RegionSeg (pcfgs (F := F)) adm (pdats m) () defs₀ Variants.none L0 lv0 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L0 lv0 2 fun _ _ => rfl
  pre c := iprop(StableHlo.held (c : Thread nD τ) (Pipeline.ucRefs τ sig) (W9 m c) ∗ Rr c)
  post c := iprop(StableHlo.held (c : Thread nD τ) (Pipeline.ucRefs τ sig) (W10 m c) ∗ Rr c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (fun b => W10 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

section Launch
variable {F : FTy → Type} [FloatOps F]
variable (m : (ℓ : Loc nD τ sig) → Buf (Elt F) ℓ)

set_option backward.isDefEq.respectTransparency.types false in
/-- THE RUN, GIVEN THE REGIONS' RECORDS: as the frame of the ten items, with the result array read too — at the end it holds
    what the last region left in it (`outs 10 main_v48`), and every argument array what it held at launch. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V9 m outs c) ∗ E 2 c) ⊢ R2.pre c)
    (hpost2 : ∀ c : Dev nD, R2.post c ⊢ iprop(StableHlo.held (c : Thread nD τ) (Pipeline.ucRefs τ sig) (V10 m outs c) ∗ E 3 c)) :
    θ_run defs (onTc (τ := τ) (main (F := F))) ⟨m, fun _ => 0, ρ⟩ (fun r => ∀ c : Dev nD,
      r.2.mem ((c.tc : Thread nD τ).loc main_v48) = outs 10 main_v48 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m outs c))
    (hch := fun c => ⟨.rfl, .rfl, .rfl, .rfl, .rfl, hpre0 c, hpost0 c, hpre1 c, hpost1 c, hpre2 c, (hpost2 c).trans (sep_mono .rfl (hE3 c))⟩)
    (hinit := ?_) (QY := fun c s => s.mem ((c.tc : Thread nD τ).loc main_v48) = outs 10 main_v48 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V10 m outs c) s') $$ [Hh HSI]
    · isplitl [Hh] <;> iassumption
    icases Hr with ⟨%h, HSI⟩
    imodintro
    isplitr
    · ipureintro
      exact ⟨(h (Proc.devRef .tc main_v48) (Finset.mem_filter.mpr ⟨StableHlo.devRef_mem_tcRefs main_v48, by decide⟩)).trans (by unfold V10; exact Function.update_self _ _ _),
        (h (Proc.devRef .tc main_arg0) (Finset.mem_filter.mpr ⟨StableHlo.devRef_mem_tcRefs main_arg0, by decide⟩)).trans (V10_main_arg0 m outs c),
        (h (Proc.devRef .tc main_arg1) (Finset.mem_filter.mpr ⟨StableHlo.devRef_mem_tcRefs main_arg1, by decide⟩)).trans (V10_main_arg1 m outs c),
        (h (Proc.devRef .tc main_arg2) (Finset.mem_filter.mpr ⟨StableHlo.devRef_mem_tcRefs main_arg2, by decide⟩)).trans (V10_main_arg2 m outs c),
        (h (Proc.devRef .tc main_arg3) (Finset.mem_filter.mpr ⟨StableHlo.devRef_mem_tcRefs main_arg3, by decide⟩)).trans (V10_main_arg3 m outs c),
        (h (Proc.devRef .tc main_arg4) (Finset.mem_filter.mpr ⟨StableHlo.devRef_mem_tcRefs main_arg4, by decide⟩)).trans (V10_main_arg4 m outs c),
        (h (Proc.devRef .tc main_arg5) (Finset.mem_filter.mpr ⟨StableHlo.devRef_mem_tcRefs main_arg5, by decide⟩)).trans (V10_main_arg5 m outs c),
        (h (Proc.devRef .tc main_arg6) (Finset.mem_filter.mpr ⟨StableHlo.devRef_mem_tcRefs main_arg6, by decide⟩)).trans (V10_main_arg6 m outs c),
        (h (Proc.devRef .tc main_arg7) (Finset.mem_filter.mpr ⟨StableHlo.devRef_mem_tcRefs main_arg7, by decide⟩)).trans (V10_main_arg7 m outs c),
        (h (Proc.devRef .tc main_arg8) (Finset.mem_filter.mpr ⟨StableHlo.devRef_mem_tcRefs main_arg8, by decide⟩)).trans (V10_main_arg8 m outs c),
        (h (Proc.devRef .tc main_arg9) (Finset.mem_filter.mpr ⟨StableHlo.devRef_mem_tcRefs main_arg9, by decide⟩)).trans (V10_main_arg9 m outs c),
        (h (Proc.devRef .tc main_arg10) (Finset.mem_filter.mpr ⟨StableHlo.devRef_mem_tcRefs main_arg10, by decide⟩)).trans (V10_main_arg10 m outs c),
        (h (Proc.devRef .tc main_arg11) (Finset.mem_filter.mpr ⟨StableHlo.devRef_mem_tcRefs main_arg11, by decide⟩)).trans (V10_main_arg11 m outs c),
        (h (Proc.devRef .tc main_arg12) (Finset.mem_filter.mpr ⟨StableHlo.devRef_mem_tcRefs main_arg12, by decide⟩)).trans (V10_main_arg12 m outs c),
        (h (Proc.devRef .tc main_arg13) (Finset.mem_filter.mpr ⟨StableHlo.devRef_mem_tcRefs main_arg13, by decide⟩)).trans (V10_main_arg13 m outs c),
        (h (Proc.devRef .tc main_arg14) (Finset.mem_filter.mpr ⟨StableHlo.devRef_mem_tcRefs main_arg14, by decide⟩)).trans (V10_main_arg14 m outs c),
        (h (Proc.devRef .tc main_arg15) (Finset.mem_filter.mpr ⟨StableHlo.devRef_mem_tcRefs main_arg15, by decide⟩)).trans (V10_main_arg15 m outs c)⟩
    · iexact HSI

end Launch

/-- What the launch deals a core beside its buffers makes the rest state that rides through every item. -/
theorem launch_rest_core (c : Dev nD) : (iprop(unscopedSems0 c ∗ owes (c : Thread nD τ) ((0 : Dev nD → CellTallies nD τ sig Unit) c) ∅
      ∗ Pipeline.launchCred (0 : Dev nD → CellTallies nD τ sig Unit) c ∗ prngReg c (ρ c) ∗ iprop(emp)) : sProp 𝕄) ⊢ Rr c := by
  iintro ⟨-, HO, -, Hp, -⟩
  isplitl [Hp]; · iexists _; iexact Hp
  iexists ∅; iexact HO

theorem launch_rest : (bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ iprop(emp)))
    ⊢ (bigSep Finset.univ (fun c : Dev nD => Rr c) : sProp 𝕄) :=
  bigSep_mono fun c _ => launch_rest_core (F := F) ρ c

set_option backward.isDefEq.respectTransparency.types false in
/-- THE RUN of the whole program, at any float instance: from any memory with zero counters every weakly fair execution of
    @main terminates, nothing faulting; the result array ends at what region 2 leaves and every argument array as launched. -/
theorem run_all : θ_run defs (onTc (τ := τ) (main (F := F))) ⟨m, fun _ => 0, ρ⟩ (fun r => ∀ c : Dev nD,
      r.2.mem ((c.tc : Thread nD τ).loc main_v48) = arr2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨((h c).1).trans (outs10 m c), (h c).2⟩)
    (run_cond m emb₁ () Variants.none L0 lv0 (fun _ _ => rfl) ρ (outs m) (pdats m) (O₀ := 0) (G := fun _ => iprop(emp))
      (u₀ := initOf (Pipeline.cells cfgs cellOf_inj) (Pipeline.launchToks cfgs cellOf_inj))
      (hu₀ := by
        iintro Hu; imodintro
        isplitl [Hu]
        · iapply (show (ownU (initOf (Pipeline.cells cfgs cellOf_inj) (Pipeline.launchToks cfgs cellOf_inj)) : sProp 𝕄)
              ⊢ BI.own (emb₁ (initOf (Pipeline.cells cfgs cellOf_inj) (Pipeline.launchToks cfgs cellOf_inj))) from .rfl)
          iexact Hu
        iapply (show (BI.emp : sProp 𝕄) ⊢ bigSep Finset.univ (fun _ : Dev nD => (BI.emp : sProp 𝕄)) from by rw [BI.bigSep_emp_const])
        iempintro)
      (E := fun _ c => Rr c)
      (hE0 := by
        iintro ⟨H, -⟩
        imodintro
        iapply (launch_rest (F := F) ρ)
        iexact H)
      (hE3 := fun c => by iintro ⟨-, H⟩; iexact H)
      (R0 := reg0 m) (hpre0 := fun c => .rfl) (hpost0 := fun c => by rw [V6_eq]; exact .rfl)
      (R1 := reg1 m) (hpre1 := fun c => by rw [V7_eq]; exact .rfl) (hpost1 := fun c => by rw [V8_eq]; exact .rfl)
      (R2 := reg2 m) (hpre2 := fun c => by rw [V9_eq]; exact .rfl) (hpost2 := fun c => by rw [V10_eq]; exact .rfl))

/-- THE FRAME: the same run with the result forgotten. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => (h c).2) (run_all m ρ)

end Cert.Kernel.Hand

end
-- ==== Proof.Spec.lean ====
/-
  The mathematics of the network, index by index, over the extended reals. No program is imported here: both the kernel's
  three regions and the reference's host operations are shown to compute these functions.

  * `convAt`  : row n, feature d of  relu((g1 W1) * s_in + b1) * s_out W2  — a sum over the 256 hidden features of a sum over
                 the 128 input features.
  * `poolAt`  : graph g, feature d of the per-graph mean of  relu(g2 * s_in + b2):  the rows whose graph-id WORD is the
                 number g are summed, and divided by the number of such rows clamped below at one. A row whose word is no
                 number below 512 (a negative word, a large one) belongs to no graph.
  * `affAt`   : one affine layer; `mlpSpec` four of them.
  The kernel hands its regions the per-row scales as COLUMNS (n x 1), the biases as ROWS (1 x m) and the graph ids as a column;
  the `…Cols` forms are stated over those layouts, and agree with the vector forms when column and vector agree entrywise.
-/
import Idealize.ShloMosaic.PureOps.Ideal
import Idealize.ShloMosaic.Lib.ValueIdx

noncomputable section

open scoped BigOperators

namespace GcnSpec

open Idealize.ShloMosaic Idealize.ShloMosaic.ValueIdx

/-- Extended-real arrays of rank one and two over literal extents. -/
abbrev Arr1 (n : Nat) : Type := (⟨1, ![n]⟩ : Shape).Idx → EReal
abbrev Arr2 (a b : Nat) : Type := (⟨2, ![a, b]⟩ : Shape).Idx → EReal
/-- Word arrays (32-bit integers) of rank one and two. -/
abbrev Wrd1 (n : Nat) : Type := (⟨1, ![n]⟩ : Shape).Idx → BitVec 32
abbrev Wrd2 (a b : Nat) : Type := (⟨2, ![a, b]⟩ : Shape).Idx → BitVec 32

/-- The two float literals the programs spell: zero and one, kept as their words. -/
abbrev zeroW : EReal := Ideal.ofBits .f32 0x00000000#32
abbrev oneW : EReal := Ideal.ofBits .f32 0x3F800000#32

/-- A rank-2 index's coordinates as numbers below the literal extents. -/
abbrev c0 {a b : Nat} (i : (⟨2, ![a, b]⟩ : Shape).Idx) : Fin a := ⟨(i 0).val, (i 0).isLt⟩
abbrev c1 {a b : Nat} (i : (⟨2, ![a, b]⟩ : Shape).Idx) : Fin b := ⟨(i 1).val, (i 1).isLt⟩

/-! ## The first region: layer-one epilogue and layer-two projection -/

/-- Hidden feature k of row n after layer one: relu((g1 W1)[n,k] * s_in[n] + b1[k]). -/
def hid1At (g1 : Arr2 100000 128) (W1 : Arr2 128 256) (sIn : Arr1 100000) (b1 : Arr1 256) (n : Fin 100000) (k : Fin 256) : EReal :=
  max ((∑ j : Fin 128, g1 (ix2 n j) * W1 (ix2 j k)) * sIn (ix1 n) + b1 (ix1 k)) zeroW

def convAt (g1 : Arr2 100000 128) (W1 : Arr2 128 256) (sIn : Arr1 100000) (b1 : Arr1 256) (sOut : Arr1 100000) (W2 : Arr2 256 64)
    (n : Fin 100000) (d : Fin 64) : EReal :=
  ∑ k : Fin 256, (hid1At g1 W1 sIn b1 n k * sOut (ix1 n)) * W2 (ix2 k d)

def convSpec (g1 : Arr2 100000 128) (W1 : Arr2 128 256) (sIn : Arr1 100000) (b1 : Arr1 256) (sOut : Arr1 100000) (W2 : Arr2 256 64) :
    Arr2 100000 64 := fun i => convAt g1 W1 sIn b1 sOut W2 (c0 i) (c1 i)

/-- The same over the kernel's operand layouts: the scales as columns, the bias as a row. -/
def convColsAt (g1 : Arr2 100000 128) (W1 : Arr2 128 256) (sInC : Arr2 100000 1) (b1R : Arr2 1 256) (sOutC : Arr2 100000 1) (W2 : Arr2 256 64)
    (n : Fin 100000) (d : Fin 64) : EReal :=
  ∑ k : Fin 256, (max ((∑ j : Fin 128, g1 (ix2 n j) * W1 (ix2 j k)) * sInC (ix2 n 0) + b1R (ix2 0 k)) zeroW * sOutC (ix2 n 0)) * W2 (ix2 k d)

def convColsSpec (g1 : Arr2 100000 128) (W1 : Arr2 128 256) (sInC : Arr2 100000 1) (b1R : Arr2 1 256) (sOutC : Arr2 100000 1) (W2 : Arr2 256 64) :
    Arr2 100000 64 := fun i => convColsAt g1 W1 sInC b1R sOutC W2 (c0 i) (c1 i)

theorem convColsSpec_eq (g1 : Arr2 100000 128) (W1 : Arr2 128 256) (sInC : Arr2 100000 1) (b1R : Arr2 1 256) (sOutC : Arr2 100000 1) (W2 : Arr2 256 64)
    (sIn : Arr1 100000) (b1 : Arr1 256) (sOut : Arr1 100000)
    (hI : ∀ n : Fin 100000, sInC (ix2 n 0) = sIn (ix1 n)) (hB : ∀ k : Fin 256, b1R (ix2 0 k) = b1 (ix1 k))
    (hO : ∀ n : Fin 100000, sOutC (ix2 n 0) = sOut (ix1 n)) :
    convColsSpec g1 W1 sInC b1R sOutC W2 = convSpec g1 W1 sIn b1 sOut W2 := by
  funext i
  simp only [convColsSpec, convSpec, convColsAt, convAt, hid1At, hI, hB, hO]

/-! ## The second region: layer-two epilogue, summed per graph, and the mean -/

/-- Feature d of row n after layer two: relu(g2[n,d] * s_in[n] + b2[d]). -/
def hid2At (g2 : Arr2 100000 64) (sIn : Arr1 100000) (b2 : Arr1 64) (n : Fin 100000) (d : Fin 64) : EReal :=
  max (g2 (ix2 n d) * sIn (ix1 n) + b2 (ix1 d)) zeroW

/-- Row n belongs to graph g: its graph-id word is the number g. -/
abbrev inGraph (w : BitVec 32) (g : Fin 512) : Prop := w = BitVec.ofNat 32 g.val

def poolAt (g2 : Arr2 100000 64) (sIn : Arr1 100000) (b2 : Arr1 64) (gid : Wrd1 100000) (g : Fin 512) (d : Fin 64) : EReal :=
  Ideal.div (∑ n : Fin 100000, if inGraph (gid (ix1 n)) g then hid2At g2 sIn b2 n d else 0)
    (max (∑ n : Fin 100000, if inGraph (gid (ix1 n)) g then oneW else 0) oneW)

def poolSpec (g2 : Arr2 100000 64) (sIn : Arr1 100000) (b2 : Arr1 64) (gid : Wrd1 100000) : Arr2 512 64 :=
  fun i => poolAt g2 sIn b2 gid (c0 i) (c1 i)

/-- The same over the kernel's operand layouts. -/
def poolColsAt (g2 : Arr2 100000 64) (sInC : Arr2 100000 1) (b2R : Arr2 1 64) (gidC : Wrd2 100000 1) (g : Fin 512) (d : Fin 64) : EReal :=
  Ideal.div (∑ n : Fin 100000, if inGraph (gidC (ix2 n 0)) g then max (g2 (ix2 n d) * sInC (ix2 n 0) + b2R (ix2 0 d)) zeroW else 0)
    (max (∑ n : Fin 100000, if inGraph (gidC (ix2 n 0)) g then oneW else 0) oneW)

def poolColsSpec (g2 : Arr2 100000 64) (sInC : Arr2 100000 1) (b2R : Arr2 1 64) (gidC : Wrd2 100000 1) : Arr2 512 64 :=
  fun i => poolColsAt g2 sInC b2R gidC (c0 i) (c1 i)

theorem poolColsSpec_eq (g2 : Arr2 100000 64) (sInC : Arr2 100000 1) (b2R : Arr2 1 64) (gidC : Wrd2 100000 1)
    (sIn : Arr1 100000) (b2 : Arr1 64) (gid : Wrd1 100000)
    (hI : ∀ n : Fin 100000, sInC (ix2 n 0) = sIn (ix1 n)) (hB : ∀ d : Fin 64, b2R (ix2 0 d) = b2 (ix1 d))
    (hG : ∀ n : Fin 100000, gidC (ix2 n 0) = gid (ix1 n)) :
    poolColsSpec g2 sInC b2R gidC = poolSpec g2 sIn b2 gid := by
  funext i
  simp only [poolColsSpec, poolSpec, poolColsAt, poolAt, hid2At, hI, hB, hG]

/-! ## The third region: four affine layers -/

def affAt {K M : Nat} (x : Arr2 512 K) (W : Arr2 K M) (b : Arr1 M) (r : Fin 512) (m : Fin M) : EReal :=
  (∑ k : Fin K, x (ix2 r k) * W (ix2 k m)) + b (ix1 m)

def aff {K M : Nat} (x : Arr2 512 K) (W : Arr2 K M) (b : Arr1 M) : Arr2 512 M := fun i => affAt x W b (c0 i) (c1 i)

def mlpSpec (hg : Arr2 512 64) (Wc1 : Arr2 64 18) (bc1 : Arr1 18) (Wc2 : Arr2 18 12) (bc2 : Arr1 12) (Wc3 : Arr2 12 6) (bc3 : Arr1 6)
    (Wc4 : Arr2 6 2) (bc4 : Arr1 2) : Arr2 512 2 :=
  aff (aff (aff (aff hg Wc1 bc1) Wc2 bc2) Wc3 bc3) Wc4 bc4

/-- One layer with the bias as a row. -/
def affRowAt {K M : Nat} (x : Arr2 512 K) (W : Arr2 K M) (bR : Arr2 1 M) (r : Fin 512) (m : Fin M) : EReal :=
  (∑ k : Fin K, x (ix2 r k) * W (ix2 k m)) + bR (ix2 0 m)

def affRow {K M : Nat} (x : Arr2 512 K) (W : Arr2 K M) (bR : Arr2 1 M) : Arr2 512 M := fun i => affRowAt x W bR (c0 i) (c1 i)

def mlpRowsSpec (hg : Arr2 512 64) (Wc1 : Arr2 64 18) (b1R : Arr2 1 18) (Wc2 : Arr2 18 12) (b2R : Arr2 1 12) (Wc3 : Arr2 12 6) (b3R : Arr2 1 6)
    (Wc4 : Arr2 6 2) (b4R : Arr2 1 2) : Arr2 512 2 :=
  affRow (affRow (affRow (affRow hg Wc1 b1R) Wc2 b2R) Wc3 b3R) Wc4 b4R

theorem affRow_eq {K M : Nat} (x : Arr2 512 K) (W : Arr2 K M) (bR : Arr2 1 M) (b : Arr1 M) (h : ∀ m : Fin M, bR (ix2 0 m) = b (ix1 m)) :
    affRow x W bR = aff x W b := by
  funext i; simp only [affRow, aff, affRowAt, affAt, h]

theorem mlpRowsSpec_eq (hg : Arr2 512 64) (Wc1 : Arr2 64 18) (b1R : Arr2 1 18) (Wc2 : Arr2 18 12) (b2R : Arr2 1 12) (Wc3 : Arr2 12 6) (b3R : Arr2 1 6)
    (Wc4 : Arr2 6 2) (b4R : Arr2 1 2) (bc1 : Arr1 18) (bc2 : Arr1 12) (bc3 : Arr1 6) (bc4 : Arr1 2)
    (h1 : ∀ m : Fin 18, b1R (ix2 0 m) = bc1 (ix1 m)) (h2 : ∀ m : Fin 12, b2R (ix2 0 m) = bc2 (ix1 m))
    (h3 : ∀ m : Fin 6, b3R (ix2 0 m) = bc3 (ix1 m)) (h4 : ∀ m : Fin 2, b4R (ix2 0 m) = bc4 (ix1 m)) :
    mlpRowsSpec hg Wc1 b1R Wc2 b2R Wc3 b3R Wc4 b4R = mlpSpec hg Wc1 bc1 Wc2 bc2 Wc3 bc3 Wc4 bc4 := by
  unfold mlpRowsSpec mlpSpec
  rw [affRow_eq _ _ _ _ h1, affRow_eq _ _ _ _ h2, affRow_eq _ _ _ _ h3, affRow_eq _ _ _ _ h4]

end GcnSpec

end
-- ==== Proof.ConvValue.lean ====
/-
  What region 0 leaves in its output array, read over the extended reals: the 50 row tiles the grid points write back
  tile the 100000 rows, and the tile of point t holds, at row r and feature d, the layer-one epilogue of node 2000 t + r
  projected by W2 — a function of that node's row of g1, its two scales, and the weights.
-/
import proofs.«417467_j50448685859136_2_alg».proof.Proof.RegionData
import proofs.«417467_j50448685859136_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ## The two block products at an index

Each of the two products contracts one axis: the left operand's columns against the right operand's rows. At output
index (r, k) the left operand is read along row r and the right along column k. -/

/-- The first product, (2000 x 128)(128 x 256): the left operand's row coordinate is the output's. -/
theorem lhs_g1W1_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- Its column coordinate is the contraction index. -/
theorem lhs_g1W1_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
/-- The right operand's row coordinate is the contraction index. -/
theorem rhs_g1W1_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
/-- Its column coordinate is the output's. -/
theorem rhs_g1W1_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- THE FIRST PRODUCT at (r, k): the sum over the 128 input features of row r of the left operand against column k of
    the right one. -/
theorem g1W1_apply (a : FVec Ideal S2000x128 .f32) (b : FVec Ideal S128x256 .f32) (r : Fin 2000) (k : Fin 256) :
    matmul dot_S2000x128_S128x256_S2000x256_1_0_0_1_n_n none a b (constant (F := Ideal) S2000x256 .f32 0x00000000#32) (ix2 r k)
      = ∑ j : Fin 128, a (ix2 r j) * b (ix2 j k) := by
  simp only [matmul]
  rw [Ideal.matmul_constant_zero_apply, ← Equiv.sum_comp (ValueIdx.contrEquiv1 dot_S2000x128_S128x256_S2000x256_1_0_0_1_n_n 128 rfl rfl).symm]
  refine Finset.sum_congr rfl fun j _ => ?_
  have hk := ValueIdx.contrEquiv1_symm_val dot_S2000x128_S128x256_S2000x256_1_0_0_1_n_n 128 rfl rfl j
  have el : dot_S2000x128_S128x256_S2000x256_1_0_0_1_n_n.lhsIdx (ix2 r k) ((ValueIdx.contrEquiv1 dot_S2000x128_S128x256_S2000x256_1_0_0_1_n_n 128 rfl rfl).symm j) = ix2 r j := funext fun ax => Fin.ext (by
    match ax with
    | ⟨0, _⟩ => exact lhs_g1W1_0 _ _
    | ⟨1, _⟩ => exact (lhs_g1W1_1 _ _).trans hk)
  have er : dot_S2000x128_S128x256_S2000x256_1_0_0_1_n_n.rhsIdx (ix2 r k) ((ValueIdx.contrEquiv1 dot_S2000x128_S128x256_S2000x256_1_0_0_1_n_n 128 rfl rfl).symm j) = ix2 j k := funext fun ax => Fin.ext (by
    match ax with
    | ⟨0, _⟩ => exact (rhs_g1W1_0 _ _).trans hk
    | ⟨1, _⟩ => exact rhs_g1W1_1 _ _)
  rw [el, er]

/-- The second product, (2000 x 256)(256 x 64): the left operand's row coordinate is the output's. -/
theorem lhs_hW2_0 (i : S2000x64.Idx) (q : dot_S2000x256_S256x64_S2000x64_1_0_0_1_n_n.contr.Idx) :
    (dot_S2000x256_S256x64_S2000x64_1_0_0_1_n_n.lhsIdx i q 0).val = (i 0).val := by
  unfold DotDims.lhsIdx
  rw [dif_neg (show ¬(0 : Fin S2000x256.rank) ∈ dot_S2000x256_S256x64_S2000x64_1_0_0_1_n_n.lhsBatch by decide), dif_pos (show (0 : Fin S2000x256.rank) ∈ dot_S2000x256_S256x64_S2000x64_1_0_0_1_n_n.lhsNonContracting by decide)]
  rfl
/-- Its column coordinate is the contraction index. -/
theorem lhs_hW2_1 (i : S2000x64.Idx) (q : dot_S2000x256_S256x64_S2000x64_1_0_0_1_n_n.contr.Idx) :
    (dot_S2000x256_S256x64_S2000x64_1_0_0_1_n_n.lhsIdx i q 1).val = (q ⟨0, by decide⟩).val :=
  dot_S2000x256_S256x64_S2000x64_1_0_0_1_n_n.lhsIdx_val_of_single rfl i q
/-- The right operand's row coordinate is the contraction index. -/
theorem rhs_hW2_0 (i : S2000x64.Idx) (q : dot_S2000x256_S256x64_S2000x64_1_0_0_1_n_n.contr.Idx) :
    (dot_S2000x256_S256x64_S2000x64_1_0_0_1_n_n.rhsIdx i q 0).val = (q ⟨0, by decide⟩).val :=
  dot_S2000x256_S256x64_S2000x64_1_0_0_1_n_n.rhsIdx_val_of_single rfl i q
/-- Its column coordinate is the output's. -/
theorem rhs_hW2_1 (i : S2000x64.Idx) (q : dot_S2000x256_S256x64_S2000x64_1_0_0_1_n_n.contr.Idx) :
    (dot_S2000x256_S256x64_S2000x64_1_0_0_1_n_n.rhsIdx i q 1).val = (i 1).val := by
  unfold DotDims.rhsIdx
  rw [dif_neg (show ¬(1 : Fin S256x64.rank) ∈ dot_S2000x256_S256x64_S2000x64_1_0_0_1_n_n.rhsBatch by decide), dif_pos (show (1 : Fin S256x64.rank) ∈ dot_S2000x256_S256x64_S2000x64_1_0_0_1_n_n.rhsNonContracting by decide)]
  rfl

/-- THE SECOND PRODUCT at (r, d): the sum over the 256 hidden features of row r of the left operand against column d of
    the right one. -/
theorem hW2_apply (a : FVec Ideal S2000x256 .f32) (b : FVec Ideal S256x64 .f32) (r : Fin 2000) (d : Fin 64) :
    matmul dot_S2000x256_S256x64_S2000x64_1_0_0_1_n_n none a b (constant (F := Ideal) S2000x64 .f32 0x00000000#32) (ix2 r d)
      = ∑ k : Fin 256, a (ix2 r k) * b (ix2 k d) := by
  simp only [matmul]
  rw [Ideal.matmul_constant_zero_apply, ← Equiv.sum_comp (ValueIdx.contrEquiv1 dot_S2000x256_S256x64_S2000x64_1_0_0_1_n_n 256 rfl rfl).symm]
  refine Finset.sum_congr rfl fun k _ => ?_
  have hk := ValueIdx.contrEquiv1_symm_val dot_S2000x256_S256x64_S2000x64_1_0_0_1_n_n 256 rfl rfl k
  have el : dot_S2000x256_S256x64_S2000x64_1_0_0_1_n_n.lhsIdx (ix2 r d) ((ValueIdx.contrEquiv1 dot_S2000x256_S256x64_S2000x64_1_0_0_1_n_n 256 rfl rfl).symm k) = ix2 r k := funext fun ax => Fin.ext (by
    match ax with
    | ⟨0, _⟩ => exact lhs_hW2_0 _ _
    | ⟨1, _⟩ => exact (lhs_hW2_1 _ _).trans hk)
  have er : dot_S2000x256_S256x64_S2000x64_1_0_0_1_n_n.rhsIdx (ix2 r d) ((ValueIdx.contrEquiv1 dot_S2000x256_S256x64_S2000x64_1_0_0_1_n_n 256 rfl rfl).symm k) = ix2 k d := funext fun ax => Fin.ext (by
    match ax with
    | ⟨0, _⟩ => exact (rhs_hW2_0 _ _).trans hk
    | ⟨1, _⟩ => exact rhs_hW2_1 _ _)
  rw [el, er]

/-! ## A column spread over many columns -/

/-- An [a, 1] array broadcast to [a, b] reads, at (p, c), the operand's one column at row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The stored tile at an index -/

/-- THE PAYLOAD at row r, feature d of the tile: over the 256 hidden features, the first product's entry scaled by the
    row's in-degree scale, shifted by the bias, clamped below at zero, scaled by the row's out-degree scale, against
    column d of W2. -/
theorem tile_apply (x0 : Vec Ideal S2000x128 .f32) (x1 : Vec Ideal S128x256 .f32) (x2 : Vec Ideal S2000x1 .f32) (x3 : Vec Ideal S1x256 .f32)
    (x4 : Vec Ideal S2000x1 .f32) (x5 : Vec Ideal S256x64 .f32) (r : Fin 2000) (d : Fin 64) :
    k0_pay1 x0 x1 x2 x3 x4 x5 (ix2 r d)
      = ∑ k : Fin 256, (max ((∑ j : Fin 128, x0 (ix2 r j) * x1 (ix2 j k)) * x2 (ix2 r (0 : Fin 1)) + x3 (ix2 (0 : Fin 1) k)) GcnSpec.zeroW
          * x4 (ix2 r (0 : Fin 1))) * x5 (ix2 k d) := by
  unfold k0_pay1
  simp only [shapeCast_self]
  rw [hW2_apply]
  refine Finset.sum_congr rfl fun k _ => ?_
  rw [mulf_apply, maximumf_apply, addf_apply, mulf_apply, g1W1_apply, broadcastTo_a1_ab_apply, broadcastTo_1b_ab_apply,
    broadcast_apply, broadcastTo_a1_ab_apply]
  rfl

variable (V : (c : Dev nD) → (b : Ref sig .tc) → Buf (Elt Ideal) ((c : Thread nD τ).loc b))

/-- The tile's entry as the specification's, once each operand block is known to read the array where the specification
    does: row r of the tile's blocks is node n of the arrays, the weight and bias blocks are the whole arrays. -/
theorem tile_eq_spec (x0 : Vec Ideal S2000x128 .f32) (x1 : Vec Ideal S128x256 .f32) (x2 : Vec Ideal S2000x1 .f32) (x3 : Vec Ideal S1x256 .f32)
    (x4 : Vec Ideal S2000x1 .f32) (x5 : Vec Ideal S256x64 .f32)
    (g1 : GcnSpec.Arr2 100000 128) (W1 : GcnSpec.Arr2 128 256) (sInC : GcnSpec.Arr2 100000 1) (b1R : GcnSpec.Arr2 1 256)
    (sOutC : GcnSpec.Arr2 100000 1) (W2 : GcnSpec.Arr2 256 64) (n : Fin 100000) (r : Fin 2000) (d : Fin 64)
    (h0 : ∀ j : Fin 128, x0 (ix2 r j) = g1 (ix2 n j))
    (h1 : ∀ (j : Fin 128) (k : Fin 256), x1 (ix2 j k) = W1 (ix2 j k))
    (h2 : x2 (ix2 r (0 : Fin 1)) = sInC (ix2 n (0 : Fin 1)))
    (h3 : ∀ k : Fin 256, x3 (ix2 (0 : Fin 1) k) = b1R (ix2 (0 : Fin 1) k))
    (h4 : x4 (ix2 r (0 : Fin 1)) = sOutC (ix2 n (0 : Fin 1)))
    (h5 : ∀ (k : Fin 256) (e : Fin 64), x5 (ix2 k e) = W2 (ix2 k e)) :
    k0_pay1 x0 x1 x2 x3 x4 x5 (ix2 r d) = GcnSpec.convColsAt g1 W1 sInC b1R sOutC W2 n d := by
  rw [tile_apply]
  unfold GcnSpec.convColsAt
  simp only [h0, h1, h2, h3, h4, h5]

/-! ## From the tiles to the array -/

/-- The windows' index maps, decided over the 50 points: the three row-tiled inputs move with the output tile, whose block
    row is the point's number; the weights and the bias stay at block (0, 0); no window moves along its columns. -/
theorem conv_idx_facts : ∀ t : Fin cfg0.N,
    win0_0.index t (0 : Fin 2) = win0_6.index t (0 : Fin 2) ∧ win0_0.index t (1 : Fin 2) = 0
    ∧ win0_1.index t (0 : Fin 2) = 0 ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = win0_6.index t (0 : Fin 2) ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- WHAT POINT t WRITES BACK is tile t of the specification's array of the six arrays the region finds. -/
theorem conv_flushed_eq (c : Dev nD) (t : Fin cfg0.N) :
    (dat0 (F := Ideal) V c).flushed 6 t = ((cfg0.win 6).blk t).view.read (Elt Ideal)
      (GcnSpec.convColsSpec (V c main_v25) (V c main_arg4) (V c main_v26) (V c main_v28) (V c main_v27) (V c main_arg6)) := by
  show (cfg0.win 6).cut (grid0.coords t) ((dat0 (F := Ideal) V c).after 6 t) = _
  rw [after0_6, convOut_eq]
  obtain ⟨e00, e01, e10, e11, e20, e21, e30, e31, e40, e41, e50, e51, e60, e61⟩ := conv_idx_facts t
  funext j
  obtain ⟨r, d, rfl⟩ : ∃ (r : Fin 2000) (d : Fin 64), j = ix2 r d := ⟨j 0, j 1, eq_ix2 j⟩
  show k0_pay1 (F := Ideal) _ _ _ _ _ _ (ix2 r d)
    = GcnSpec.convColsAt _ _ _ _ _ _ (GcnSpec.c0 (((cfg0.win 6).blk t).view.emb (ix2 r d))) (GcnSpec.c1 (((cfg0.win 6).blk t).view.emb (ix2 r d)))
  have hd : GcnSpec.c1 (((cfg0.win 6).blk t).view.emb (ix2 r d)) = d := Fin.ext (by
    show win0_6.index t (1 : Fin 2) * 64 + 1 * d.val = d.val
    omega)
  rw [hd]
  have hr : r.val < 2000 := r.isLt
  refine tile_eq_spec _ _ _ _ _ _ _ _ _ _ _ _ _ r d (fun j => ?_) (fun j k => ?_) ?_ (fun k => ?_) ?_ (fun k e => ?_)
  · -- the tile of g1: row r of block row t
    show V c main_v25 (((cfg0.win 0).blk t).view.emb (ix2 r j)) = V c main_v25 _
    refine congrArg _ (funext fun a => Fin.ext ?_)
    match a with
    | ⟨0, _⟩ => show win0_0.index t (0 : Fin 2) * 2000 + 1 * r.val = win0_6.index t (0 : Fin 2) * 2000 + 1 * r.val; omega
    | ⟨1, _⟩ => show win0_0.index t (1 : Fin 2) * 128 + 1 * j.val = j.val; omega
  · -- W1 whole
    show V c main_arg4 (((cfg0.win 1).blk t).view.emb (ix2 j k)) = V c main_arg4 _
    refine congrArg _ (funext fun a => Fin.ext ?_)
    match a with
    | ⟨0, _⟩ => show win0_1.index t (0 : Fin 2) * 128 + 1 * j.val = j.val; omega
    | ⟨1, _⟩ => show win0_1.index t (1 : Fin 2) * 256 + 1 * k.val = k.val; omega
  · -- the tile of in-degree scales
    show V c main_v26 (((cfg0.win 2).blk t).view.emb (ix2 r (0 : Fin 1))) = V c main_v26 _
    refine congrArg _ (funext fun a => Fin.ext ?_)
    match a with
    | ⟨0, _⟩ => show win0_2.index t (0 : Fin 2) * 2000 + 1 * r.val = win0_6.index t (0 : Fin 2) * 2000 + 1 * r.val; omega
    | ⟨1, _⟩ => show win0_2.index t (1 : Fin 2) * 1 + 1 * 0 = 0; omega
  · -- the bias row whole
    show V c main_v28 (((cfg0.win 3).blk t).view.emb (ix2 (0 : Fin 1) k)) = V c main_v28 _
    refine congrArg _ (funext fun a => Fin.ext ?_)
    match a with
    | ⟨0, _⟩ => show win0_3.index t (0 : Fin 2) * 1 + 1 * 0 = 0; omega
    | ⟨1, _⟩ => show win0_3.index t (1 : Fin 2) * 256 + 1 * k.val = k.val; omega
  · -- the tile of out-degree scales
    show V c main_v27 (((cfg0.win 4).blk t).view.emb (ix2 r (0 : Fin 1))) = V c main_v27 _
    refine congrArg _ (funext fun a => Fin.ext ?_)
    match a with
    | ⟨0, _⟩ => show win0_4.index t (0 : Fin 2) * 2000 + 1 * r.val = win0_6.index t (0 : Fin 2) * 2000 + 1 * r.val; omega
    | ⟨1, _⟩ => show win0_4.index t (1 : Fin 2) * 1 + 1 * 0 = 0; omega
  · -- W2 whole
    show V c main_arg6 (((cfg0.win 5).blk t).view.emb (ix2 k e)) = V c main_arg6 _
    refine congrArg _ (funext fun a => Fin.ext ?_)
    match a with
    | ⟨0, _⟩ => show win0_5.index t (0 : Fin 2) * 256 + 1 * k.val = k.val; omega
    | ⟨1, _⟩ => show win0_5.index t (1 : Fin 2) * 64 + 1 * e.val = e.val; omega

/-- An index of the array is in point t's tile iff each coordinate is in the tile's range on its axis. -/
theorem conv_mem_blk (t : Fin cfg0.N) (i : S100000x64.Idx) :
    i ∈ ((cfg0.win 6).blk t).view.set ↔ ∀ a : Fin 2, win0_6.index t a * S2000x64.size a ≤ (i a).val ∧ (i a).val < win0_6.index t a * S2000x64.size a + S2000x64.size a := by
  show i ∈ ((View.whole main_v29).slice (win0_6.rect t)).set ↔ _
  rw [View.set_slice_whole, Rect.mem_set_unit]
  exact Iff.rfl

/-- THE TILES COVER THE ARRAY: row n lies in the tile of point n / 2000, and every point writes its tile back. -/
theorem conv_cover (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : grid0.N = 50 := N_0
  have ht : (i 0).val / 2000 < cfg0.N := by show (i 0).val / 2000 < grid0.N; rw [hN]; omega
  obtain ⟨-, -, -, -, -, -, -, -, -, -, -, -, e60, e61⟩ := conv_idx_facts ⟨(i 0).val / 2000, ht⟩
  have e60' : win0_6.index ⟨(i 0).val / 2000, ht⟩ (0 : Fin 2) = (i 0).val / 2000 := e60
  refine ⟨⟨(i 0).val / 2000, ht⟩, flush0_6 _, ?_⟩
  rw [conv_mem_blk]
  intro a
  match a with
  | ⟨0, _⟩ =>
    show win0_6.index ⟨(i 0).val / 2000, ht⟩ (0 : Fin 2) * 2000 ≤ (i 0).val ∧ (i 0).val < win0_6.index ⟨(i 0).val / 2000, ht⟩ (0 : Fin 2) * 2000 + 2000
    omega
  | ⟨1, _⟩ =>
    show win0_6.index ⟨(i 0).val / 2000, ht⟩ (1 : Fin 2) * 64 ≤ (i 1).val ∧ (i 1).val < win0_6.index ⟨(i 0).val / 2000, ht⟩ (1 : Fin 2) * 64 + 64
    omega

/-- THE ARRAY region 0 leaves: the specification's function of the six arrays the region finds
    (g1, W1, the in-degree scales as a column, b1 as a row, the out-degree scales as a column, W2). -/
theorem conv_array (c : Dev nD) :
    (dat0 (F := Ideal) V c).arrAt 6 cfg0.N
      = GcnSpec.convColsSpec (V c main_v25) (V c main_arg4) (V c main_v26) (V c main_v28) (V c main_v27) (V c main_arg6) :=
  (dat0 (F := Ideal) V c).arrAt_eq_of_cover 6 _ (fun t _ => conv_flushed_eq V c t) conv_cover

end Cert.KernelIdeal.Hand

end
-- ==== Proof.PoolValue.lean ====
/-
  What region 1 leaves in its output array, read over the extended reals. After point n the running sums hold, for graph g
  and feature d, the sum over the first 2000 (n + 1) nodes whose graph-id word is g of relu(g2 * s_in + b2), and the
  running counts the number of such nodes (as that many ones): an induction over the grid points, each point adding its
  tile's share as a one-hot matrix product. The last point divides; its block is the only one written back, and it is
  the whole array.
-/
import proofs.«417467_j50448685859136_2_alg».proof.Proof.RegionData
import proofs.«417467_j50448685859136_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

namespace Pool

/-- An equality test of two words is the bit one exactly when the words agree. -/
theorem cmpi_eq_ite (a b : BitVec 32) : IntOp.cmpi .eq a b = if a = b then 1#1 else 0#1 := by
  unfold IntOp.cmpi
  by_cases h : a = b
  · simp [h]
  · have e : (a == b) = false := beq_eq_false_iff_ne.mpr h
    rw [if_neg h]
    show BitVec.ofBool (a == b) = 0#1
    rw [e]
    rfl

/-- The one-hot matrix at (r, g): one when row r's graph-id word is the number g, else zero. -/
theorem onehot_apply (x3 : Vec Ideal S2000x1 .i32) (r : Fin 2000) (g : Fin 512) :
    k1_pay4 (F := Ideal) x3 (ix2 r g) = if x3 (ix2 r 0) = BitVec.ofNat 32 g.val then (1 : EReal) else 0 := by
  have hb : broadcastTo S2000x512 (shapeCast S2000x1 x3 shapeCasts_S2000x1_S2000x1) broadcasts_S2000x1_S2000x512 (ix2 r g) = x3 (ix2 r 0) := by
    rw [shapeCast_self]
    exact broadcastTo_apply _ _ _ (ix2 r 0) (fun a => by
      match a with
      | ⟨0, _⟩ => rfl
      | ⟨1, _⟩ => rfl)
  have hi : iota .tc S2000x512 32 [1] iota_S2000x512_d1_w32 (ix2 r g) = BitVec.ofNat 32 g.val :=
    iota_single_apply .tc S2000x512 32 1 iota_S2000x512_d1_w32 (ix2 r g)
  unfold k1_pay4
  refine (congrArg (fun b : BitVec 1 => (((b.setWidth 32).toInt : ℝ) : EReal)) (congrArg₂ (IntOp.cmpi .eq) hb hi)).trans ?_
  rw [cmpi_eq_ite]
  by_cases h : x3 (ix2 r 0) = BitVec.ofNat 32 g.val
  · rw [if_pos h, if_pos h]
    show (((1 : ℤ) : ℝ) : EReal) = 1
    simp
  · rw [if_neg h, if_neg h]
    show (((0 : ℤ) : ℝ) : EReal) = 0
    simp

/-! ## The two one-hot products: the contraction runs over the tile's 2000 rows -/

theorem lhsD_0 (i : S512x64.Idx) (q : dot_S2000x512_S2000x64_S512x64_0_0_1_1_n_n.contr.Idx) :
    (dot_S2000x512_S2000x64_S512x64_0_0_1_1_n_n.lhsIdx i q 0).val = (q ⟨0, by decide⟩).val :=
  dot_S2000x512_S2000x64_S512x64_0_0_1_1_n_n.lhsIdx_val_of_single rfl i q
theorem lhsD_1 (i : S512x64.Idx) (q : dot_S2000x512_S2000x64_S512x64_0_0_1_1_n_n.contr.Idx) :
    (dot_S2000x512_S2000x64_S512x64_0_0_1_1_n_n.lhsIdx i q 1).val = (i 0).val := by
  unfold DotDims.lhsIdx
  rw [dif_neg (show ¬(1 : Fin S2000x512.rank) ∈ dot_S2000x512_S2000x64_S512x64_0_0_1_1_n_n.lhsBatch by decide), dif_pos (show (1 : Fin S2000x512.rank) ∈ dot_S2000x512_S2000x64_S512x64_0_0_1_1_n_n.lhsNonContracting by decide)]
  rfl
theorem rhsD_0 (i : S512x64.Idx) (q : dot_S2000x512_S2000x64_S512x64_0_0_1_1_n_n.contr.Idx) :
    (dot_S2000x512_S2000x64_S512x64_0_0_1_1_n_n.rhsIdx i q 0).val = (q ⟨0, by decide⟩).val :=
  dot_S2000x512_S2000x64_S512x64_0_0_1_1_n_n.rhsIdx_val_of_single rfl i q
theorem rhsD_1 (i : S512x64.Idx) (q : dot_S2000x512_S2000x64_S512x64_0_0_1_1_n_n.contr.Idx) :
    (dot_S2000x512_S2000x64_S512x64_0_0_1_1_n_n.rhsIdx i q 1).val = (i 1).val := by
  unfold DotDims.rhsIdx
  rw [dif_neg (show ¬(1 : Fin S2000x64.rank) ∈ dot_S2000x512_S2000x64_S512x64_0_0_1_1_n_n.rhsBatch by decide), dif_pos (show (1 : Fin S2000x64.rank) ∈ dot_S2000x512_S2000x64_S512x64_0_0_1_1_n_n.rhsNonContracting by decide)]
  rfl

/-- The transposed product into the zero splat, at (g, d): the sum over the tile's rows of the products. -/
theorem matmulD_apply (A : FVec Ideal S2000x512 .f32) (B : FVec Ideal S2000x64 .f32) (g : Fin 512) (d : Fin 64) :
    matmul dot_S2000x512_S2000x64_S512x64_0_0_1_1_n_n none A B (constant (F := Ideal) S512x64 .f32 0x00000000#32) (ix2 g d)
      = ∑ r : Fin 2000, A (ix2 r g) * B (ix2 r d) := by
  refine (Ideal.matmul_constant_zero_apply dot_S2000x512_S2000x64_S512x64_0_0_1_1_n_n none A B (ix2 g d)).trans ?_
  rw [← Equiv.sum_comp (ValueIdx.contrEquiv1 dot_S2000x512_S2000x64_S512x64_0_0_1_1_n_n 2000 rfl rfl).symm]
  refine Finset.sum_congr rfl fun k _ => ?_
  have hk := ValueIdx.contrEquiv1_symm_val dot_S2000x512_S2000x64_S512x64_0_0_1_1_n_n 2000 rfl rfl k
  have el : dot_S2000x512_S2000x64_S512x64_0_0_1_1_n_n.lhsIdx (ix2 g d) ((ValueIdx.contrEquiv1 dot_S2000x512_S2000x64_S512x64_0_0_1_1_n_n 2000 rfl rfl).symm k) = ix2 k g := funext fun a => Fin.ext (by
    match a with
    | ⟨0, _⟩ => exact (lhsD_0 _ _).trans hk
    | ⟨1, _⟩ => exact lhsD_1 _ _)
  have er : dot_S2000x512_S2000x64_S512x64_0_0_1_1_n_n.rhsIdx (ix2 g d) ((ValueIdx.contrEquiv1 dot_S2000x512_S2000x64_S512x64_0_0_1_1_n_n 2000 rfl rfl).symm k) = ix2 k d := funext fun a => Fin.ext (by
    match a with
    | ⟨0, _⟩ => exact (rhsD_0 _ _).trans hk
    | ⟨1, _⟩ => exact rhsD_1 _ _)
  rw [el, er]

theorem lhsC_0 (i : S512x1.Idx) (q : dot_S2000x512_S2000x1_S512x1_0_0_1_1_n_n.contr.Idx) :
    (dot_S2000x512_S2000x1_S512x1_0_0_1_1_n_n.lhsIdx i q 0).val = (q ⟨0, by decide⟩).val :=
  dot_S2000x512_S2000x1_S512x1_0_0_1_1_n_n.lhsIdx_val_of_single rfl i q
theorem lhsC_1 (i : S512x1.Idx) (q : dot_S2000x512_S2000x1_S512x1_0_0_1_1_n_n.contr.Idx) :
    (dot_S2000x512_S2000x1_S512x1_0_0_1_1_n_n.lhsIdx i q 1).val = (i 0).val := by
  unfold DotDims.lhsIdx
  rw [dif_neg (show ¬(1 : Fin S2000x512.rank) ∈ dot_S2000x512_S2000x1_S512x1_0_0_1_1_n_n.lhsBatch by decide), dif_pos (show (1 : Fin S2000x512.rank) ∈ dot_S2000x512_S2000x1_S512x1_0_0_1_1_n_n.lhsNonContracting by decide)]
  rfl
theorem rhsC_0 (i : S512x1.Idx) (q : dot_S2000x512_S2000x1_S512x1_0_0_1_1_n_n.contr.Idx) :
    (dot_S2000x512_S2000x1_S512x1_0_0_1_1_n_n.rhsIdx i q 0).val = (q ⟨0, by decide⟩).val :=
  dot_S2000x512_S2000x1_S512x1_0_0_1_1_n_n.rhsIdx_val_of_single rfl i q
theorem rhsC_1 (i : S512x1.Idx) (q : dot_S2000x512_S2000x1_S512x1_0_0_1_1_n_n.contr.Idx) :
    (dot_S2000x512_S2000x1_S512x1_0_0_1_1_n_n.rhsIdx i q 1).val = (i 1).val := by
  unfold DotDims.rhsIdx
  rw [dif_neg (show ¬(1 : Fin S2000x1.rank) ∈ dot_S2000x512_S2000x1_S512x1_0_0_1_1_n_n.rhsBatch by decide), dif_pos (show (1 : Fin S2000x1.rank) ∈ dot_S2000x512_S2000x1_S512x1_0_0_1_1_n_n.rhsNonContracting by decide)]
  rfl

/-- The same product against a column, at (g, 0). -/
theorem matmulC_apply (A : FVec Ideal S2000x512 .f32) (B : FVec Ideal S2000x1 .f32) (g : Fin 512) :
    matmul dot_S2000x512_S2000x1_S512x1_0_0_1_1_n_n none A B (constant (F := Ideal) S512x1 .f32 0x00000000#32) (ix2 g 0)
      = ∑ r : Fin 2000, A (ix2 r g) * B (ix2 r 0) := by
  refine (Ideal.matmul_constant_zero_apply dot_S2000x512_S2000x1_S512x1_0_0_1_1_n_n none A B (ix2 g 0)).trans ?_
  rw [← Equiv.sum_comp (ValueIdx.contrEquiv1 dot_S2000x512_S2000x1_S512x1_0_0_1_1_n_n 2000 rfl rfl).symm]
  refine Finset.sum_congr rfl fun k _ => ?_
  have hk := ValueIdx.contrEquiv1_symm_val dot_S2000x512_S2000x1_S512x1_0_0_1_1_n_n 2000 rfl rfl k
  have el : dot_S2000x512_S2000x1_S512x1_0_0_1_1_n_n.lhsIdx (ix2 g 0) ((ValueIdx.contrEquiv1 dot_S2000x512_S2000x1_S512x1_0_0_1_1_n_n 2000 rfl rfl).symm k) = ix2 k g := funext fun a => Fin.ext (by
    match a with
    | ⟨0, _⟩ => exact (lhsC_0 _ _).trans hk
    | ⟨1, _⟩ => exact lhsC_1 _ _)
  have er : dot_S2000x512_S2000x1_S512x1_0_0_1_1_n_n.rhsIdx (ix2 g 0) ((ValueIdx.contrEquiv1 dot_S2000x512_S2000x1_S512x1_0_0_1_1_n_n 2000 rfl rfl).symm k) = ix2 k 0 := funext fun a => Fin.ext (by
    match a with
    | ⟨0, _⟩ => exact (rhsC_0 _ _).trans hk
    | ⟨1, _⟩ => exact rhsC_1 _ _)
  rw [el, er]

/-! ## The region's values at an index -/

/-- Feature d of row r of the tile after the epilogue: relu(g2 * s_in + b2). -/
theorem reluTile_apply (x0 : Vec Ideal S2000x64 .f32) (x1 : Vec Ideal S2000x1 .f32) (x2 : Vec Ideal S1x64 .f32) (r : Fin 2000) (d : Fin 64) :
    maximumf (addf (mulf (shapeCast S2000x64 x0 shapeCasts_S2000x64_S2000x64)
        (broadcastTo S2000x64 (shapeCast S2000x1 x1 shapeCasts_S2000x1_S2000x1) broadcasts_S2000x1_S2000x64))
        (broadcastTo S2000x64 (shapeCast S1x64 x2 shapeCasts_S1x64_S1x64) broadcasts_S1x64_S2000x64))
      (broadcast S2000x64 (Scalar.ofBits (F := Ideal) .f32 0x00000000#32)) (ix2 r d)
    = max (x0 (ix2 r d) * x1 (ix2 r 0) + x2 (ix2 0 d)) GcnSpec.zeroW := by
  have h1 : broadcastTo S2000x64 x1 broadcasts_S2000x1_S2000x64 (ix2 r d) = x1 (ix2 r 0) :=
    broadcastTo_apply _ _ _ (ix2 r 0) (fun a => by
      match a with
      | ⟨0, _⟩ => rfl
      | ⟨1, _⟩ => rfl)
  have h2 : broadcastTo S2000x64 x2 broadcasts_S1x64_S2000x64 (ix2 r d) = x2 (ix2 0 d) :=
    broadcastTo_apply _ _ _ (ix2 0 d) (fun a => by
      match a with
      | ⟨0, _⟩ => rfl
      | ⟨1, _⟩ => rfl)
  rw [shapeCast_self, shapeCast_self, shapeCast_self]
  show max (x0 (ix2 r d) * broadcastTo S2000x64 x1 broadcasts_S2000x1_S2000x64 (ix2 r d)
    + broadcastTo S2000x64 x2 broadcasts_S1x64_S2000x64 (ix2 r d)) (Ideal.ofBits .f32 0x00000000#32) = _
  rw [h1, h2]

/-- A point's sums at (g, d): the sums before it plus, over the tile's rows whose graph-id word is g, relu(g2 * s_in + b2). -/
theorem pay5_apply (x0 : Vec Ideal S2000x64 .f32) (x1 : Vec Ideal S2000x1 .f32) (x2 : Vec Ideal S1x64 .f32) (x3 : Vec Ideal S2000x1 .i32)
    (p : Vec Ideal S512x64 .f32) (g : Fin 512) (d : Fin 64) :
    k1_pay5 (F := Ideal) x0 x1 x2 x3 p (ix2 g d)
      = p (ix2 g d) + ∑ r : Fin 2000, (if x3 (ix2 r 0) = BitVec.ofNat 32 g.val then max (x0 (ix2 r d) * x1 (ix2 r 0) + x2 (ix2 0 d)) GcnSpec.zeroW else 0) := by
  unfold k1_pay5
  refine (congrArg₂ (fun a b : EReal => a + b) (congrFun (shapeCast_self p shapeCasts_S512x64_S512x64) (ix2 g d))
    (matmulD_apply (k1_pay4 (F := Ideal) x3) _ g d)).trans ?_
  refine congrArg (fun b : EReal => p (ix2 g d) + b) (Finset.sum_congr rfl fun r _ => ?_)
  rw [onehot_apply, reluTile_apply]
  by_cases h : x3 (ix2 r 0) = BitVec.ofNat 32 g.val
  · rw [if_pos h, if_pos h, one_mul]
  · rw [if_neg h, if_neg h, zero_mul]

/-- A point's counts at (g, 0): the counts before it plus one for every row of the tile whose graph-id word is g. -/
theorem pay6_apply (x3 : Vec Ideal S2000x1 .i32) (q : Vec Ideal S512x1 .f32) (g : Fin 512) :
    k1_pay6 (F := Ideal) x3 q (ix2 g 0)
      = q (ix2 g 0) + ∑ r : Fin 2000, (if x3 (ix2 r 0) = BitVec.ofNat 32 g.val then GcnSpec.oneW else 0) := by
  unfold k1_pay6
  rw [shapeCast_self]
  refine (congrArg (fun b : EReal => q (ix2 g 0) + b) (matmulC_apply (k1_pay4 (F := Ideal) x3) _ g)).trans ?_
  refine congrArg (fun b : EReal => q (ix2 g 0) + b) (Finset.sum_congr rfl fun r _ => ?_)
  rw [onehot_apply]
  show _ * Ideal.ofBits .f32 0x3F800000#32 = _
  by_cases h : x3 (ix2 r 0) = BitVec.ofNat 32 g.val
  · rw [if_pos h, if_pos h, one_mul]
  · rw [if_neg h, if_neg h, zero_mul]

/-- The last point's quotient at (g, d): the sum over the count clamped below at one. -/
theorem pay1_apply (s : Vec Ideal S512x64 .f32) (q : Vec Ideal S512x1 .f32) (g : Fin 512) (d : Fin 64) :
    k1_pay1 (F := Ideal) s q (ix2 g d) = Ideal.div (s (ix2 g d)) (max (q (ix2 g 0)) GcnSpec.oneW) := by
  have h1 : ∀ y : FVec Ideal S512x1 .f32, broadcastTo S512x64 y broadcasts_S512x1_S512x64 (ix2 g d) = y (ix2 g 0) := fun y =>
    broadcastTo_apply _ _ _ (ix2 g 0) (fun a => by
      match a with
      | ⟨0, _⟩ => rfl
      | ⟨1, _⟩ => rfl)
  unfold k1_pay1
  rw [shapeCast_self]
  refine (congrArg (fun b : EReal => Ideal.div (s (ix2 g d)) b) (h1 _)).trans ?_
  rfl

/-- The zeroed sums and counts. -/
theorem pay2_apply (g : Fin 512) (d : Fin 64) : k1_pay2 (F := Ideal) (ix2 g d) = 0 := by
  unfold k1_pay2
  exact Ideal.ofBits_zero_f32
theorem pay3_apply (g : Fin 512) : k1_pay3 (F := Ideal) (ix2 g 0) = 0 := by
  unfold k1_pay3
  rw [shapeCast_self]
  exact Ideal.ofBits_zero_f32

/-! ## The arrays the region finds and its input blocks, at their literal types -/

variable (V : (c : Dev nD) → (b : Ref sig .tc) → Buf (Elt Ideal) ((c : Thread nD τ).loc b))

abbrev g2A (c : Dev nD) : Vec Ideal S100000x64 .f32 := V c main_v39
abbrev sA (c : Dev nD) : Vec Ideal S100000x1 .f32 := V c main_v40
abbrev bA (c : Dev nD) : Vec Ideal S1x64 .f32 := V c main_v41
abbrev gidA (c : Dev nD) : Vec Ideal S100000x1 .i32 := V c main_v42
abbrev g2B (c : Dev nD) (t : Fin cfg1.N) : Vec Ideal S2000x64 .f32 := iblk1 V c 0 t
abbrev sB (c : Dev nD) (t : Fin cfg1.N) : Vec Ideal S2000x1 .f32 := iblk1 V c 1 t
abbrev bB (c : Dev nD) (t : Fin cfg1.N) : Vec Ideal S1x64 .f32 := iblk1 V c 2 t
abbrev gidB (c : Dev nD) (t : Fin cfg1.N) : Vec Ideal S2000x1 .i32 := iblk1 V c 3 t

/-- The block indices over the grid: the three tiled windows are at row block t, the bias row at block 0. -/
theorem idx1_0 : ∀ t : Fin cfg1.N, win1_0.index t 0 = t.val ∧ win1_0.index t 1 = 0 :=
  (by decide +kernel : ∀ t : Fin grid1.N, win1_0.index t 0 = t.val ∧ win1_0.index t 1 = 0)
theorem idx1_1 : ∀ t : Fin cfg1.N, win1_1.index t 0 = t.val ∧ win1_1.index t 1 = 0 :=
  (by decide +kernel : ∀ t : Fin grid1.N, win1_1.index t 0 = t.val ∧ win1_1.index t 1 = 0)
theorem idx1_2 : ∀ t : Fin cfg1.N, win1_2.index t 0 = 0 ∧ win1_2.index t 1 = 0 :=
  (by decide +kernel : ∀ t : Fin grid1.N, win1_2.index t 0 = 0 ∧ win1_2.index t 1 = 0)
theorem idx1_3 : ∀ t : Fin cfg1.N, win1_3.index t 0 = t.val ∧ win1_3.index t 1 = 0 :=
  (by decide +kernel : ∀ t : Fin grid1.N, win1_3.index t 0 = t.val ∧ win1_3.index t 1 = 0)

/-- Row r of the tile at point t is row 2000 t + r of the array. -/
theorem g2B_apply (c : Dev nD) (t : Fin cfg1.N) (r : Fin 2000) (d : Fin 64) (k : Fin 100000) (hk : k.val = 2000 * t.val + r.val) :
    g2B V c t (ix2 r d) = g2A V c (ix2 k d) := by
  have hi := idx1_0 t
  show ((cfg1.win 0).blk t).view.read (Elt Ideal) (V c (Pipeline.arrRef spec1 0)) (ix2 r d) = V c main_v39 (ix2 k d)
  rw [View.read_apply]
  show V c main_v39 _ = V c main_v39 _
  congr 1
  funext a
  apply Fin.ext
  match a with
  | ⟨0, _⟩ => show win1_0.index t 0 * 2000 + 1 * r.val = k.val; rw [hi.1, hk]; omega
  | ⟨1, _⟩ => show win1_0.index t 1 * 64 + 1 * d.val = d.val; rw [hi.2]; omega

theorem sB_apply (c : Dev nD) (t : Fin cfg1.N) (r : Fin 2000) (k : Fin 100000) (hk : k.val = 2000 * t.val + r.val) :
    sB V c t (ix2 r 0) = sA V c (ix2 k 0) := by
  have hi := idx1_1 t
  show ((cfg1.win 1).blk t).view.read (Elt Ideal) (V c (Pipeline.arrRef spec1 1)) (ix2 r 0) = V c main_v40 (ix2 k 0)
  rw [View.read_apply]
  show V c main_v40 _ = V c main_v40 _
  congr 1
  funext a
  apply Fin.ext
  match a with
  | ⟨0, _⟩ => show win1_1.index t 0 * 2000 + 1 * r.val = k.val; rw [hi.1, hk]; omega
  | ⟨1, _⟩ => show win1_1.index t 1 * 1 + 1 * 0 = 0; rw [hi.2]

theorem bB_apply (c : Dev nD) (t : Fin cfg1.N) (d : Fin 64) :
    bB V c t (ix2 0 d) = bA V c (ix2 0 d) := by
  have hi := idx1_2 t
  show ((cfg1.win 2).blk t).view.read (Elt Ideal) (V c (Pipeline.arrRef spec1 2)) (ix2 0 d) = V c main_v41 (ix2 0 d)
  rw [View.read_apply]
  show V c main_v41 _ = V c main_v41 _
  congr 1
  funext a
  apply Fin.ext
  match a with
  | ⟨0, _⟩ => show win1_2.index t 0 * 1 + 1 * 0 = 0; rw [hi.1]
  | ⟨1, _⟩ => show win1_2.index t 1 * 64 + 1 * d.val = d.val; rw [hi.2]; omega

theorem gidB_apply (c : Dev nD) (t : Fin cfg1.N) (r : Fin 2000) (k : Fin 100000) (hk : k.val = 2000 * t.val + r.val) :
    gidB V c t (ix2 r 0) = gidA V c (ix2 k 0) := by
  have hi := idx1_3 t
  show ((cfg1.win 3).blk t).view.read (Elt Ideal) (V c (Pipeline.arrRef spec1 3)) (ix2 r 0) = V c main_v42 (ix2 k 0)
  rw [View.read_apply]
  show V c main_v42 _ = V c main_v42 _
  congr 1
  funext a
  apply Fin.ext
  match a with
  | ⟨0, _⟩ => show win1_3.index t 0 * 2000 + 1 * r.val = k.val; rw [hi.1, hk]; omega
  | ⟨1, _⟩ => show win1_3.index t 1 * 1 + 1 * 0 = 0; rw [hi.2]

/-! ## The running sums: after point n, the sums over the first 2000 (n + 1) nodes -/

/-- Node k's share of graph g's feature-d sum (nothing past the last node). -/
def sumTerm (c : Dev nD) (g : Fin 512) (d : Fin 64) (k : ℕ) : EReal :=
  if h : k < 100000 then
    (if gidA V c (ix2 ⟨k, h⟩ 0) = BitVec.ofNat 32 g.val then
      max (g2A V c (ix2 ⟨k, h⟩ d) * sA V c (ix2 ⟨k, h⟩ 0) + bA V c (ix2 0 d)) GcnSpec.zeroW else 0)
  else 0

/-- Node k's share of graph g's node count. -/
def cntTerm (c : Dev nD) (g : Fin 512) (k : ℕ) : EReal :=
  if h : k < 100000 then (if gidA V c (ix2 ⟨k, h⟩ 0) = BitVec.ofNat 32 g.val then GcnSpec.oneW else 0) else 0

/-- The tile's share of the sums at point t: nodes 2000 t … 2000 t + 1999. -/
theorem tile_sum (c : Dev nD) (t : Fin cfg1.N) (g : Fin 512) (d : Fin 64) :
    ∑ r : Fin 2000, (if gidB V c t (ix2 r 0) = BitVec.ofNat 32 g.val then
        max (g2B V c t (ix2 r d) * sB V c t (ix2 r 0) + bB V c t (ix2 0 d)) GcnSpec.zeroW else 0)
      = ∑ r ∈ Finset.range 2000, sumTerm V c g d (2000 * t.val + r) := by
  rw [← Fin.sum_univ_eq_sum_range (fun r => sumTerm V c g d (2000 * t.val + r)) 2000]
  refine Finset.sum_congr rfl fun r _ => ?_
  have hN : cfg1.N = 50 := N_1
  have hlt : 2000 * t.val + r.val < 100000 := by have := t.isLt; have := r.isLt; omega
  unfold sumTerm
  rw [dif_pos hlt, gidB_apply V c t r ⟨_, hlt⟩ rfl, g2B_apply V c t r d ⟨_, hlt⟩ rfl, sB_apply V c t r ⟨_, hlt⟩ rfl, bB_apply V c t d]

/-- The tile's share of the counts at point t. -/
theorem tile_cnt (c : Dev nD) (t : Fin cfg1.N) (g : Fin 512) :
    ∑ r : Fin 2000, (if gidB V c t (ix2 r 0) = BitVec.ofNat 32 g.val then GcnSpec.oneW else 0)
      = ∑ r ∈ Finset.range 2000, cntTerm V c g (2000 * t.val + r) := by
  rw [← Fin.sum_univ_eq_sum_range (fun r => cntTerm V c g (2000 * t.val + r)) 2000]
  refine Finset.sum_congr rfl fun r _ => ?_
  have hN : cfg1.N = 50 := N_1
  have hlt : 2000 * t.val + r.val < 100000 := by have := t.isLt; have := r.isLt; omega
  unfold cntTerm
  rw [dif_pos hlt, gidB_apply V c t r ⟨_, hlt⟩ rfl]

/-- THE INVARIANT: before the last point, the sums and counts after point n are the sums over the first 2000 (n + 1) nodes. -/
theorem poolAcc_inv (c : Dev nD) : ∀ (n : ℕ) (hn : n < cfg1.N), n < 49 → ∀ (g : Fin 512) (d : Fin 64),
    (poolAcc V c n hn).1 (ix2 g d) = ∑ k ∈ Finset.range (2000 * (n + 1)), sumTerm V c g d k
    ∧ (poolAcc V c n hn).2 (ix2 g 0) = ∑ k ∈ Finset.range (2000 * (n + 1)), cntTerm V c g k
  | 0, hn, _, g, d => by
    have e := poolAcc_zero V c ⟨0, hn⟩ rfl
    constructor
    · refine (congrFun (congrArg Prod.fst e) (ix2 g d)).trans ?_
      refine (pay5_apply (g2B V c ⟨0, hn⟩) (sB V c ⟨0, hn⟩) (bB V c ⟨0, hn⟩) (gidB V c ⟨0, hn⟩) (k1_pay2 (F := Ideal)) g d).trans ?_
      rw [pay2_apply, zero_add, tile_sum]
      simp only [Nat.mul_zero, Nat.zero_add, Nat.mul_one]
    · refine (congrFun (congrArg Prod.snd e) (ix2 g 0)).trans ?_
      refine (pay6_apply (gidB V c ⟨0, hn⟩) (k1_pay3 (F := Ideal)) g).trans ?_
      rw [pay3_apply, zero_add, tile_cnt]
      simp only [Nat.mul_zero, Nat.zero_add, Nat.mul_one]
  | n + 1, hn, h49, g, d => by
    have ih := poolAcc_inv c n (Nat.lt_of_succ_lt hn) (by omega)
    have e := poolAcc_mid V c ⟨n + 1, hn⟩ (Nat.succ_ne_zero n) (by show n + 1 ≠ 49; omega)
    have hs : 2000 * (n + 1 + 1) = 2000 * (n + 1) + 2000 := by omega
    constructor
    · refine (congrFun (congrArg Prod.fst e) (ix2 g d)).trans ?_
      refine (pay5_apply (g2B V c ⟨n + 1, hn⟩) (sB V c ⟨n + 1, hn⟩) (bB V c ⟨n + 1, hn⟩) (gidB V c ⟨n + 1, hn⟩)
        (poolAcc V c n (Nat.lt_of_succ_lt hn)).1 g d).trans ?_
      rw [(ih g d).1, tile_sum, hs, Finset.sum_range_add]
    · refine (congrFun (congrArg Prod.snd e) (ix2 g 0)).trans ?_
      refine (pay6_apply (gidB V c ⟨n + 1, hn⟩) (poolAcc V c n (Nat.lt_of_succ_lt hn)).2 g).trans ?_
      rw [(ih g d).2, tile_cnt, hs, Finset.sum_range_add]

/-- Over all 100000 nodes the shares are the specification's summands. -/
theorem sum_all (c : Dev nD) (g : Fin 512) (d : Fin 64) :
    ∑ k ∈ Finset.range 100000, sumTerm V c g d k
      = ∑ n : Fin 100000, if GcnSpec.inGraph (gidA V c (ix2 n 0)) g then
          max (g2A V c (ix2 n d) * sA V c (ix2 n 0) + bA V c (ix2 0 d)) GcnSpec.zeroW else 0 := by
  rw [← Fin.sum_univ_eq_sum_range (fun k => sumTerm V c g d k) 100000]
  refine Finset.sum_congr rfl fun n _ => ?_
  unfold sumTerm
  rw [dif_pos n.isLt]

theorem cnt_all (c : Dev nD) (g : Fin 512) :
    ∑ k ∈ Finset.range 100000, cntTerm V c g k
      = ∑ n : Fin 100000, if GcnSpec.inGraph (gidA V c (ix2 n 0)) g then GcnSpec.oneW else 0 := by
  rw [← Fin.sum_univ_eq_sum_range (fun k => cntTerm V c g k) 100000]
  refine Finset.sum_congr rfl fun n _ => ?_
  unfold cntTerm
  rw [dif_pos n.isLt]

/-- After the last point: the per-graph mean of the specification, entry by entry. -/
theorem poolAcc_last_apply (c : Dev nD) (h : 49 < cfg1.N) (g : Fin 512) (d : Fin 64) :
    (poolAcc V c 49 h).1 (ix2 g d) = GcnSpec.poolColsAt (g2A V c) (sA V c) (bA V c) (gidA V c) g d := by
  have h48 : 48 < cfg1.N := Nat.lt_of_succ_lt h
  have ih := poolAcc_inv V c 48 h48 (by omega) g d
  have e := poolAcc_last V c ⟨49, h⟩ rfl
  refine (congrFun (congrArg Prod.fst e) (ix2 g d)).trans ?_
  refine (pay1_apply (k1_pay5 (F := Ideal) (g2B V c ⟨49, h⟩) (sB V c ⟨49, h⟩) (bB V c ⟨49, h⟩) (gidB V c ⟨49, h⟩) (poolAcc V c 48 h48).1)
    (k1_pay6 (F := Ideal) (gidB V c ⟨49, h⟩) (poolAcc V c 48 h48).2) g d).trans ?_
  rw [pay5_apply, pay6_apply, ih.1, ih.2, tile_sum, tile_cnt]
  have hs : (100000 : ℕ) = 2000 * (48 + 1) + 2000 := by norm_num
  unfold GcnSpec.poolColsAt
  rw [← sum_all V c g d, ← cnt_all V c g, hs, Finset.sum_range_add, Finset.sum_range_add]

/-! ## The array: the last point's block is the whole array, and the only one written back -/

/-- The whole block after the last point is the specification's array. -/
theorem poolAcc_last_eq (c : Dev nD) (h : 49 < cfg1.N) :
    (poolAcc V c 49 h).1 = GcnSpec.poolColsSpec (g2A V c) (sA V c) (bA V c) (gidA V c) := by
  funext i
  have e : i = ix2 (GcnSpec.c0 i) (GcnSpec.c1 i) := funext fun a => by
    match a with
    | ⟨0, _⟩ => rfl
    | ⟨1, _⟩ => rfl
  calc (poolAcc V c 49 h).1 i = (poolAcc V c 49 h).1 (ix2 (GcnSpec.c0 i) (GcnSpec.c1 i)) := congrArg (poolAcc V c 49 h).1 e
    _ = GcnSpec.poolColsAt (g2A V c) (sA V c) (bA V c) (gidA V c) (GcnSpec.c0 i) (GcnSpec.c1 i) := poolAcc_last_apply V c h _ _
    _ = _ := rfl

/-- The output window's block index and extent over the grid: always block (0, 0), of the array's own extents. -/
theorem idx1_4 : ∀ t : Fin cfg1.N, win1_4.index t 0 = 0 ∧ win1_4.index t 1 = 0 :=
  (by decide +kernel : ∀ t : Fin grid1.N, win1_4.index t 0 = 0 ∧ win1_4.index t 1 = 0)
theorem xsize1_4 : ∀ t : Fin cfg1.N, win1_4.xsize (grid1.coords t) 0 = 512 ∧ win1_4.xsize (grid1.coords t) 1 = 64 :=
  (by decide +kernel : ∀ t : Fin grid1.N, win1_4.xsize (grid1.coords t) 0 = 512 ∧ win1_4.xsize (grid1.coords t) 1 = 64)

/-- The one write-back, at the last point, writes the specification's array. -/
theorem flushed_eq (c : Dev nD) (t : Fin cfg1.N) (hf : (cfg1.win 4).flush t = true) :
    (dat1 (F := Ideal) V c).flushed 4 t = ((cfg1.win 4).blk t).view.read (Elt Ideal)
      (GcnSpec.poolColsSpec (V c main_v39) (V c main_v40) (V c main_v41) (V c main_v42)) := by
  have hN : cfg1.N = 50 := N_1
  have h49 : t.val = 49 := by have := (flush1_4 t).mp hf; have := t.isLt; omega
  have hlt : 49 < cfg1.N := by omega
  obtain rfl : t = ⟨49, hlt⟩ := Fin.ext h49
  show (cfg1.win 4).cut (grid1.coords ⟨49, hlt⟩) ((dat1 (F := Ideal) V c).after 4 ⟨49, hlt⟩) = _
  rw [after1_4]
  show (cfg1.win 4).cut (grid1.coords ⟨49, hlt⟩) (poolAcc V c 49 hlt).1 = _
  rw [poolAcc_last_eq V c hlt]
  have hi := idx1_4 ⟨49, hlt⟩
  have hz' : (fun a => win1_4.index ⟨49, hlt⟩ a * main_v43.ty.shape.size a) = fun _ => 0 := funext fun a => by
    match a with
    | ⟨0, _⟩ => show win1_4.index ⟨49, hlt⟩ 0 * 512 = 0; rw [hi.1]
    | ⟨1, _⟩ => show win1_4.index ⟨49, hlt⟩ 1 * 64 = 0; rw [hi.2]
  exact (Memref.read_access_unit_zero (Elt Ideal) main_v43 hz' (fun a => by rw [congrFun hz' a]; simp)
    (GcnSpec.poolColsSpec (V c main_v39) (V c main_v40) (V c main_v41) (V c main_v42))).symm

/-- The last point's block covers every entry of the array. -/
theorem cover (i : S512x64.Idx) : ∃ t : Fin cfg1.N, (cfg1.win 4).flush t = true ∧ i ∈ ((cfg1.win 4).blk t).view.set := by
  have hN : cfg1.N = 50 := N_1
  have h0 : (i 0 : Nat) < 512 := (i 0).isLt
  have h1 : (i 1 : Nat) < 64 := (i 1).isLt
  have hlt : 49 < cfg1.N := by omega
  refine ⟨⟨49, hlt⟩, (flush1_4 _).mpr rfl, ?_⟩
  show i ∈ ((View.whole main_v43).slice (win1_4.rect ⟨49, hlt⟩)).set
  rw [View.set_slice_whole, Rect.mem_set_unit]
  intro a
  have hi := idx1_4 ⟨49, hlt⟩
  have hx := xsize1_4 ⟨49, hlt⟩
  match a with
  | ⟨0, _⟩ =>
    show win1_4.index ⟨49, hlt⟩ 0 * win1_4.size 0 ≤ (i 0 : Nat) ∧ (i 0 : Nat) < win1_4.index ⟨49, hlt⟩ 0 * win1_4.size 0 + win1_4.xsize (grid1.coords ⟨49, hlt⟩) 0
    rw [hi.1, hx.1]; omega
  | ⟨1, _⟩ =>
    show win1_4.index ⟨49, hlt⟩ 1 * win1_4.size 1 ≤ (i 1 : Nat) ∧ (i 1 : Nat) < win1_4.index ⟨49, hlt⟩ 1 * win1_4.size 1 + win1_4.xsize (grid1.coords ⟨49, hlt⟩) 1
    rw [hi.2, hx.2]; omega

end Pool

variable (V : (c : Dev nD) → (b : Ref sig .tc) → Buf (Elt Ideal) ((c : Thread nD τ).loc b))

/-- THE ARRAY region 1 leaves: the specification's per-graph mean of the four arrays the region finds
    (g2, the in-degree scales as a column, b2 as a row, the graph ids as a column). -/
theorem pool_array (c : Dev nD) :
    (dat1 (F := Ideal) V c).arrAt 4 cfg1.N
      = GcnSpec.poolColsSpec (V c main_v39) (V c main_v40) (V c main_v41) (V c main_v42) :=
  (dat1 (F := Ideal) V c).arrAt_eq_of_cover 4 _ (Pool.flushed_eq V c) Pool.cover

end Cert.KernelIdeal.Hand

end
-- ==== Proof.MlpValue.lean ====
/-
  What region 2 leaves in its output array, read over the extended reals: its one grid point writes back the whole
  512 x 2 array, four affine layers of the pooled rows.
-/
import proofs.«417467_j50448685859136_2_alg».proof.Proof.RegionData
import proofs.«417467_j50448685859136_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ## One affine layer at an index

Each layer is a product started from the zero array plus the bias row spread over the 512 rows. The product at (r, m) is
the sum over the shared feature k of the row's entry (r, k) times the weight (k, m): the left operand is read at the
result's row and the summation index, the right at the summation index and the result's column. -/

/-! ### The layer 64 → 18 -/

/-- The left operand's row coordinate is the result's row. -/
theorem lhs64x18_0 (i : S512x18.Idx) (q : dot_S512x64_S64x18_S512x18_1_0_0_1_n_n.contr.Idx) :
    (dot_S512x64_S64x18_S512x18_1_0_0_1_n_n.lhsIdx i q 0).val = (i 0).val := by
  unfold DotDims.lhsIdx
  rw [dif_neg (show ¬(0 : Fin S512x64.rank) ∈ dot_S512x64_S64x18_S512x18_1_0_0_1_n_n.lhsBatch by decide), dif_pos (show (0 : Fin S512x64.rank) ∈ dot_S512x64_S64x18_S512x18_1_0_0_1_n_n.lhsNonContracting by decide)]
  rfl
/-- The left operand's column coordinate is the summation index. -/
theorem lhs64x18_1 (i : S512x18.Idx) (q : dot_S512x64_S64x18_S512x18_1_0_0_1_n_n.contr.Idx) :
    (dot_S512x64_S64x18_S512x18_1_0_0_1_n_n.lhsIdx i q 1).val = (q ⟨0, by decide⟩).val :=
  dot_S512x64_S64x18_S512x18_1_0_0_1_n_n.lhsIdx_val_of_single rfl i q
/-- The right operand's row coordinate is the summation index. -/
theorem rhs64x18_0 (i : S512x18.Idx) (q : dot_S512x64_S64x18_S512x18_1_0_0_1_n_n.contr.Idx) :
    (dot_S512x64_S64x18_S512x18_1_0_0_1_n_n.rhsIdx i q 0).val = (q ⟨0, by decide⟩).val :=
  dot_S512x64_S64x18_S512x18_1_0_0_1_n_n.rhsIdx_val_of_single rfl i q
/-- The right operand's column coordinate is the result's column. -/
theorem rhs64x18_1 (i : S512x18.Idx) (q : dot_S512x64_S64x18_S512x18_1_0_0_1_n_n.contr.Idx) :
    (dot_S512x64_S64x18_S512x18_1_0_0_1_n_n.rhsIdx i q 1).val = (i 1).val := by
  unfold DotDims.rhsIdx
  rw [dif_neg (show ¬(1 : Fin S64x18.rank) ∈ dot_S512x64_S64x18_S512x18_1_0_0_1_n_n.rhsBatch by decide), dif_pos (show (1 : Fin S64x18.rank) ∈ dot_S512x64_S64x18_S512x18_1_0_0_1_n_n.rhsNonContracting by decide)]
  rfl

/-- The product of 512 x 64 rows with 64 x 18 weights, started from zero, at (r, m): the sum over the 64 shared
    features of row r's entry times the weight's. -/
theorem matmul64x18_apply (x : Vec Ideal S512x64 .f32) (W : Vec Ideal S64x18 .f32) (r : Fin 512) (m : Fin 18) :
    matmul (F := Ideal) (φ₁ := .f32) (φ₂ := .f32) dot_S512x64_S64x18_S512x18_1_0_0_1_n_n none x W (constant (F := Ideal) S512x18 .f32 0x00000000#32) (ix2 r m)
      = ∑ k : Fin 64, x (ix2 r k) * W (ix2 k m) := by
  unfold matmul
  rw [Ideal.matmul_constant_zero_apply, ← Equiv.sum_comp (contrEquiv1 dot_S512x64_S64x18_S512x18_1_0_0_1_n_n 64 rfl rfl).symm]
  refine Finset.sum_congr rfl fun k _ => ?_
  have hk := contrEquiv1_symm_val dot_S512x64_S64x18_S512x18_1_0_0_1_n_n 64 rfl rfl k
  have el : dot_S512x64_S64x18_S512x18_1_0_0_1_n_n.lhsIdx (ix2 r m) ((contrEquiv1 dot_S512x64_S64x18_S512x18_1_0_0_1_n_n 64 rfl rfl).symm k) = ix2 r k := funext fun a => Fin.ext (by
    match a with
    | ⟨0, _⟩ => exact lhs64x18_0 _ _
    | ⟨1, _⟩ => exact (lhs64x18_1 _ _).trans hk)
  have er : dot_S512x64_S64x18_S512x18_1_0_0_1_n_n.rhsIdx (ix2 r m) ((contrEquiv1 dot_S512x64_S64x18_S512x18_1_0_0_1_n_n 64 rfl rfl).symm k) = ix2 k m := funext fun a => Fin.ext (by
    match a with
    | ⟨0, _⟩ => exact (rhs64x18_0 _ _).trans hk
    | ⟨1, _⟩ => exact rhs64x18_1 _ _)
  rw [el, er]

/-- The bias row spread over the 512 rows, at (r, m): the row's entry m. -/
theorem biasRow18_apply (bR : Vec Ideal S1x18 .f32) (r : Fin 512) (m : Fin 18) :
    broadcastTo S512x18 (shapeCast S1x18 bR shapeCasts_S1x18_S1x18) broadcasts_S1x18_S512x18 (ix2 r m) = bR (ix2 0 m) := by
  rw [shapeCast_self]
  exact broadcastTo_apply bR broadcasts_S1x18_S512x18 (ix2 r m) (ix2 0 m) (fun a => match a with
    | ⟨0, _⟩ => by show 0 = if (1 : Nat) = 1 then 0 else (r : Nat); rw [if_pos rfl]
    | ⟨1, _⟩ => by show (m : Nat) = if (18 : Nat) = 1 then 0 else (m : Nat); rw [if_neg (by decide)])

/-- ONE AFFINE LAYER 64 → 18 as the body spells it (the product from zero, plus the spread bias row) is the
    specification's layer. -/
theorem layer64x18_eq (x : Vec Ideal S512x64 .f32) (W : Vec Ideal S64x18 .f32) (bR : Vec Ideal S1x18 .f32) :
    addf (F := Ideal) (φ := .f32) (matmul (F := Ideal) (φ₁ := .f32) (φ₂ := .f32) dot_S512x64_S64x18_S512x18_1_0_0_1_n_n none x W (constant (F := Ideal) S512x18 .f32 0x00000000#32))
        (broadcastTo S512x18 (shapeCast S1x18 bR shapeCasts_S1x18_S1x18) broadcasts_S1x18_S512x18)
      = GcnSpec.affRow x W bR := by
  funext i
  obtain ⟨r, m, rfl⟩ : ∃ (r : Fin 512) (m : Fin 18), i = ix2 r m := ⟨i 0, i 1, eq_ix2 i⟩
  rw [addf_apply, matmul64x18_apply, biasRow18_apply]
  rfl

/-! ### The layer 18 → 12 -/

/-- The left operand's row coordinate is the result's row. -/
theorem lhs18x12_0 (i : S512x12.Idx) (q : dot_S512x18_S18x12_S512x12_1_0_0_1_n_n.contr.Idx) :
    (dot_S512x18_S18x12_S512x12_1_0_0_1_n_n.lhsIdx i q 0).val = (i 0).val := by
  unfold DotDims.lhsIdx
  rw [dif_neg (show ¬(0 : Fin S512x18.rank) ∈ dot_S512x18_S18x12_S512x12_1_0_0_1_n_n.lhsBatch by decide), dif_pos (show (0 : Fin S512x18.rank) ∈ dot_S512x18_S18x12_S512x12_1_0_0_1_n_n.lhsNonContracting by decide)]
  rfl
/-- The left operand's column coordinate is the summation index. -/
theorem lhs18x12_1 (i : S512x12.Idx) (q : dot_S512x18_S18x12_S512x12_1_0_0_1_n_n.contr.Idx) :
    (dot_S512x18_S18x12_S512x12_1_0_0_1_n_n.lhsIdx i q 1).val = (q ⟨0, by decide⟩).val :=
  dot_S512x18_S18x12_S512x12_1_0_0_1_n_n.lhsIdx_val_of_single rfl i q
/-- The right operand's row coordinate is the summation index. -/
theorem rhs18x12_0 (i : S512x12.Idx) (q : dot_S512x18_S18x12_S512x12_1_0_0_1_n_n.contr.Idx) :
    (dot_S512x18_S18x12_S512x12_1_0_0_1_n_n.rhsIdx i q 0).val = (q ⟨0, by decide⟩).val :=
  dot_S512x18_S18x12_S512x12_1_0_0_1_n_n.rhsIdx_val_of_single rfl i q
/-- The right operand's column coordinate is the result's column. -/
theorem rhs18x12_1 (i : S512x12.Idx) (q : dot_S512x18_S18x12_S512x12_1_0_0_1_n_n.contr.Idx) :
    (dot_S512x18_S18x12_S512x12_1_0_0_1_n_n.rhsIdx i q 1).val = (i 1).val := by
  unfold DotDims.rhsIdx
  rw [dif_neg (show ¬(1 : Fin S18x12.rank) ∈ dot_S512x18_S18x12_S512x12_1_0_0_1_n_n.rhsBatch by decide), dif_pos (show (1 : Fin S18x12.rank) ∈ dot_S512x18_S18x12_S512x12_1_0_0_1_n_n.rhsNonContracting by decide)]
  rfl

/-- The product of 512 x 18 rows with 18 x 12 weights, started from zero, at (r, m): the sum over the 18 shared
    features of row r's entry times the weight's. -/
theorem matmul18x12_apply (x : Vec Ideal S512x18 .f32) (W : Vec Ideal S18x12 .f32) (r : Fin 512) (m : Fin 12) :
    matmul (F := Ideal) (φ₁ := .f32) (φ₂ := .f32) dot_S512x18_S18x12_S512x12_1_0_0_1_n_n none x W (constant (F := Ideal) S512x12 .f32 0x00000000#32) (ix2 r m)
      = ∑ k : Fin 18, x (ix2 r k) * W (ix2 k m) := by
  unfold matmul
  rw [Ideal.matmul_constant_zero_apply, ← Equiv.sum_comp (contrEquiv1 dot_S512x18_S18x12_S512x12_1_0_0_1_n_n 18 rfl rfl).symm]
  refine Finset.sum_congr rfl fun k _ => ?_
  have hk := contrEquiv1_symm_val dot_S512x18_S18x12_S512x12_1_0_0_1_n_n 18 rfl rfl k
  have el : dot_S512x18_S18x12_S512x12_1_0_0_1_n_n.lhsIdx (ix2 r m) ((contrEquiv1 dot_S512x18_S18x12_S512x12_1_0_0_1_n_n 18 rfl rfl).symm k) = ix2 r k := funext fun a => Fin.ext (by
    match a with
    | ⟨0, _⟩ => exact lhs18x12_0 _ _
    | ⟨1, _⟩ => exact (lhs18x12_1 _ _).trans hk)
  have er : dot_S512x18_S18x12_S512x12_1_0_0_1_n_n.rhsIdx (ix2 r m) ((contrEquiv1 dot_S512x18_S18x12_S512x12_1_0_0_1_n_n 18 rfl rfl).symm k) = ix2 k m := funext fun a => Fin.ext (by
    match a with
    | ⟨0, _⟩ => exact (rhs18x12_0 _ _).trans hk
    | ⟨1, _⟩ => exact rhs18x12_1 _ _)
  rw [el, er]

/-- The bias row spread over the 512 rows, at (r, m): the row's entry m. -/
theorem biasRow12_apply (bR : Vec Ideal S1x12 .f32) (r : Fin 512) (m : Fin 12) :
    broadcastTo S512x12 (shapeCast S1x12 bR shapeCasts_S1x12_S1x12) broadcasts_S1x12_S512x12 (ix2 r m) = bR (ix2 0 m) := by
  rw [shapeCast_self]
  exact broadcastTo_apply bR broadcasts_S1x12_S512x12 (ix2 r m) (ix2 0 m) (fun a => match a with
    | ⟨0, _⟩ => by show 0 = if (1 : Nat) = 1 then 0 else (r : Nat); rw [if_pos rfl]
    | ⟨1, _⟩ => by show (m : Nat) = if (12 : Nat) = 1 then 0 else (m : Nat); rw [if_neg (by decide)])

/-- ONE AFFINE LAYER 18 → 12 as the body spells it (the product from zero, plus the spread bias row) is the
    specification's layer. -/
theorem layer18x12_eq (x : Vec Ideal S512x18 .f32) (W : Vec Ideal S18x12 .f32) (bR : Vec Ideal S1x12 .f32) :
    addf (F := Ideal) (φ := .f32) (matmul (F := Ideal) (φ₁ := .f32) (φ₂ := .f32) dot_S512x18_S18x12_S512x12_1_0_0_1_n_n none x W (constant (F := Ideal) S512x12 .f32 0x00000000#32))
        (broadcastTo S512x12 (shapeCast S1x12 bR shapeCasts_S1x12_S1x12) broadcasts_S1x12_S512x12)
      = GcnSpec.affRow x W bR := by
  funext i
  obtain ⟨r, m, rfl⟩ : ∃ (r : Fin 512) (m : Fin 12), i = ix2 r m := ⟨i 0, i 1, eq_ix2 i⟩
  rw [addf_apply, matmul18x12_apply, biasRow12_apply]
  rfl

/-! ### The layer 12 → 6 -/

/-- The left operand's row coordinate is the result's row. -/
theorem lhs12x6_0 (i : S512x6.Idx) (q : dot_S512x12_S12x6_S512x6_1_0_0_1_n_n.contr.Idx) :
    (dot_S512x12_S12x6_S512x6_1_0_0_1_n_n.lhsIdx i q 0).val = (i 0).val := by
  unfold DotDims.lhsIdx
  rw [dif_neg (show ¬(0 : Fin S512x12.rank) ∈ dot_S512x12_S12x6_S512x6_1_0_0_1_n_n.lhsBatch by decide), dif_pos (show (0 : Fin S512x12.rank) ∈ dot_S512x12_S12x6_S512x6_1_0_0_1_n_n.lhsNonContracting by decide)]
  rfl
/-- The left operand's column coordinate is the summation index. -/
theorem lhs12x6_1 (i : S512x6.Idx) (q : dot_S512x12_S12x6_S512x6_1_0_0_1_n_n.contr.Idx) :
    (dot_S512x12_S12x6_S512x6_1_0_0_1_n_n.lhsIdx i q 1).val = (q ⟨0, by decide⟩).val :=
  dot_S512x12_S12x6_S512x6_1_0_0_1_n_n.lhsIdx_val_of_single rfl i q
/-- The right operand's row coordinate is the summation index. -/
theorem rhs12x6_0 (i : S512x6.Idx) (q : dot_S512x12_S12x6_S512x6_1_0_0_1_n_n.contr.Idx) :
    (dot_S512x12_S12x6_S512x6_1_0_0_1_n_n.rhsIdx i q 0).val = (q ⟨0, by decide⟩).val :=
  dot_S512x12_S12x6_S512x6_1_0_0_1_n_n.rhsIdx_val_of_single rfl i q
/-- The right operand's column coordinate is the result's column. -/
theorem rhs12x6_1 (i : S512x6.Idx) (q : dot_S512x12_S12x6_S512x6_1_0_0_1_n_n.contr.Idx) :
    (dot_S512x12_S12x6_S512x6_1_0_0_1_n_n.rhsIdx i q 1).val = (i 1).val := by
  unfold DotDims.rhsIdx
  rw [dif_neg (show ¬(1 : Fin S12x6.rank) ∈ dot_S512x12_S12x6_S512x6_1_0_0_1_n_n.rhsBatch by decide), dif_pos (show (1 : Fin S12x6.rank) ∈ dot_S512x12_S12x6_S512x6_1_0_0_1_n_n.rhsNonContracting by decide)]
  rfl

/-- The product of 512 x 12 rows with 12 x 6 weights, started from zero, at (r, m): the sum over the 12 shared
    features of row r's entry times the weight's. -/
theorem matmul12x6_apply (x : Vec Ideal S512x12 .f32) (W : Vec Ideal S12x6 .f32) (r : Fin 512) (m : Fin 6) :
    matmul (F := Ideal) (φ₁ := .f32) (φ₂ := .f32) dot_S512x12_S12x6_S512x6_1_0_0_1_n_n none x W (constant (F := Ideal) S512x6 .f32 0x00000000#32) (ix2 r m)
      = ∑ k : Fin 12, x (ix2 r k) * W (ix2 k m) := by
  unfold matmul
  rw [Ideal.matmul_constant_zero_apply, ← Equiv.sum_comp (contrEquiv1 dot_S512x12_S12x6_S512x6_1_0_0_1_n_n 12 rfl rfl).symm]
  refine Finset.sum_congr rfl fun k _ => ?_
  have hk := contrEquiv1_symm_val dot_S512x12_S12x6_S512x6_1_0_0_1_n_n 12 rfl rfl k
  have el : dot_S512x12_S12x6_S512x6_1_0_0_1_n_n.lhsIdx (ix2 r m) ((contrEquiv1 dot_S512x12_S12x6_S512x6_1_0_0_1_n_n 12 rfl rfl).symm k) = ix2 r k := funext fun a => Fin.ext (by
    match a with
    | ⟨0, _⟩ => exact lhs12x6_0 _ _
    | ⟨1, _⟩ => exact (lhs12x6_1 _ _).trans hk)
  have er : dot_S512x12_S12x6_S512x6_1_0_0_1_n_n.rhsIdx (ix2 r m) ((contrEquiv1 dot_S512x12_S12x6_S512x6_1_0_0_1_n_n 12 rfl rfl).symm k) = ix2 k m := funext fun a => Fin.ext (by
    match a with
    | ⟨0, _⟩ => exact (rhs12x6_0 _ _).trans hk
    | ⟨1, _⟩ => exact rhs12x6_1 _ _)
  rw [el, er]

/-- The bias row spread over the 512 rows, at (r, m): the row's entry m. -/
theorem biasRow6_apply (bR : Vec Ideal S1x6 .f32) (r : Fin 512) (m : Fin 6) :
    broadcastTo S512x6 (shapeCast S1x6 bR shapeCasts_S1x6_S1x6) broadcasts_S1x6_S512x6 (ix2 r m) = bR (ix2 0 m) := by
  rw [shapeCast_self]
  exact broadcastTo_apply bR broadcasts_S1x6_S512x6 (ix2 r m) (ix2 0 m) (fun a => match a with
    | ⟨0, _⟩ => by show 0 = if (1 : Nat) = 1 then 0 else (r : Nat); rw [if_pos rfl]
    | ⟨1, _⟩ => by show (m : Nat) = if (6 : Nat) = 1 then 0 else (m : Nat); rw [if_neg (by decide)])

/-- ONE AFFINE LAYER 12 → 6 as the body spells it (the product from zero, plus the spread bias row) is the
    specification's layer. -/
theorem layer12x6_eq (x : Vec Ideal S512x12 .f32) (W : Vec Ideal S12x6 .f32) (bR : Vec Ideal S1x6 .f32) :
    addf (F := Ideal) (φ := .f32) (matmul (F := Ideal) (φ₁ := .f32) (φ₂ := .f32) dot_S512x12_S12x6_S512x6_1_0_0_1_n_n none x W (constant (F := Ideal) S512x6 .f32 0x00000000#32))
        (broadcastTo S512x6 (shapeCast S1x6 bR shapeCasts_S1x6_S1x6) broadcasts_S1x6_S512x6)
      = GcnSpec.affRow x W bR := by
  funext i
  obtain ⟨r, m, rfl⟩ : ∃ (r : Fin 512) (m : Fin 6), i = ix2 r m := ⟨i 0, i 1, eq_ix2 i⟩
  rw [addf_apply, matmul12x6_apply, biasRow6_apply]
  rfl

/-! ### The layer 6 → 2 -/

/-- The left operand's row coordinate is the result's row. -/
theorem lhs6x2_0 (i : S512x2.Idx) (q : dot_S512x6_S6x2_S512x2_1_0_0_1_n_n.contr.Idx) :
    (dot_S512x6_S6x2_S512x2_1_0_0_1_n_n.lhsIdx i q 0).val = (i 0).val := by
  unfold DotDims.lhsIdx
  rw [dif_neg (show ¬(0 : Fin S512x6.rank) ∈ dot_S512x6_S6x2_S512x2_1_0_0_1_n_n.lhsBatch by decide), dif_pos (show (0 : Fin S512x6.rank) ∈ dot_S512x6_S6x2_S512x2_1_0_0_1_n_n.lhsNonContracting by decide)]
  rfl
/-- The left operand's column coordinate is the summation index. -/
theorem lhs6x2_1 (i : S512x2.Idx) (q : dot_S512x6_S6x2_S512x2_1_0_0_1_n_n.contr.Idx) :
    (dot_S512x6_S6x2_S512x2_1_0_0_1_n_n.lhsIdx i q 1).val = (q ⟨0, by decide⟩).val :=
  dot_S512x6_S6x2_S512x2_1_0_0_1_n_n.lhsIdx_val_of_single rfl i q
/-- The right operand's row coordinate is the summation index. -/
theorem rhs6x2_0 (i : S512x2.Idx) (q : dot_S512x6_S6x2_S512x2_1_0_0_1_n_n.contr.Idx) :
    (dot_S512x6_S6x2_S512x2_1_0_0_1_n_n.rhsIdx i q 0).val = (q ⟨0, by decide⟩).val :=
  dot_S512x6_S6x2_S512x2_1_0_0_1_n_n.rhsIdx_val_of_single rfl i q
/-- The right operand's column coordinate is the result's column. -/
theorem rhs6x2_1 (i : S512x2.Idx) (q : dot_S512x6_S6x2_S512x2_1_0_0_1_n_n.contr.Idx) :
    (dot_S512x6_S6x2_S512x2_1_0_0_1_n_n.rhsIdx i q 1).val = (i 1).val := by
  unfold DotDims.rhsIdx
  rw [dif_neg (show ¬(1 : Fin S6x2.rank) ∈ dot_S512x6_S6x2_S512x2_1_0_0_1_n_n.rhsBatch by decide), dif_pos (show (1 : Fin S6x2.rank) ∈ dot_S512x6_S6x2_S512x2_1_0_0_1_n_n.rhsNonContracting by decide)]
  rfl

/-- The product of 512 x 6 rows with 6 x 2 weights, started from zero, at (r, m): the sum over the 6 shared
    features of row r's entry times the weight's. -/
theorem matmul6x2_apply (x : Vec Ideal S512x6 .f32) (W : Vec Ideal S6x2 .f32) (r : Fin 512) (m : Fin 2) :
    matmul (F := Ideal) (φ₁ := .f32) (φ₂ := .f32) dot_S512x6_S6x2_S512x2_1_0_0_1_n_n none x W (constant (F := Ideal) S512x2 .f32 0x00000000#32) (ix2 r m)
      = ∑ k : Fin 6, x (ix2 r k) * W (ix2 k m) := by
  unfold matmul
  rw [Ideal.matmul_constant_zero_apply, ← Equiv.sum_comp (contrEquiv1 dot_S512x6_S6x2_S512x2_1_0_0_1_n_n 6 rfl rfl).symm]
  refine Finset.sum_congr rfl fun k _ => ?_
  have hk := contrEquiv1_symm_val dot_S512x6_S6x2_S512x2_1_0_0_1_n_n 6 rfl rfl k
  have el : dot_S512x6_S6x2_S512x2_1_0_0_1_n_n.lhsIdx (ix2 r m) ((contrEquiv1 dot_S512x6_S6x2_S512x2_1_0_0_1_n_n 6 rfl rfl).symm k) = ix2 r k := funext fun a => Fin.ext (by
    match a with
    | ⟨0, _⟩ => exact lhs6x2_0 _ _
    | ⟨1, _⟩ => exact (lhs6x2_1 _ _).trans hk)
  have er : dot_S512x6_S6x2_S512x2_1_0_0_1_n_n.rhsIdx (ix2 r m) ((contrEquiv1 dot_S512x6_S6x2_S512x2_1_0_0_1_n_n 6 rfl rfl).symm k) = ix2 k m := funext fun a => Fin.ext (by
    match a with
    | ⟨0, _⟩ => exact (rhs6x2_0 _ _).trans hk
    | ⟨1, _⟩ => exact rhs6x2_1 _ _)
  rw [el, er]

/-- The bias row spread over the 512 rows, at (r, m): the row's entry m. -/
theorem biasRow2_apply (bR : Vec Ideal S1x2 .f32) (r : Fin 512) (m : Fin 2) :
    broadcastTo S512x2 (shapeCast S1x2 bR shapeCasts_S1x2_S1x2) broadcasts_S1x2_S512x2 (ix2 r m) = bR (ix2 0 m) := by
  rw [shapeCast_self]
  exact broadcastTo_apply bR broadcasts_S1x2_S512x2 (ix2 r m) (ix2 0 m) (fun a => match a with
    | ⟨0, _⟩ => by show 0 = if (1 : Nat) = 1 then 0 else (r : Nat); rw [if_pos rfl]
    | ⟨1, _⟩ => by show (m : Nat) = if (2 : Nat) = 1 then 0 else (m : Nat); rw [if_neg (by decide)])

/-- ONE AFFINE LAYER 6 → 2 as the body spells it (the product from zero, plus the spread bias row) is the
    specification's layer. -/
theorem layer6x2_eq (x : Vec Ideal S512x6 .f32) (W : Vec Ideal S6x2 .f32) (bR : Vec Ideal S1x2 .f32) :
    addf (F := Ideal) (φ := .f32) (matmul (F := Ideal) (φ₁ := .f32) (φ₂ := .f32) dot_S512x6_S6x2_S512x2_1_0_0_1_n_n none x W (constant (F := Ideal) S512x2 .f32 0x00000000#32))
        (broadcastTo S512x2 (shapeCast S1x2 bR shapeCasts_S1x2_S1x2) broadcasts_S1x2_S512x2)
      = GcnSpec.affRow x W bR := by
  funext i
  obtain ⟨r, m, rfl⟩ : ∃ (r : Fin 512) (m : Fin 2), i = ix2 r m := ⟨i 0, i 1, eq_ix2 i⟩
  rw [addf_apply, matmul6x2_apply, biasRow2_apply]
  rfl

variable (V : (c : Dev nD) → (b : Ref sig .tc) → Buf (Elt Ideal) ((c : Thread nD τ).loc b))

/-! ## The body's payload: the four layers chained -/

/-- What the body stores, over its nine loaded blocks, is the specification's four layers of them. -/
theorem mlpPayload_eq (x0 : Vec Ideal S512x64 .f32) (x1 : Vec Ideal S64x18 .f32) (x2 : Vec Ideal S1x18 .f32) (x3 : Vec Ideal S18x12 .f32) (x4 : Vec Ideal S1x12 .f32)
    (x5 : Vec Ideal S12x6 .f32) (x6 : Vec Ideal S1x6 .f32) (x7 : Vec Ideal S6x2 .f32) (x8 : Vec Ideal S1x2 .f32) :
    k2_pay1 (F := Ideal) x0 x1 x2 x3 x4 x5 x6 x7 x8 = GcnSpec.mlpRowsSpec x0 x1 x2 x3 x4 x5 x6 x7 x8 := by
  unfold k2_pay1 GcnSpec.mlpRowsSpec
  dsimp only
  rw [shapeCast_self x0, layer64x18_eq, layer18x12_eq, layer12x6_eq, layer6x2_eq]

/-! ## From the one block to the array -/

/-- The windows' index maps, decided over the one-point grid: every window's block index is 0 on both axes. -/
theorem blockIdx2 : ∀ t : Fin cfg2.N, ∀ a : Fin 2, win2_0.index t a = 0 ∧ win2_1.index t a = 0 ∧ win2_2.index t a = 0
    ∧ win2_3.index t a = 0 ∧ win2_4.index t a = 0 ∧ win2_5.index t a = 0 ∧ win2_6.index t a = 0 ∧ win2_7.index t a = 0
    ∧ win2_8.index t a = 0 ∧ win2_9.index t a = 0 :=
  (by decide +kernel : ∀ t : Fin grid2.N, ∀ a : Fin 2, _)

/-- Window 0's block is its whole 512 x 64 array. -/
theorem iblk2_0_eq (c : Dev nD) (t : Fin cfg2.N) : iblk2 V c 0 t = V c main_v43 := by
  have hz' : (fun a => win2_0.index t a * main_v43.ty.shape.size a) = fun _ => 0 :=
    funext fun a => by rw [(blockIdx2 t a).1]; exact Nat.zero_mul _
  exact Memref.read_access_unit_zero (Elt Ideal) main_v43 hz' (fun a => by rw [congrFun hz' a]; simp) (V c main_v43)

/-- Window 1's block is its whole 64 x 18 array. -/
theorem iblk2_1_eq (c : Dev nD) (t : Fin cfg2.N) : iblk2 V c 1 t = V c main_arg8 := by
  have hz' : (fun a => win2_1.index t a * main_arg8.ty.shape.size a) = fun _ => 0 :=
    funext fun a => by rw [(blockIdx2 t a).2.1]; exact Nat.zero_mul _
  exact Memref.read_access_unit_zero (Elt Ideal) main_arg8 hz' (fun a => by rw [congrFun hz' a]; simp) (V c main_arg8)

/-- Window 2's block is its whole 1 x 18 array. -/
theorem iblk2_2_eq (c : Dev nD) (t : Fin cfg2.N) : iblk2 V c 2 t = V c main_v44 := by
  have hz' : (fun a => win2_2.index t a * main_v44.ty.shape.size a) = fun _ => 0 :=
    funext fun a => by rw [(blockIdx2 t a).2.2.1]; exact Nat.zero_mul _
  exact Memref.read_access_unit_zero (Elt Ideal) main_v44 hz' (fun a => by rw [congrFun hz' a]; simp) (V c main_v44)

/-- Window 3's block is its whole 18 x 12 array. -/
theorem iblk2_3_eq (c : Dev nD) (t : Fin cfg2.N) : iblk2 V c 3 t = V c main_arg10 := by
  have hz' : (fun a => win2_3.index t a * main_arg10.ty.shape.size a) = fun _ => 0 :=
    funext fun a => by rw [(blockIdx2 t a).2.2.2.1]; exact Nat.zero_mul _
  exact Memref.read_access_unit_zero (Elt Ideal) main_arg10 hz' (fun a => by rw [congrFun hz' a]; simp) (V c main_arg10)

/-- Window 4's block is its whole 1 x 12 array. -/
theorem iblk2_4_eq (c : Dev nD) (t : Fin cfg2.N) : iblk2 V c 4 t = V c main_v45 := by
  have hz' : (fun a => win2_4.index t a * main_v45.ty.shape.size a) = fun _ => 0 :=
    funext fun a => by rw [(blockIdx2 t a).2.2.2.2.1]; exact Nat.zero_mul _
  exact Memref.read_access_unit_zero (Elt Ideal) main_v45 hz' (fun a => by rw [congrFun hz' a]; simp) (V c main_v45)

/-- Window 5's block is its whole 12 x 6 array. -/
theorem iblk2_5_eq (c : Dev nD) (t : Fin cfg2.N) : iblk2 V c 5 t = V c main_arg12 := by
  have hz' : (fun a => win2_5.index t a * main_arg12.ty.shape.size a) = fun _ => 0 :=
    funext fun a => by rw [(blockIdx2 t a).2.2.2.2.2.1]; exact Nat.zero_mul _
  exact Memref.read_access_unit_zero (Elt Ideal) main_arg12 hz' (fun a => by rw [congrFun hz' a]; simp) (V c main_arg12)

/-- Window 6's block is its whole 1 x 6 array. -/
theorem iblk2_6_eq (c : Dev nD) (t : Fin cfg2.N) : iblk2 V c 6 t = V c main_v46 := by
  have hz' : (fun a => win2_6.index t a * main_v46.ty.shape.size a) = fun _ => 0 :=
    funext fun a => by rw [(blockIdx2 t a).2.2.2.2.2.2.1]; exact Nat.zero_mul _
  exact Memref.read_access_unit_zero (Elt Ideal) main_v46 hz' (fun a => by rw [congrFun hz' a]; simp) (V c main_v46)

/-- Window 7's block is its whole 6 x 2 array. -/
theorem iblk2_7_eq (c : Dev nD) (t : Fin cfg2.N) : iblk2 V c 7 t = V c main_arg14 := by
  have hz' : (fun a => win2_7.index t a * main_arg14.ty.shape.size a) = fun _ => 0 :=
    funext fun a => by rw [(blockIdx2 t a).2.2.2.2.2.2.2.1]; exact Nat.zero_mul _
  exact Memref.read_access_unit_zero (Elt Ideal) main_arg14 hz' (fun a => by rw [congrFun hz' a]; simp) (V c main_arg14)

/-- Window 8's block is its whole 1 x 2 array. -/
theorem iblk2_8_eq (c : Dev nD) (t : Fin cfg2.N) : iblk2 V c 8 t = V c main_v47 := by
  have hz' : (fun a => win2_8.index t a * main_v47.ty.shape.size a) = fun _ => 0 :=
    funext fun a => by rw [(blockIdx2 t a).2.2.2.2.2.2.2.2.1]; exact Nat.zero_mul _
  exact Memref.read_access_unit_zero (Elt Ideal) main_v47 hz' (fun a => by rw [congrFun hz' a]; simp) (V c main_v47)

/-- WHAT THE ONE POINT WRITES BACK is the specification's four layers of the nine arrays, the whole 512 x 2 array. -/
theorem flushed9_eq (c : Dev nD) (t : Fin cfg2.N) :
    (dat2 (F := Ideal) V c).flushed 9 t = ((cfg2.win 9).blk t).view.read (Elt Ideal) (GcnSpec.mlpRowsSpec (V c main_v43) (V c main_arg8) (V c main_v44) (V c main_arg10) (V c main_v45) (V c main_arg12)
          (V c main_v46) (V c main_arg14) (V c main_v47)) := by
  show (cfg2.win 9).cut (grid2.coords t) ((dat2 V c).after 9 t) = _
  rw [after2_9, mlpOut_eq, iblk2_0_eq, iblk2_1_eq, iblk2_2_eq, iblk2_3_eq, iblk2_4_eq, iblk2_5_eq, iblk2_6_eq, iblk2_7_eq, iblk2_8_eq, mlpPayload_eq]
  have hz' : (fun a => win2_9.index t a * main_v48.ty.shape.size a) = fun _ => 0 :=
    funext fun a => by rw [(blockIdx2 t a).2.2.2.2.2.2.2.2.2]; exact Nat.zero_mul _
  exact (Memref.read_access_unit_zero (Elt Ideal) main_v48 hz' (fun a => by rw [congrFun hz' a]; simp) _).symm

/-- An index of the 512 x 2 array is in point `t`'s block iff each coordinate is in the block's range on its axis. -/
theorem mem_blk9 (t : Fin cfg2.N) (i : S512x2.Idx) :
    i ∈ ((cfg2.win 9).blk t).view.set
      ↔ ∀ a : Fin 2, win2_9.index t a * S512x2.size a ≤ (i a).val ∧ (i a).val < win2_9.index t a * S512x2.size a + S512x2.size a := by
  show i ∈ ((View.whole main_v48).slice (win2_9.rect t)).set ↔ _
  rw [View.set_slice_whole, Rect.mem_set_unit]
  exact Iff.rfl

/-- The one point writes its block back, and the block holds every index of the array. -/
theorem cover9 (i : S512x2.Idx) : ∃ t : Fin cfg2.N, (cfg2.win 9).flush t = true ∧ i ∈ ((cfg2.win 9).blk t).view.set := by
  refine ⟨t2_0, flush2_9 t2_0, ?_⟩
  rw [mem_blk9]
  intro a
  rw [(blockIdx2 t2_0 a).2.2.2.2.2.2.2.2.2, Nat.zero_mul, Nat.zero_add]
  exact ⟨Nat.zero_le _, (i a).isLt⟩

/-- THE ARRAY region 2 leaves: the specification's four affine layers of the nine arrays the region finds
    (the pooled rows; each weight matrix and its bias as a row). -/
theorem mlp_array (c : Dev nD) :
    (dat2 (F := Ideal) V c).arrAt 9 cfg2.N
      = GcnSpec.mlpRowsSpec (V c main_v43) (V c main_arg8) (V c main_v44) (V c main_arg10) (V c main_v45) (V c main_arg12)
          (V c main_v46) (V c main_arg14) (V c main_v47) :=
  (dat2 (F := Ideal) V c).arrAt_eq_of_cover 9 _ (fun t _ => flushed9_eq V c t) cover9

end Cert.KernelIdeal.Hand

end
-- ==== Proof.RefStages.lean ====
/-
  The reference, stage by stage, against the specification. Its host program computes the two degree scales twice (once per
  layer): the second computations are the first ones again. Its layer-one epilogue and layer-two projection (a dot_general,
  two broadcasts of the scales, a bias broadcast, a maximum with zero, a second dot_general) is `convSpec` of its
  aggregated features; its per-graph mean (two accumulating scatters by the graph ids, a clamp, a division) is `poolSpec`:
  an update of the scatter lands on row g exactly when the graph-id word, read signed, is the number g; its classifier is
  `mlpSpec`. The gather-and-scatter that carries the projected features to their neighbours is kept as ONE function of
  the projected features (`g2Of`): the kernel's program applies the very same host operations.
-/
import proofs.«417467_j50448685859136_2_alg».proof.Proof.Gen.ReferenceIdeal.Read
import proofs.«417467_j50448685859136_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Stage

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

section AnyInstance
variable {F : FTy → Type} [FloatOps F]

/-- The out-degree scales computed for the second layer are those computed for the first. -/
theorem sOut_again (x1 : (⟨S1600000, .i32⟩ : BufTy).Contents (Elt F)) : val_main_v44 (F := F) x1 = val_main_v10 (F := F) x1 := by
  unfold val_main_v44 val_main_v10 val_main_v38 val_main_v4 val_main_v37 val_main_v3 val_main_v43 val_main_v9
    val_main_call3_v1 val_main_call0_v1 val_main_call3_v0 val_main_call0_v0 val_main_cst_10 val_main_cst_1
    val_main_cst_13 val_main_cst_4 val_main_v35 val_main_v1 val_main_v36 val_main_v2 val_main_v34 val_main_v0
    val_main_cst_9 val_main_cst_0 val_main_cst_8 val_main_cst
  rfl

/-- The in-degree scales computed for the second layer are those computed for the first. -/
theorem sIn_again (x2 : (⟨S1600000, .i32⟩ : BufTy).Contents (Elt F)) : val_main_v60 (F := F) x2 = val_main_v26 (F := F) x2 := by
  unfold val_main_v60 val_main_v26 val_main_v42 val_main_v8 val_main_v41 val_main_v7 val_main_v59 val_main_v25
    val_main_call4_v1 val_main_call1_v1 val_main_call4_v0 val_main_call1_v0 val_main_cst_12 val_main_cst_3
    val_main_cst_17 val_main_cst_7 val_main_v39 val_main_v5 val_main_v40 val_main_v6 val_main_v34 val_main_v0
    val_main_cst_11 val_main_cst_2 val_main_cst_8 val_main_cst
  rfl

/-- The aggregated second-layer features as a function of the projected features `p`: gather the source rows, add them
    into the destination rows. -/
def g2Of (p : (⟨S100000x64, .f32⟩ : BufTy).Contents (Elt F)) (x1 x2 : (⟨S1600000, .i32⟩ : BufTy).Contents (Elt F)) : (⟨S100000x64, .f32⟩ : BufTy).Contents (Elt F) :=
  Host.scatterAdd scatter_S100000x64_S1600000x1_S1600000x64_1_0_0_1 (val_main_v56 (F := F)) (val_main_v57 (F := F) x2)
    (Host.gather gather_S100000x64_S1600000x1_S1600000x64_1_0_n_n_0_1_164 p (val_main_v54 (F := F) x1))

theorem g2_ref (x0 : (⟨S100000x128, .f32⟩ : BufTy).Contents (Elt F)) (x1 x2 : (⟨S1600000, .i32⟩ : BufTy).Contents (Elt F)) (x4 : (⟨S128x256, .f32⟩ : BufTy).Contents (Elt F)) (x5 : (⟨S256, .f32⟩ : BufTy).Contents (Elt F)) (x6 : (⟨S256x64, .f32⟩ : BufTy).Contents (Elt F)) :
    val_main_v58 (F := F) x0 x1 x2 x4 x5 x6 = g2Of (val_main_v48 (F := F) x0 x1 x2 x4 x5 x6) x1 x2 := by
  unfold val_main_v58 val_main_v55 g2Of
  rfl

end AnyInstance

/-- The reference's projected features are the specification's, of its aggregated first-layer features, its two scales and
    the weights. -/
theorem conv_ref (x0 : (⟨S100000x128, .f32⟩ : BufTy).Contents (Elt Ideal)) (x1 x2 : (⟨S1600000, .i32⟩ : BufTy).Contents (Elt Ideal)) (x4 : (⟨S128x256, .f32⟩ : BufTy).Contents (Elt Ideal)) (x5 : (⟨S256, .f32⟩ : BufTy).Contents (Elt Ideal)) (x6 : (⟨S256x64, .f32⟩ : BufTy).Contents (Elt Ideal)) :
    val_main_v48 (F := Ideal) x0 x1 x2 x4 x5 x6
      = GcnSpec.convSpec (val_main_v23 (F := Ideal) x0 x1 x2) x4 (val_main_v26 (F := Ideal) x2) x5 (val_main_v10 (F := Ideal) x1) x6 := by
  funext i
  -- the composed index maps of the stages, read as coordinates: row (i 0), hidden feature k, input feature j
  have eL : ∀ (k : Fin 256) (j : Fin 128), lidx_main_v24 (lidx_main_v48 i k) j = ix2 (GcnSpec.c0 i) j := fun k j =>
    funext fun a => Fin.ext (by match a with | ⟨0, _⟩ => rfl | ⟨1, _⟩ => rfl)
  have eR : ∀ (k : Fin 256) (j : Fin 128), ridx_main_v24 (lidx_main_v48 i k) j = ix2 j k := fun k j =>
    funext fun a => Fin.ext (by match a with | ⟨0, _⟩ => rfl | ⟨1, _⟩ => rfl)
  have eI : ∀ k : Fin 256, idx_main_v27 (idx_main_v28 (lidx_main_v48 i k)) = ix1 (GcnSpec.c0 i) := fun k =>
    funext fun a => Fin.ext (by match a with | ⟨0, _⟩ => rfl)
  have eB : ∀ k : Fin 256, idx_main_v30 (idx_main_v31 (lidx_main_v48 i k)) = ix1 k := fun k =>
    funext fun a => Fin.ext (by match a with | ⟨0, _⟩ => rfl)
  have eO : ∀ k : Fin 256, idx_main_v45 (idx_main_v46 (lidx_main_v48 i k)) = ix1 (GcnSpec.c0 i) := fun k =>
    funext fun a => Fin.ext (by match a with | ⟨0, _⟩ => rfl)
  have eW : ∀ k : Fin 256, ridx_main_v48 i k = ix2 k (GcnSpec.c1 i) := fun k =>
    funext fun a => Fin.ext (by match a with | ⟨0, _⟩ => rfl | ⟨1, _⟩ => rfl)
  -- both sides are a sum over the 256 hidden features; the summands agree feature by feature
  rw [val_main_v48_apply]
  simp only [GcnSpec.convSpec, GcnSpec.convAt, GcnSpec.hid1At]
  refine Finset.sum_congr rfl fun k _ => ?_
  rw [val_main_v47_apply, val_main_v33_apply, val_main_v32_apply, val_main_v29_apply, val_main_v24_apply,
    val_main_v28_apply, val_main_v27_apply, val_main_v31_apply, val_main_v30_apply, val_main_v46_apply, val_main_v45_apply,
    sOut_again, val_main_call2_v0_apply, val_main_call2_cst_apply, eI, eB, eO, eW]
  simp only [eL, eR, Ideal.mulf_def, Ideal.addf_def, Ideal.maximumf_def, Ideal.ofBits_def]

/-! ## The accumulating scatters by the graph ids, read at an index -/

/-- A 32-bit word read signed is the number `g` below 512 exactly when it is the word of `g`. -/
theorem toInt_eq_small (x : BitVec 32) (g : Nat) (hg : g < 512) : x.toInt = (g : ℤ) ↔ x = BitVec.ofNat 32 g := by
  have hx : x.toNat < 4294967296 := x.isLt
  constructor
  · intro h
    apply BitVec.eq_of_toNat_eq
    rw [BitVec.toNat_ofNat, Nat.mod_eq_of_lt (by omega)]
    rw [BitVec.toInt_eq_toNat_cond] at h
    split at h <;> omega
  · rintro rfl
    rw [BitVec.toInt_eq_toNat_cond, BitVec.toNat_ofNat, Nat.mod_eq_of_lt (by omega), if_pos (by omega)]

/-- An axis of a rank-2 operand is the first or the second. -/
theorem axis2_cases (a : Fin S512x64.rank) : a = 0 ∨ a = 1 := by
  have h : a.val < 2 := a.isLt
  rcases Nat.lt_or_ge a.val 1 with h0 | h1
  · left; exact Fin.ext (by show a.val = 0; omega)
  · right; exact Fin.ext (by show a.val = 1; omega)

section RowScatter
variable {w : Nat} (n : Fin 100000) (b : Fin 64) (idx : IVec S100000x1 w)

/-- The row scatter's start on the row axis: the index word of update row `n`, read signed. -/
theorem rowScatter_start0 : scatter_S512x64_S100000x1_S100000x64_1_0_0_1.start (ix2 n b) idx 0 = (idx (ix2 n (0 : Fin 1))).toInt := by
  unfold ScatterDims.start
  rw [dif_pos (show (0 : Fin S512x64.rank) ∈ scatter_S512x64_S100000x1_S100000x64_1_0_0_1.scatterDimsToOperandDims by decide)]
  have hsi : scatter_S512x64_S100000x1_S100000x64_1_0_0_1.siIdx (ix2 n b) ⟨List.idxOf (0 : Fin S512x64.rank) scatter_S512x64_S100000x1_S100000x64_1_0_0_1.scatterDimsToOperandDims,
      List.idxOf_lt_length_iff.2 (by decide)⟩ = ix2 n (0 : Fin 1) := by
    funext c; refine Fin.ext ?_
    match c with
    | ⟨0, _⟩ => rfl
    | ⟨1, _⟩ => rfl
  rw [hsi]
/-- … and nothing on the feature axis. -/
theorem rowScatter_start1 : scatter_S512x64_S100000x1_S100000x64_1_0_0_1.start (ix2 n b) idx 1 = 0 := by
  unfold ScatterDims.start
  rw [dif_neg (show ¬(1 : Fin S512x64.rank) ∈ scatter_S512x64_S100000x1_S100000x64_1_0_0_1.scatterDimsToOperandDims by decide)]
/-- The window coordinate is nothing on the (inserted) row axis … -/
theorem rowScatter_window0 : scatter_S512x64_S100000x1_S100000x64_1_0_0_1.window (ix2 n b) 0 = 0 := by
  unfold ScatterDims.window
  rw [dif_neg (show ¬(0 : Fin S512x64.rank) ∈ scatter_S512x64_S100000x1_S100000x64_1_0_0_1.sKept by decide)]
/-- … and the update's feature on the feature axis. -/
theorem rowScatter_window1 : scatter_S512x64_S100000x1_S100000x64_1_0_0_1.window (ix2 n b) 1 = b.val := by
  unfold ScatterDims.window
  rw [dif_pos (show (1 : Fin S512x64.rank) ∈ scatter_S512x64_S100000x1_S100000x64_1_0_0_1.sKept by decide)]
  rfl

/-- Update element (n, b) lands on operand element i exactly when row n's index word, read signed, is i's row and b is i's
    feature. -/
theorem rowScatter_iff (i : S512x64.Idx) :
    scatter_S512x64_S100000x1_S100000x64_1_0_0_1.resultIdx? (ix2 n b) idx = some i
      ↔ (idx (ix2 n (0 : Fin 1))).toInt = ((i 0).val : ℤ) ∧ b.val = (i 1).val := by
  have hi0 : (i 0).val < 512 := (i 0).isLt
  have hi1 : (i 1).val < 64 := (i 1).isLt
  have hb : b.val < 64 := b.isLt
  unfold ScatterDims.resultIdx?
  constructor
  · intro h
    by_cases hc : ∀ a, 0 ≤ scatter_S512x64_S100000x1_S100000x64_1_0_0_1.start (ix2 n b) idx a + scatter_S512x64_S100000x1_S100000x64_1_0_0_1.window (ix2 n b) a
        ∧ scatter_S512x64_S100000x1_S100000x64_1_0_0_1.start (ix2 n b) idx a + scatter_S512x64_S100000x1_S100000x64_1_0_0_1.window (ix2 n b) a < S512x64.size a
    · rw [dif_pos hc] at h
      have h' := Option.some.inj h
      have e0 : (scatter_S512x64_S100000x1_S100000x64_1_0_0_1.start (ix2 n b) idx 0 + scatter_S512x64_S100000x1_S100000x64_1_0_0_1.window (ix2 n b) 0).toNat = (i 0).val :=
        congrArg (fun f => (f 0).val) h'
      have e1 : (scatter_S512x64_S100000x1_S100000x64_1_0_0_1.start (ix2 n b) idx 1 + scatter_S512x64_S100000x1_S100000x64_1_0_0_1.window (ix2 n b) 1).toNat = (i 1).val :=
        congrArg (fun f => (f 1).val) h'
      have c0 := (hc 0).1
      rw [rowScatter_start0, rowScatter_window0] at e0 c0
      rw [rowScatter_start1, rowScatter_window1] at e1
      constructor <;> omega
    · rw [dif_neg hc] at h; cases h
  · rintro ⟨h0, h1⟩
    have hc : ∀ a, 0 ≤ scatter_S512x64_S100000x1_S100000x64_1_0_0_1.start (ix2 n b) idx a + scatter_S512x64_S100000x1_S100000x64_1_0_0_1.window (ix2 n b) a
        ∧ scatter_S512x64_S100000x1_S100000x64_1_0_0_1.start (ix2 n b) idx a + scatter_S512x64_S100000x1_S100000x64_1_0_0_1.window (ix2 n b) a < S512x64.size a := by
      intro a
      rcases axis2_cases a with rfl | rfl
      · rw [rowScatter_start0, rowScatter_window0, h0]
        constructor
        · omega
        · show ((i 0).val : ℤ) + ((0 : Nat) : ℤ) < ((512 : Nat) : ℤ); omega
      · rw [rowScatter_start1, rowScatter_window1]
        constructor
        · omega
        · show (0 : ℤ) + (b.val : ℤ) < ((64 : Nat) : ℤ); omega
    rw [dif_pos hc]
    congr 1
    funext a
    refine Fin.ext ?_
    rcases axis2_cases a with rfl | rfl
    · show (scatter_S512x64_S100000x1_S100000x64_1_0_0_1.start (ix2 n b) idx 0 + scatter_S512x64_S100000x1_S100000x64_1_0_0_1.window (ix2 n b) 0).toNat = (i 0).val
      rw [rowScatter_start0, rowScatter_window0, h0]; omega
    · show (scatter_S512x64_S100000x1_S100000x64_1_0_0_1.start (ix2 n b) idx 1 + scatter_S512x64_S100000x1_S100000x64_1_0_0_1.window (ix2 n b) 1).toNat = (i 1).val
      rw [rowScatter_start1, rowScatter_window1]; omega

end RowScatter

/-- A sum over the elements a predicate keeps is the sum of the kept values and zeros, whatever decision procedure the
    filter carries. -/
theorem sum_filter_inst {α M : Type*} [AddCommMonoid M] (s : Finset α) (p : α → Prop) (inst : DecidablePred p) (f : α → M) :
    ∑ a ∈ @Finset.filter α p inst s, f a = ∑ a ∈ s, @ite M (p a) (inst a) (f a) 0 :=
  Finset.sum_filter p f

/-- The row scatter at an index, over the extended reals: operand element i plus the rows whose index word, read signed, is
    i's row, each at i's feature. -/
theorem rowScatter_apply {w : Nat} (x : S512x64.Idx → EReal) (idx : IVec S100000x1 w) (upd : S100000x64.Idx → EReal) (i : S512x64.Idx) :
    Ideal.hostScatterAdd scatter_S512x64_S100000x1_S100000x64_1_0_0_1 x idx upd i
      = x i + ∑ n : Fin 100000, if (idx (ix2 n (0 : Fin 1))).toInt = ((i 0).val : ℤ) then upd (ix2 n (GcnSpec.c1 i)) else 0 := by
  unfold Ideal.hostScatterAdd
  refine congrArg (x i + ·) ?_
  refine (sum_filter_inst _ _ _ _).trans ?_
  refine (sum_idx2 (n0 := 100000) (n1 := 64) _).trans ?_
  refine Finset.sum_congr rfl fun n _ => ?_
  simp only [rowScatter_iff]
  by_cases hP : (idx (ix2 n (0 : Fin 1))).toInt = ((i 0).val : ℤ)
  · simp only [hP, true_and, if_true]
    rw [Finset.sum_eq_single (GcnSpec.c1 i)]
    · rw [if_pos rfl]
    · intro b _ hb
      rw [if_neg (fun h => hb (Fin.ext h))]
    · intro h; exact absurd (Finset.mem_univ _) h
  · simp only [hP, false_and, if_false, Finset.sum_const_zero]

/-- A rank-1 index set is its one coordinate's range, so a sum over it is the sum over the coordinate. -/
theorem sum_idx1 {M : Type*} [AddCommMonoid M] {n0 : Nat} (f : (⟨1, ![n0]⟩ : Shape).Idx → M) :
    ∑ i, f i = ∑ a : Fin n0, f (ix1 a) := by
  let e : (⟨1, ![n0]⟩ : Shape).Idx ≃ Fin n0 :=
    { toFun := fun i => i 0, invFun := fun a => ix1 a, left_inv := fun i => (eq_ix1 i).symm, right_inv := fun _ => rfl }
  rw [← Equiv.sum_comp e.symm f]
  rfl

section CountScatter
variable {w : Nat} (n : Fin 100000) (idx : IVec S100000x1 w)

/-- The count scatter's start: the index word of update n, read signed. -/
theorem countScatter_start0 : scatter_S512_S100000x1_S100000_n_0_0_1.start (ix1 n) idx 0 = (idx (ix2 n (0 : Fin 1))).toInt := by
  unfold ScatterDims.start
  rw [dif_pos (show (0 : Fin S512.rank) ∈ scatter_S512_S100000x1_S100000_n_0_0_1.scatterDimsToOperandDims by decide)]
  have hsi : scatter_S512_S100000x1_S100000_n_0_0_1.siIdx (ix1 n) ⟨List.idxOf (0 : Fin S512.rank) scatter_S512_S100000x1_S100000_n_0_0_1.scatterDimsToOperandDims,
      List.idxOf_lt_length_iff.2 (by decide)⟩ = ix2 n (0 : Fin 1) := by
    funext c; refine Fin.ext ?_
    match c with
    | ⟨0, _⟩ => rfl
    | ⟨1, _⟩ => rfl
  rw [hsi]
/-- It has no window: its one operand axis is inserted. -/
theorem countScatter_window0 : scatter_S512_S100000x1_S100000_n_0_0_1.window (ix1 n) 0 = 0 := by
  unfold ScatterDims.window
  rw [dif_neg (show ¬(0 : Fin S512.rank) ∈ scatter_S512_S100000x1_S100000_n_0_0_1.sKept by decide)]

/-- Update n lands on operand element i exactly when its index word, read signed, is i. -/
theorem countScatter_iff (i : S512.Idx) :
    scatter_S512_S100000x1_S100000_n_0_0_1.resultIdx? (ix1 n) idx = some i ↔ (idx (ix2 n (0 : Fin 1))).toInt = ((i 0).val : ℤ) := by
  have hi0 : (i 0).val < 512 := (i 0).isLt
  have hax : ∀ a : Fin S512.rank, a = 0 := fun a => Fin.ext (by
    have h : a.val < 1 := a.isLt
    show a.val = 0; omega)
  unfold ScatterDims.resultIdx?
  constructor
  · intro h
    by_cases hc : ∀ a, 0 ≤ scatter_S512_S100000x1_S100000_n_0_0_1.start (ix1 n) idx a + scatter_S512_S100000x1_S100000_n_0_0_1.window (ix1 n) a
        ∧ scatter_S512_S100000x1_S100000_n_0_0_1.start (ix1 n) idx a + scatter_S512_S100000x1_S100000_n_0_0_1.window (ix1 n) a < S512.size a
    · rw [dif_pos hc] at h
      have h' := Option.some.inj h
      have e0 : (scatter_S512_S100000x1_S100000_n_0_0_1.start (ix1 n) idx 0 + scatter_S512_S100000x1_S100000_n_0_0_1.window (ix1 n) 0).toNat = (i 0).val :=
        congrArg (fun f => (f 0).val) h'
      have c0 := (hc 0).1
      rw [countScatter_start0, countScatter_window0] at e0 c0
      omega
    · rw [dif_neg hc] at h; cases h
  · intro h0
    have hc : ∀ a, 0 ≤ scatter_S512_S100000x1_S100000_n_0_0_1.start (ix1 n) idx a + scatter_S512_S100000x1_S100000_n_0_0_1.window (ix1 n) a
        ∧ scatter_S512_S100000x1_S100000_n_0_0_1.start (ix1 n) idx a + scatter_S512_S100000x1_S100000_n_0_0_1.window (ix1 n) a < S512.size a := by
      intro a
      rw [hax a, countScatter_start0, countScatter_window0, h0]
      constructor
      · omega
      · show ((i 0).val : ℤ) + ((0 : Nat) : ℤ) < ((512 : Nat) : ℤ); omega
    rw [dif_pos hc]
    congr 1
    funext a
    refine Fin.ext ?_
    rw [hax a]
    show (scatter_S512_S100000x1_S100000_n_0_0_1.start (ix1 n) idx 0 + scatter_S512_S100000x1_S100000_n_0_0_1.window (ix1 n) 0).toNat = (i 0).val
    rw [countScatter_start0, countScatter_window0, h0]; omega

end CountScatter

/-- The count scatter at an index, over the extended reals: operand element i plus the updates whose index word, read signed,
    is i. -/
theorem countScatter_apply {w : Nat} (x : S512.Idx → EReal) (idx : IVec S100000x1 w) (upd : S100000.Idx → EReal) (i : S512.Idx) :
    Ideal.hostScatterAdd scatter_S512_S100000x1_S100000_n_0_0_1 x idx upd i
      = x i + ∑ n : Fin 100000, if (idx (ix2 n (0 : Fin 1))).toInt = ((i 0).val : ℤ) then upd (ix1 n) else 0 := by
  unfold Ideal.hostScatterAdd
  refine congrArg (x i + ·) ?_
  refine (sum_filter_inst _ _ _ _).trans ?_
  refine (sum_idx1 (n0 := 100000) _).trans ?_
  refine Finset.sum_congr rfl fun n _ => ?_
  simp only [countScatter_iff]

/-- The reference's per-graph sums: at graph (i 0) and feature (i 1), the second layer's activations of the rows whose
    graph-id word is the number (i 0). -/
theorem poolSum_ref (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S100000, .i32⟩ : BufTy).Contents (Elt Ideal)) (x4 : (⟨S128x256, .f32⟩ : BufTy).Contents (Elt Ideal)) (x5 : (⟨S256, .f32⟩ : BufTy).Contents (Elt Ideal)) (x6 : (⟨S256x64, .f32⟩ : BufTy).Contents (Elt Ideal)) (x7 : (⟨S64, .f32⟩ : BufTy).Contents (Elt Ideal)) (i : S512x64.Idx) :
    val_main_v70 (F := Ideal) x0 x1 x2 x3 x4 x5 x6 x7 i
      = ∑ n : Fin 100000, if x3 (ix1 n) = BitVec.ofNat 32 (i 0).val
          then GcnSpec.hid2At (val_main_v58 (F := Ideal) x0 x1 x2 x4 x5 x6) (val_main_v26 (F := Ideal) x2) x7 n (GcnSpec.c1 i) else 0 := by
  have hi0 : (i 0).val < 512 := (i 0).isLt
  unfold val_main_v70 Host.scatterAdd
  rw [Ideal.hostScatterAdd_def, rowScatter_apply, val_main_v68_apply, val_main_cst_18_apply, Ideal.ofBits_def,
    Ideal.ofBits_zero_f32, zero_add]
  refine Finset.sum_congr rfl fun n _ => ?_
  have e69 : idx_main_v69 (ix2 n (0 : Fin 1)) = ix1 n := funext fun a => Fin.ext (by match a with | ⟨0, _⟩ => rfl)
  have e62 : idx_main_v61 (idx_main_v62 (ix2 n (GcnSpec.c1 i))) = ix1 n :=
    funext fun a => Fin.ext (by match a with | ⟨0, _⟩ => rfl)
  have e65 : idx_main_v64 (idx_main_v65 (ix2 n (GcnSpec.c1 i))) = ix1 (GcnSpec.c1 i) :=
    funext fun a => Fin.ext (by match a with | ⟨0, _⟩ => rfl)
  -- the row's activation: relu(g2 * s_in + b2), the in-degree scale being the first layer's
  have hv : val_main_v67 (F := Ideal) x0 x1 x2 x4 x5 x6 x7 (ix2 n (GcnSpec.c1 i))
      = GcnSpec.hid2At (val_main_v58 (F := Ideal) x0 x1 x2 x4 x5 x6) (val_main_v26 (F := Ideal) x2) x7 n (GcnSpec.c1 i) := by
    rw [val_main_v67_apply, val_main_v66_apply, val_main_v63_apply, val_main_v62_apply, val_main_v61_apply, sIn_again,
      val_main_v65_apply, val_main_v64_apply, val_main_call5_v0_apply, val_main_call5_cst_apply, e62, e65]
    simp only [Ideal.mulf_def, Ideal.addf_def, Ideal.maximumf_def, Ideal.ofBits_def, GcnSpec.hid2At]
  -- the row belongs to the graph: its word, read signed, is the graph's number
  have hc : (val_main_v69 (F := Ideal) x3 (ix2 n (0 : Fin 1))).toInt = ((i 0).val : ℤ)
      ↔ x3 (ix1 n) = BitVec.ofNat 32 (i 0).val := by
    rw [val_main_v69_apply, e69]
    exact toInt_eq_small _ _ hi0
  rw [hv]
  exact if_congr hc rfl rfl

/-- The reference's per-graph counts: one for every row whose graph-id word is the number (i 0). -/
theorem poolCount_ref (x3 : (⟨S100000, .i32⟩ : BufTy).Contents (Elt Ideal)) (i : S512.Idx) :
    val_main_v74 (F := Ideal) x3 i
      = ∑ n : Fin 100000, if x3 (ix1 n) = BitVec.ofNat 32 (i 0).val then GcnSpec.oneW else 0 := by
  have hi0 : (i 0).val < 512 := (i 0).isLt
  unfold val_main_v74 Host.scatterAdd
  rw [Ideal.hostScatterAdd_def, countScatter_apply, val_main_v72_apply, val_main_cst_20_apply, Ideal.ofBits_def,
    Ideal.ofBits_zero_f32, zero_add]
  refine Finset.sum_congr rfl fun n _ => ?_
  have e73 : idx_main_v73 (ix2 n (0 : Fin 1)) = ix1 n := funext fun a => Fin.ext (by match a with | ⟨0, _⟩ => rfl)
  have hc : (val_main_v73 (F := Ideal) x3 (ix2 n (0 : Fin 1))).toInt = ((i 0).val : ℤ)
      ↔ x3 (ix1 n) = BitVec.ofNat 32 (i 0).val := by
    rw [val_main_v73_apply, e73]
    exact toInt_eq_small _ _ hi0
  rw [val_main_v71_apply, val_main_cst_19_apply, Ideal.ofBits_def]
  exact if_congr hc rfl rfl

/-- The reference's per-graph means are the specification's, of its aggregated second-layer features, the in-degree scales,
    the bias and the graph ids. -/
theorem pool_ref (x0 : (⟨S100000x128, .f32⟩ : BufTy).Contents (Elt Ideal)) (x1 x2 : (⟨S1600000, .i32⟩ : BufTy).Contents (Elt Ideal)) (x3 : (⟨S100000, .i32⟩ : BufTy).Contents (Elt Ideal)) (x4 : (⟨S128x256, .f32⟩ : BufTy).Contents (Elt Ideal)) (x5 : (⟨S256, .f32⟩ : BufTy).Contents (Elt Ideal)) (x6 : (⟨S256x64, .f32⟩ : BufTy).Contents (Elt Ideal)) (x7 : (⟨S64, .f32⟩ : BufTy).Contents (Elt Ideal)) :
    val_main_v78 (F := Ideal) x0 x1 x2 x3 x4 x5 x6 x7
      = GcnSpec.poolSpec (val_main_v58 (F := Ideal) x0 x1 x2 x4 x5 x6) (val_main_v26 (F := Ideal) x2) x7 x3 := by
  funext i
  rw [val_main_v78_apply, val_main_v77_apply, val_main_v76_apply, val_main_v75_apply, val_main_call6_v1_apply,
    val_main_call6_v0_apply, val_main_cst_21_apply, poolSum_ref, poolCount_ref, Ideal.hostDivf_def, Ideal.maximumf_def,
    Ideal.ofBits_def, max_comm]
  rfl

/-- The classifier's first layer: the per-graph means times the 64 x 18 weights, plus the bias. -/
theorem aff1_ref (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S100000, .i32⟩ : BufTy).Contents (Elt Ideal)) (x4 : (⟨S128x256, .f32⟩ : BufTy).Contents (Elt Ideal)) (x5 : (⟨S256, .f32⟩ : BufTy).Contents (Elt Ideal)) (x6 : (⟨S256x64, .f32⟩ : BufTy).Contents (Elt Ideal)) (x7 : (⟨S64, .f32⟩ : BufTy).Contents (Elt Ideal)) (x8 : (⟨S64x18, .f32⟩ : BufTy).Contents (Elt Ideal)) (x9 : (⟨S18, .f32⟩ : BufTy).Contents (Elt Ideal)) :
    val_main_v82 (F := Ideal) x0 x1 x2 x3 x4 x5 x6 x7 x8 x9 = GcnSpec.aff (val_main_v78 (F := Ideal) x0 x1 x2 x3 x4 x5 x6 x7) x8 x9 := by
  funext i
  have eL : ∀ k : Fin 64, lidx_main_v79 i k = ix2 (GcnSpec.c0 i) k := fun k =>
    funext fun a => Fin.ext (by match a with | ⟨0, _⟩ => rfl | ⟨1, _⟩ => rfl)
  have eR : ∀ k : Fin 64, ridx_main_v79 i k = ix2 k (GcnSpec.c1 i) := fun k =>
    funext fun a => Fin.ext (by match a with | ⟨0, _⟩ => rfl | ⟨1, _⟩ => rfl)
  have eB : idx_main_v80 (idx_main_v81 i) = ix1 (GcnSpec.c1 i) :=
    funext fun a => Fin.ext (by match a with | ⟨0, _⟩ => rfl)
  rw [val_main_v82_apply, val_main_v79_apply, val_main_v81_apply, val_main_v80_apply, eB]
  simp only [GcnSpec.aff, GcnSpec.affAt, Ideal.addf_def, eL, eR]

/-- The classifier's second layer (18 to 12 features). -/
theorem aff2_ref (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S100000, .i32⟩ : BufTy).Contents (Elt Ideal)) (x4 : (⟨S128x256, .f32⟩ : BufTy).Contents (Elt Ideal)) (x5 : (⟨S256, .f32⟩ : BufTy).Contents (Elt Ideal)) (x6 : (⟨S256x64, .f32⟩ : BufTy).Contents (Elt Ideal)) (x7 : (⟨S64, .f32⟩ : BufTy).Contents (Elt Ideal)) (x8 : (⟨S64x18, .f32⟩ : BufTy).Contents (Elt Ideal)) (x9 : (⟨S18, .f32⟩ : BufTy).Contents (Elt Ideal)) (x10 : (⟨S18x12, .f32⟩ : BufTy).Contents (Elt Ideal)) (x11 : (⟨S12, .f32⟩ : BufTy).Contents (Elt Ideal)) :
    val_main_v86 (F := Ideal) x0 x1 x2 x3 x4 x5 x6 x7 x8 x9 x10 x11 = GcnSpec.aff (val_main_v82 (F := Ideal) x0 x1 x2 x3 x4 x5 x6 x7 x8 x9) x10 x11 := by
  funext i
  have eL : ∀ k : Fin 18, lidx_main_v83 i k = ix2 (GcnSpec.c0 i) k := fun k =>
    funext fun a => Fin.ext (by match a with | ⟨0, _⟩ => rfl | ⟨1, _⟩ => rfl)
  have eR : ∀ k : Fin 18, ridx_main_v83 i k = ix2 k (GcnSpec.c1 i) := fun k =>
    funext fun a => Fin.ext (by match a with | ⟨0, _⟩ => rfl | ⟨1, _⟩ => rfl)
  have eB : idx_main_v84 (idx_main_v85 i) = ix1 (GcnSpec.c1 i) :=
    funext fun a => Fin.ext (by match a with | ⟨0, _⟩ => rfl)
  rw [val_main_v86_apply, val_main_v83_apply, val_main_v85_apply, val_main_v84_apply, eB]
  simp only [GcnSpec.aff, GcnSpec.affAt, Ideal.addf_def, eL, eR]

/-- The classifier's third layer (12 to 6 features). -/
theorem aff3_ref (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S100000, .i32⟩ : BufTy).Contents (Elt Ideal)) (x4 : (⟨S128x256, .f32⟩ : BufTy).Contents (Elt Ideal)) (x5 : (⟨S256, .f32⟩ : BufTy).Contents (Elt Ideal)) (x6 : (⟨S256x64, .f32⟩ : BufTy).Contents (Elt Ideal)) (x7 : (⟨S64, .f32⟩ : BufTy).Contents (Elt Ideal)) (x8 : (⟨S64x18, .f32⟩ : BufTy).Contents (Elt Ideal)) (x9 : (⟨S18, .f32⟩ : BufTy).Contents (Elt Ideal)) (x10 : (⟨S18x12, .f32⟩ : BufTy).Contents (Elt Ideal)) (x11 : (⟨S12, .f32⟩ : BufTy).Contents (Elt Ideal)) (x12 : (⟨S12x6, .f32⟩ : BufTy).Contents (Elt Ideal)) (x13 : (⟨S6, .f32⟩ : BufTy).Contents (Elt Ideal)) :
    val_main_v90 (F := Ideal) x0 x1 x2 x3 x4 x5 x6 x7 x8 x9 x10 x11 x12 x13 = GcnSpec.aff (val_main_v86 (F := Ideal) x0 x1 x2 x3 x4 x5 x6 x7 x8 x9 x10 x11) x12 x13 := by
  funext i
  have eL : ∀ k : Fin 12, lidx_main_v87 i k = ix2 (GcnSpec.c0 i) k := fun k =>
    funext fun a => Fin.ext (by match a with | ⟨0, _⟩ => rfl | ⟨1, _⟩ => rfl)
  have eR : ∀ k : Fin 12, ridx_main_v87 i k = ix2 k (GcnSpec.c1 i) := fun k =>
    funext fun a => Fin.ext (by match a with | ⟨0, _⟩ => rfl | ⟨1, _⟩ => rfl)
  have eB : idx_main_v88 (idx_main_v89 i) = ix1 (GcnSpec.c1 i) :=
    funext fun a => Fin.ext (by match a with | ⟨0, _⟩ => rfl)
  rw [val_main_v90_apply, val_main_v87_apply, val_main_v89_apply, val_main_v88_apply, eB]
  simp only [GcnSpec.aff, GcnSpec.affAt, Ideal.addf_def, eL, eR]

/-- The classifier's last layer (6 to 2 features). -/
theorem aff4_ref (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S100000, .i32⟩ : BufTy).Contents (Elt Ideal)) (x4 : (⟨S128x256, .f32⟩ : BufTy).Contents (Elt Ideal)) (x5 : (⟨S256, .f32⟩ : BufTy).Contents (Elt Ideal)) (x6 : (⟨S256x64, .f32⟩ : BufTy).Contents (Elt Ideal)) (x7 : (⟨S64, .f32⟩ : BufTy).Contents (Elt Ideal)) (x8 : (⟨S64x18, .f32⟩ : BufTy).Contents (Elt Ideal)) (x9 : (⟨S18, .f32⟩ : BufTy).Contents (Elt Ideal)) (x10 : (⟨S18x12, .f32⟩ : BufTy).Contents (Elt Ideal)) (x11 : (⟨S12, .f32⟩ : BufTy).Contents (Elt Ideal)) (x12 : (⟨S12x6, .f32⟩ : BufTy).Contents (Elt Ideal)) (x13 : (⟨S6, .f32⟩ : BufTy).Contents (Elt Ideal)) (x14 : (⟨S6x2, .f32⟩ : BufTy).Contents (Elt Ideal)) (x15 : (⟨S2, .f32⟩ : BufTy).Contents (Elt Ideal)) :
    val_main_v94 (F := Ideal) x0 x1 x2 x3 x4 x5 x6 x7 x8 x9 x10 x11 x12 x13 x14 x15 = GcnSpec.aff (val_main_v90 (F := Ideal) x0 x1 x2 x3 x4 x5 x6 x7 x8 x9 x10 x11 x12 x13) x14 x15 := by
  funext i
  have eL : ∀ k : Fin 6, lidx_main_v91 i k = ix2 (GcnSpec.c0 i) k := fun k =>
    funext fun a => Fin.ext (by match a with | ⟨0, _⟩ => rfl | ⟨1, _⟩ => rfl)
  have eR : ∀ k : Fin 6, ridx_main_v91 i k = ix2 k (GcnSpec.c1 i) := fun k =>
    funext fun a => Fin.ext (by match a with | ⟨0, _⟩ => rfl | ⟨1, _⟩ => rfl)
  have eB : idx_main_v92 (idx_main_v93 i) = ix1 (GcnSpec.c1 i) :=
    funext fun a => Fin.ext (by match a with | ⟨0, _⟩ => rfl)
  rw [val_main_v94_apply, val_main_v91_apply, val_main_v93_apply, val_main_v92_apply, eB]
  simp only [GcnSpec.aff, GcnSpec.affAt, Ideal.addf_def, eL, eR]

/-- The reference's result is the specification's four affine layers of its per-graph means. -/
theorem mlp_ref (x0 : (⟨S100000x128, .f32⟩ : BufTy).Contents (Elt Ideal)) (x1 x2 : (⟨S1600000, .i32⟩ : BufTy).Contents (Elt Ideal)) (x3 : (⟨S100000, .i32⟩ : BufTy).Contents (Elt Ideal)) (x4 : (⟨S128x256, .f32⟩ : BufTy).Contents (Elt Ideal)) (x5 : (⟨S256, .f32⟩ : BufTy).Contents (Elt Ideal)) (x6 : (⟨S256x64, .f32⟩ : BufTy).Contents (Elt Ideal)) (x7 : (⟨S64, .f32⟩ : BufTy).Contents (Elt Ideal))
    (x8 : (⟨S64x18, .f32⟩ : BufTy).Contents (Elt Ideal)) (x9 : (⟨S18, .f32⟩ : BufTy).Contents (Elt Ideal)) (x10 : (⟨S18x12, .f32⟩ : BufTy).Contents (Elt Ideal)) (x11 : (⟨S12, .f32⟩ : BufTy).Contents (Elt Ideal)) (x12 : (⟨S12x6, .f32⟩ : BufTy).Contents (Elt Ideal)) (x13 : (⟨S6, .f32⟩ : BufTy).Contents (Elt Ideal)) (x14 : (⟨S6x2, .f32⟩ : BufTy).Contents (Elt Ideal)) (x15 : (⟨S2, .f32⟩ : BufTy).Contents (Elt Ideal)) :
    val_main_v94 (F := Ideal) x0 x1 x2 x3 x4 x5 x6 x7 x8 x9 x10 x11 x12 x13 x14 x15
      = GcnSpec.mlpSpec (val_main_v78 (F := Ideal) x0 x1 x2 x3 x4 x5 x6 x7) x8 x9 x10 x11 x12 x13 x14 x15 := by
  unfold GcnSpec.mlpSpec
  rw [aff4_ref, aff3_ref, aff2_ref, aff1_ref]

end Cert.ReferenceIdeal.Stage

end
-- ==== Proof.KernelHost.lean ====
/-
  The kernel's host operations, stretch by stretch, as values. Before region 0 the host computes the two degree scales, the
  aggregated first-layer features g1 (scale, gather the source rows, add into the destination rows) and three reshapes (the
  scales to columns, the bias to a row): the very operations the reference applies, so each array IS the reference's stage
  of the same arguments; a reshape to a column or a row keeps every entry. Between regions 0 and 1 the host carries the
  projected features to their neighbours (the same gather-and-scatter, as ONE function of what region 0 left) and reshapes
  the scales, the bias and the graph ids; between regions 1 and 2 it reshapes the classifier's biases to rows. No stretch
  writes an array an earlier one or a region produced.
-/
import proofs.«417467_j50448685859136_2_alg».proof.Proof.Gen.KernelIdeal.Regions
import proofs.«417467_j50448685859136_2_alg».proof.Proof.RefStages
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ) (outs : Outs (F := F))

/-! ## A vector reshaped to a column, read at an index

A reshape keeps the row-major position: entry (i, 0) of the column [a, 1] sits at position i·1 + 0 = i, the position of
entry i of the vector. (The row case [1, a], position 0·a + i, is the library's.) -/

/-- A vector cast to a column reads, at (i, 0), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## An array no item writes is the launch memory's

Each item leaves every array it does not write unchanged; an array that none of the items so far writes therefore still
holds the launch contents. -/

theorem V4_launch (c : Dev nD) (r : Ref sig .tc) (h0 : r ∉ hostOps0_W) (h1 : r ∉ hostOps0_1_W) (h2 : r ∉ hostOps0_2_W)
    (h3 : r ∉ hostOps0_3_W) : V4 m c r = m ((c.tc : Thread nD τ).loc r) :=
  (V4_of m c r h3).trans <| (V3_of m c r h2).trans <| (V2_of m c r h1).trans <| (V1_of m c r h0).trans rfl

theorem V5_launch (c : Dev nD) (r : Ref sig .tc) (h0 : r ∉ hostOps0_W) (h1 : r ∉ hostOps0_1_W) (h2 : r ∉ hostOps0_2_W)
    (h3 : r ∉ hostOps0_3_W) (h4 : r ∉ hostOps0_4_W) : V5 m c r = m ((c.tc : Thread nD τ).loc r) :=
  (V5_of m c r h4).trans (V4_launch m c r h0 h1 h2 h3)

theorem V6_launch (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ ([main_v29] : List (Ref sig .tc))) :
    V6 m outs c r = m ((c.tc : Thread nD τ).loc r) :=
  (V6_of m outs c r h5).trans (V5_launch m c r h0 h1 h2 h3 h4)

theorem V8_launch (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ ([main_v29] : List (Ref sig .tc))) (h6 : r ∉ hostOps1_W)
    (h7 : r ∉ ([main_v43] : List (Ref sig .tc))) : V8 m outs c r = m ((c.tc : Thread nD τ).loc r) :=
  (V8_of m outs c r h7).trans <| (V7_of m outs c r h6).trans (V6_launch m outs c r h0 h1 h2 h3 h4 h5)

theorem V9_launch (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ ([main_v29] : List (Ref sig .tc))) (h6 : r ∉ hostOps1_W)
    (h7 : r ∉ ([main_v43] : List (Ref sig .tc))) (h8 : r ∉ hostOps2_W) : V9 m outs c r = m ((c.tc : Thread nD τ).loc r) :=
  (V9_of m outs c r h8).trans (V8_launch m outs c r h0 h1 h2 h3 h4 h5 h6 h7)

/-! ## Before region 0

The five stretches before region 0 are read as one composed term over the launch arrays: the out-degree count (ones
scattered by the source ids into zeros), clamped below by one, raised to −1/2; the same from the destination ids; the
features scaled by the out-degree scale, their source rows gathered, added into the destination rows. The reference's
stages are the same operations on the same arguments, in the same order. -/

theorem host_g1 (c : Dev nD) : V5 m c main_v25
    = Cert.ReferenceIdeal.Read.val_main_v23 (F := F) (m ((c.tc : Thread nD τ).loc main_arg0)) (m ((c.tc : Thread nD τ).loc main_arg1)) (m ((c.tc : Thread nD τ).loc main_arg2)) := by
  dsimp only [V5, V4, V3, V2, V1, V0, hostOps0_4, hostOps0_3, hostOps0_2, hostOps0_1, hostOps0]
  after_results_simp
  rfl
theorem host_sIn (c : Dev nD) : V5 m c main_v12 = Cert.ReferenceIdeal.Read.val_main_v26 (F := F) (m ((c.tc : Thread nD τ).loc main_arg2)) := by
  dsimp only [V5, V4, V3, V2, V1, V0, hostOps0_4, hostOps0_3, hostOps0_2, hostOps0_1, hostOps0]
  after_results_simp
  rfl
theorem host_sOut (c : Dev nD) : V5 m c main_v10 = Cert.ReferenceIdeal.Read.val_main_v10 (F := F) (m ((c.tc : Thread nD τ).loc main_arg1)) := by
  dsimp only [V5, V4, V3, V2, V1, V0, hostOps0_4, hostOps0_3, hostOps0_2, hostOps0_1, hostOps0]
  after_results_simp
  rfl

/-- The last stretch before region 0 reshapes the in-degree scale it has just computed to a column, whatever it started
    from. -/
theorem sin1_col_of (W : Valuation τ sig (Elt F)) (n : Fin 100000) :
    StableHlo.after hostOps0_4 W main_v26 (ix2 n 0) = StableHlo.after hostOps0_4 W main_v12 (ix1 n) := by
  dsimp only [hostOps0_4]
  after_results_simp
  exact shapeCast_a_a1_apply _ _ n 0
/-- … and the out-degree scale. -/
theorem sout2_col_of (W : Valuation τ sig (Elt F)) (n : Fin 100000) :
    StableHlo.after hostOps0_4 W main_v27 (ix2 n 0) = StableHlo.after hostOps0_4 W main_v10 (ix1 n) := by
  dsimp only [hostOps0_4]
  after_results_simp
  exact shapeCast_a_a1_apply _ _ n 0
/-- … and the first layer's bias, which it found as it was, to a row. -/
theorem b1_row_of (W : Valuation τ sig (Elt F)) (k : Fin 256) :
    StableHlo.after hostOps0_4 W main_v28 (ix2 0 k) = W main_arg5 (ix1 k) := by
  dsimp only [hostOps0_4]
  after_results_simp
  exact shapeCast_a_1a_apply _ _ 0 k

theorem host_sin1_col (c : Dev nD) (n : Fin 100000) : V5 m c main_v26 (ix2 n 0) = V5 m c main_v12 (ix1 n) :=
  sin1_col_of (V4 m c) n
theorem host_sout2_col (c : Dev nD) (n : Fin 100000) : V5 m c main_v27 (ix2 n 0) = V5 m c main_v10 (ix1 n) :=
  sout2_col_of (V4 m c) n
theorem host_b1_row (c : Dev nD) (k : Fin 256) : V5 m c main_v28 (ix2 0 k) = m ((c.tc : Thread nD τ).loc main_arg5) (ix1 k) :=
  (b1_row_of (V4 m c) k).trans (congrFun (V4_launch m c main_arg5 (by decide) (by decide) (by decide) (by decide)) (ix1 k))
theorem host_W1 (c : Dev nD) : V5 m c main_arg4 = m ((c.tc : Thread nD τ).loc main_arg4) :=
  V5_launch m c main_arg4 (by decide) (by decide) (by decide) (by decide) (by decide)
theorem host_W2 (c : Dev nD) : V5 m c main_arg6 = m ((c.tc : Thread nD τ).loc main_arg6) :=
  V5_launch m c main_arg6 (by decide) (by decide) (by decide) (by decide) (by decide)

/-! ## Between regions 0 and 1

The stretch between regions 0 and 1, from ANY contents: its aggregated features are the reference's gather-and-scatter
applied to whatever the projected-features array, the source ids and the destination ids hold (the projected features
stay a variable: nothing opens them); its three reshapes keep every entry of the arrays they read. -/

theorem g2_of (W : Valuation τ sig (Elt F)) (p : (⟨S100000x64, .f32⟩ : BufTy).Contents (Elt F))
    (x1 x2 : (⟨S1600000, .i32⟩ : BufTy).Contents (Elt F)) (hp : W main_v29 = p) (h1 : W main_arg1 = x1) (h2 : W main_arg2 = x2) :
    StableHlo.after hostOps1 W main_v39 = Cert.ReferenceIdeal.Stage.g2Of (F := F) p x1 x2 := by
  dsimp only [hostOps1]
  after_results_simp
  rw [hp, h1, h2]
  rfl
theorem sin2_col_of (W : Valuation τ sig (Elt F)) (n : Fin 100000) :
    StableHlo.after hostOps1 W main_v40 (ix2 n 0) = W main_v12 (ix1 n) := by
  dsimp only [hostOps1]
  after_results_simp
  exact shapeCast_a_a1_apply _ _ n 0
theorem b2_row_of (W : Valuation τ sig (Elt F)) (d : Fin 64) :
    StableHlo.after hostOps1 W main_v41 (ix2 0 d) = W main_arg7 (ix1 d) := by
  dsimp only [hostOps1]
  after_results_simp
  exact shapeCast_a_1a_apply _ _ 0 d
theorem gid_col_of (W : Valuation τ sig (Elt F)) (n : Fin 100000) :
    StableHlo.after hostOps1 W main_v42 (ix2 n 0) = W main_arg3 (ix1 n) := by
  dsimp only [hostOps1]
  after_results_simp
  exact shapeCast_a_a1_apply _ _ n 0

theorem host_g2 (c : Dev nD) : V7 m outs c main_v39
    = Cert.ReferenceIdeal.Stage.g2Of (F := F) (outs 6 main_v29 c) (m ((c.tc : Thread nD τ).loc main_arg1)) (m ((c.tc : Thread nD τ).loc main_arg2)) :=
  g2_of (V6 m outs c) _ _ _ (Function.update_self _ _ _)
    (V6_launch m outs c main_arg1 (by decide) (by decide) (by decide) (by decide) (by decide) (by decide))
    (V6_launch m outs c main_arg2 (by decide) (by decide) (by decide) (by decide) (by decide) (by decide))
theorem host_sin2_col (c : Dev nD) (n : Fin 100000) : V7 m outs c main_v40 (ix2 n 0) = V5 m c main_v12 (ix1 n) :=
  (sin2_col_of (V6 m outs c) n).trans (congrFun (V6_of m outs c main_v12 (by decide)) (ix1 n))
theorem host_b2_row (c : Dev nD) (d : Fin 64) : V7 m outs c main_v41 (ix2 0 d) = m ((c.tc : Thread nD τ).loc main_arg7) (ix1 d) :=
  (b2_row_of (V6 m outs c) d).trans
    (congrFun (V6_launch m outs c main_arg7 (by decide) (by decide) (by decide) (by decide) (by decide) (by decide)) (ix1 d))
theorem host_gid_col (c : Dev nD) (n : Fin 100000) : V7 m outs c main_v42 (ix2 n 0) = m ((c.tc : Thread nD τ).loc main_arg3) (ix1 n) :=
  (gid_col_of (V6 m outs c) n).trans
    (congrFun (V6_launch m outs c main_arg3 (by decide) (by decide) (by decide) (by decide) (by decide) (by decide)) (ix1 n))

/-! ## Between regions 1 and 2

The last stretch is four reshapes of bias vectors to rows; it leaves the pooled array as region 1 left it. -/

theorem bc1_row_of (W : Valuation τ sig (Elt F)) (k : Fin 18) :
    StableHlo.after hostOps2 W main_v44 (ix2 0 k) = W main_arg9 (ix1 k) := by
  dsimp only [hostOps2]
  after_results_simp
  exact shapeCast_a_1a_apply _ _ 0 k
theorem bc2_row_of (W : Valuation τ sig (Elt F)) (k : Fin 12) :
    StableHlo.after hostOps2 W main_v45 (ix2 0 k) = W main_arg11 (ix1 k) := by
  dsimp only [hostOps2]
  after_results_simp
  exact shapeCast_a_1a_apply _ _ 0 k
theorem bc3_row_of (W : Valuation τ sig (Elt F)) (k : Fin 6) :
    StableHlo.after hostOps2 W main_v46 (ix2 0 k) = W main_arg13 (ix1 k) := by
  dsimp only [hostOps2]
  after_results_simp
  exact shapeCast_a_1a_apply _ _ 0 k
theorem bc4_row_of (W : Valuation τ sig (Elt F)) (k : Fin 2) :
    StableHlo.after hostOps2 W main_v47 (ix2 0 k) = W main_arg15 (ix1 k) := by
  dsimp only [hostOps2]
  after_results_simp
  exact shapeCast_a_1a_apply _ _ 0 k

theorem host_hg (c : Dev nD) : V9 m outs c main_v43 = outs 8 main_v43 c :=
  (V9_of m outs c main_v43 (by decide)).trans (Function.update_self _ _ _)
theorem host_Wc1 (c : Dev nD) : V9 m outs c main_arg8 = m ((c.tc : Thread nD τ).loc main_arg8) :=
  V9_launch m outs c main_arg8 (by decide) (by decide) (by decide) (by decide) (by decide) (by decide) (by decide) (by decide) (by decide)
theorem host_Wc2 (c : Dev nD) : V9 m outs c main_arg10 = m ((c.tc : Thread nD τ).loc main_arg10) :=
  V9_launch m outs c main_arg10 (by decide) (by decide) (by decide) (by decide) (by decide) (by decide) (by decide) (by decide) (by decide)
theorem host_Wc3 (c : Dev nD) : V9 m outs c main_arg12 = m ((c.tc : Thread nD τ).loc main_arg12) :=
  V9_launch m outs c main_arg12 (by decide) (by decide) (by decide) (by decide) (by decide) (by decide) (by decide) (by decide) (by decide)
theorem host_Wc4 (c : Dev nD) : V9 m outs c main_arg14 = m ((c.tc : Thread nD τ).loc main_arg14) :=
  V9_launch m outs c main_arg14 (by decide) (by decide) (by decide) (by decide) (by decide) (by decide) (by decide) (by decide) (by decide)
theorem host_bc1_row (c : Dev nD) (k : Fin 18) : V9 m outs c main_v44 (ix2 0 k) = m ((c.tc : Thread nD τ).loc main_arg9) (ix1 k) :=
  (bc1_row_of (V8 m outs c) k).trans
    (congrFun (V8_launch m outs c main_arg9 (by decide) (by decide) (by decide) (by decide) (by decide) (by decide) (by decide) (by decide)) (ix1 k))
theorem host_bc2_row (c : Dev nD) (k : Fin 12) : V9 m outs c main_v45 (ix2 0 k) = m ((c.tc : Thread nD τ).loc main_arg11) (ix1 k) :=
  (bc2_row_of (V8 m outs c) k).trans
    (congrFun (V8_launch m outs c main_arg11 (by decide) (by decide) (by decide) (by decide) (by decide) (by decide) (by decide) (by decide)) (ix1 k))
theorem host_bc3_row (c : Dev nD) (k : Fin 6) : V9 m outs c main_v46 (ix2 0 k) = m ((c.tc : Thread nD τ).loc main_arg13) (ix1 k) :=
  (bc3_row_of (V8 m outs c) k).trans
    (congrFun (V8_launch m outs c main_arg13 (by decide) (by decide) (by decide) (by decide) (by decide) (by decide) (by decide) (by decide)) (ix1 k))
theorem host_bc4_row (c : Dev nD) (k : Fin 2) : V9 m outs c main_v47 (ix2 0 k) = m ((c.tc : Thread nD τ).loc main_arg15) (ix1 k) :=
  (bc4_row_of (V8 m outs c) k).trans
    (congrFun (V8_launch m outs c main_arg15 (by decide) (by decide) (by decide) (by decide) (by decide) (by decide) (by decide) (by decide)) (ix1 k))

end Cert.KernelIdeal.Hand

end
-- ==== Proof.Bridge.lean ====
/-
  The kernel's result is the reference's, as one function of the sixteen argument arrays. Region by region: the host's
  arrays before region 0 are the reference's stages (the aggregated features, the two scales), so region 0 leaves the
  reference's projected features; the same gather-and-scatter then carries them to the neighbours on both sides, so region 1
  leaves the reference's per-graph means; and region 2 the reference's class scores. The scales reach the kernels as columns
  and the biases as rows: reshapes, which keep every entry.
-/
import proofs.«417467_j50448685859136_2_alg».proof.Proof.Whole
import proofs.«417467_j50448685859136_2_alg».proof.Proof.ConvValue
import proofs.«417467_j50448685859136_2_alg».proof.Proof.PoolValue
import proofs.«417467_j50448685859136_2_alg».proof.Proof.MlpValue
import proofs.«417467_j50448685859136_2_alg».proof.Proof.KernelHost
import proofs.«417467_j50448685859136_2_alg».proof.Proof.RefStages

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-! ## The regions' entry contents, as the generated valuations

Regions 1 and 2 are entered from the contents the host stretch before them leaves; those are the generated valuations at
what the regions before left. -/

/-- What region 1 is entered from. -/
theorem E1_eq (c : Dev nD) (b : Ref sig .tc) : E1 m c b = V7 m (outs m) c b := by
  show W7 m c b = _; rw [V7_eq]
/-- What region 2 is entered from. -/
theorem E2_eq (c : Dev nD) (b : Ref sig .tc) : E2 m c b = V9 m (outs m) c b := by
  show W9 m c b = _; rw [V9_eq]

/-! ## Region 0

The region finds the aggregated features, the weights, and the two scales and the bias reshaped to columns and a row.
Entry by entry the column is the scale vector and the row the bias vector, so the column form of the specification is the
vector form; the aggregated features and the scale vectors are the reference's stages, the weights and the bias the
launch arguments; and the reference's projected features are the vector form of those. -/

/-- What region 0 leaves is the reference's projected-features stage of the arguments. -/
theorem arr0_ref (c : Dev nD) : arr0 m c
    = Cert.ReferenceIdeal.Read.val_main_v48 (F := Ideal) (m ((c.tc : Thread nD τ).loc main_arg0)) (m ((c.tc : Thread nD τ).loc main_arg1)) (m ((c.tc : Thread nD τ).loc main_arg2))
        (m ((c.tc : Thread nD τ).loc main_arg4)) (m ((c.tc : Thread nD τ).loc main_arg5)) (m ((c.tc : Thread nD τ).loc main_arg6)) := by
  unfold arr0
  refine ((conv_array (E0 m) c).trans ?_).trans (Cert.ReferenceIdeal.Stage.conv_ref _ _ _ _ _ _).symm
  show GcnSpec.convColsSpec (V5 m c main_v25) (V5 m c main_arg4) (V5 m c main_v26) (V5 m c main_v28) (V5 m c main_v27) (V5 m c main_arg6) = _
  rw [← host_g1 m c, ← host_W1 m c, ← host_W2 m c]
  exact GcnSpec.convColsSpec_eq _ _ _ _ _ _ _ _ _
    (fun n => (host_sin1_col m c n).trans (congrFun (host_sIn m c) (ix1 n)))
    (host_b1_row m c)
    (fun n => (host_sout2_col m c n).trans (congrFun (host_sOut m c) (ix1 n)))

/-! ## Region 1

The aggregated second-layer features the region finds are the host's gather-and-scatter of what region 0 left, which is
the reference's projected features: so they are the reference's aggregated second-layer features. The scale column, the
bias row and the graph-id column are reshapes of the in-degree scales, the bias and the graph ids. -/

/-- The aggregated second-layer features region 1 finds are the reference's. -/
theorem g2_found (c : Dev nD) : E1 m c main_v39
    = Cert.ReferenceIdeal.Read.val_main_v58 (F := Ideal) (m ((c.tc : Thread nD τ).loc main_arg0)) (m ((c.tc : Thread nD τ).loc main_arg1)) (m ((c.tc : Thread nD τ).loc main_arg2))
        (m ((c.tc : Thread nD τ).loc main_arg4)) (m ((c.tc : Thread nD τ).loc main_arg5)) (m ((c.tc : Thread nD τ).loc main_arg6)) := by
  refine (E1_eq m c main_v39).trans ((host_g2 m (outs m) c).trans ?_)
  rw [outs6, arr0_ref]
  exact (Cert.ReferenceIdeal.Stage.g2_ref _ _ _ _ _ _).symm

/-- What region 1 leaves is the reference's per-graph-means stage of the arguments. -/
theorem arr1_ref (c : Dev nD) : arr1 m c
    = Cert.ReferenceIdeal.Read.val_main_v78 (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
        (m ((c.tc : Thread nD τ).loc main_arg7)) := by
  unfold arr1
  refine ((pool_array (E1 m) c).trans ?_).trans (Cert.ReferenceIdeal.Stage.pool_ref _ _ _ _ _ _ _ _).symm
  rw [g2_found m c]
  exact GcnSpec.poolColsSpec_eq _ _ _ _ _ _ _
    (fun n => (congrFun (E1_eq m c main_v40) (ix2 n 0)).trans ((host_sin2_col m (outs m) c n).trans (congrFun (host_sIn m c) (ix1 n))))
    (fun d => (congrFun (E1_eq m c main_v41) (ix2 0 d)).trans (host_b2_row m (outs m) c d))
    (fun n => (congrFun (E1_eq m c main_v42) (ix2 n 0)).trans (host_gid_col m (outs m) c n))

/-! ## Region 2

The pooled rows the region finds are what region 1 left, the reference's per-graph means; the four weight matrices are
the launch arguments and the four bias rows reshapes of the bias arguments. -/

/-- The pooled rows region 2 finds are the reference's per-graph means. -/
theorem hg_found (c : Dev nD) : E2 m c main_v43
    = Cert.ReferenceIdeal.Read.val_main_v78 (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
        (m ((c.tc : Thread nD τ).loc main_arg7)) :=
  (E2_eq m c main_v43).trans ((host_hg m (outs m) c).trans ((outs8 m c).trans (arr1_ref m c)))

/-- THE RESULT: what region 2 leaves is the reference's result stage of the sixteen arguments. -/
theorem arr2_ref (c : Dev nD) : arr2 m c = Cert.ReferenceIdeal.Read.val_main_v94 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  unfold arr2
  refine ((mlp_array (E2 m) c).trans ?_).trans (Cert.ReferenceIdeal.Stage.mlp_ref _ _ _ _ _ _ _ _ _ _ _ _ _ _ _ _).symm
  rw [hg_found m c, (E2_eq m c main_arg8).trans (host_Wc1 m (outs m) c), (E2_eq m c main_arg10).trans (host_Wc2 m (outs m) c),
    (E2_eq m c main_arg12).trans (host_Wc3 m (outs m) c), (E2_eq m c main_arg14).trans (host_Wc4 m (outs m) c)]
  exact GcnSpec.mlpRowsSpec_eq _ _ _ _ _ _ _ _ _ _ _ _ _
    (fun k => (congrFun (E2_eq m c main_v44) (ix2 0 k)).trans (host_bc1_row m (outs m) c k))
    (fun k => (congrFun (E2_eq m c main_v45) (ix2 0 k)).trans (host_bc2_row m (outs m) c k))
    (fun k => (congrFun (E2_eq m c main_v46) (ix2 0 k)).trans (host_bc3_row m (outs m) c k))
    (fun k => (congrFun (E2_eq m c main_v47) (ix2 0 k)).trans (host_bc4_row m (outs m) c k))

end Cert.KernelIdeal.Hand

end
-- ==== Proof.lean ====
/-
  The certificate of a two-layer graph-convolution network with a per-graph mean pool and a four-layer classifier: a program
  of three TPU kernels among host operations against a plain reference.

  FRAMES. The kernel's program (word-level and idealized: one text at two float instances) is ten items — host stretches and
  three kernel regions — run from the launch to the return (Proof/Whole.lean, Proof/KWhole.lean); each region's body is run
  at every grid point (Proof/ConvBody.lean: one store per point; Proof/PoolBody.lean: a running sum kept in the output's staging
  buffer with its counts in a scratch column, zeroed at the first point and divided at the last; Proof/MlpBody.lean). Every
  argument array ends as launched. The reference is host operations only: its frame is its run with the result dropped.

  NOTHING TO PRESERVE. The idealized kernel is the kernel's own text read over the extended reals: no operation was rewritten.

  EQUAL RESULTS over the extended reals, for every finite or infinite float input and EVERY integer input. Both programs
  compute the degree scales and carry features along the edges by the SAME host gather-and-scatter, so those arrays are
  equal as they stand (Proof/KernelHost.lean). What differs is (1) tiling: the kernel computes the layer-one epilogue and the
  layer-two projection tile by tile where the reference multiplies whole matrices — the same sums, entry by entry
  (Proof/ConvValue.lean against Proof/RefStages.lean, both through Proof/Spec.lean); (2) the pool: the reference ADDS each
  node's row into the row of its graph id (a scatter that drops an id outside 0..511, read signed), the kernel MULTIPLIES by a
  one-hot matrix (a comparison of the id word with the column number, which no id outside 0..511 meets) and accumulates over
  fifty tiles — the same sum over the nodes of each graph, since 0 * y = 0 and 1 * y = y on the extended reals and sums regroup
  freely (Proof/PoolValue.lean against Proof/RefStages.lean); (3) layouts: scales as columns, biases as rows. No law that fails
  at an infinity is used, so the precondition is never opened. Proof/Bridge.lean chains the three regions.
-/
import proofs.«417467_j50448685859136_2_alg».proof.Defs
import proofs.«417467_j50448685859136_2_alg».proof.Proof.Gen.Kernel
import proofs.«417467_j50448685859136_2_alg».proof.Proof.Gen.KernelIdeal
import proofs.«417467_j50448685859136_2_alg».proof.Proof.Gen.ReferenceIdeal
import proofs.«417467_j50448685859136_2_alg».proof.Proof.Gen.ReferenceIdeal.Run
import proofs.«417467_j50448685859136_2_alg».proof.Proof.Gen.ReferenceIdeal.Read
import proofs.«417467_j50448685859136_2_alg».proof.Proof.Gen.Pre_finite_inputs
import proofs.«417467_j50448685859136_2_alg».proof.Proof.Whole
import proofs.«417467_j50448685859136_2_alg».proof.Proof.KWhole
import proofs.«417467_j50448685859136_2_alg».proof.Proof.Bridge
import Idealize.ShloMosaic.Adequacy
import Idealize.ShloMosaic.Init

noncomputable section

namespace Cert.Proof

open Idealize.ShloMosaic Idealize.SL.Sem

/-- The word-level kernel program runs to the end, faults nowhere, and leaves its sixteen arguments as launched. -/
theorem frame_k : Cert.frame_Kernel := fun m ρ _ => Cert.Kernel.Hand.frame_all (F := Bits) m ρ

/-- The same of the idealized kernel program. -/
theorem frame_ki : Cert.frame_KernelIdeal := fun m ρ _ => Cert.KernelIdeal.Hand.frame_all (F := Ideal) m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs run, and the kernel's result array — what its last region leaves —
    is the reference's result stage of the same sixteen arrays. -/
theorem algebraic : Cert.algebraic_KernelIdeal_ReferenceIdeal := by
  intro m ρ m' ρ' _ hagree
  refine ⟨fun c => Cert.KernelIdeal.Hand.arr2 m c, Cert.KernelIdeal.Hand.run_all (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v94_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
  exact (Cert.KernelIdeal.Hand.arr2_ref m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
